-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x1000 : Shape := ⟨2, ![8192, 1000]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1000 : S_.BroadcastsInDim S8192x1000 (![] : Fin 0 → Fin S8192x1000.rank)
  reducesTo_S8192x1000_S_d0_1 : S8192x1000.ReducesTo [0, 1] S_

variable [Facts]

def fn_part1 {F : FTy → Type} [FloatOps F] (main_arg4 : FVec F S8192x1000 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x1000 .f32 := Host.absf main_arg4
  let main_cst_6 : FVec F S_ .f32 := constant S_ .f32 0x7F800000#32
  let main_v20 : FVec F S8192x1000 .f32 := broadcastInDim S8192x1000 ![] bcast_S_S8192x1000 main_cst_6
  let main_v21 : IVec S8192x1000 1 := cmpf .olt main_v19 main_v20
  let main_c_7 : IVec S_ 1 := constantI S_ 1 1#1
  let main_v22 : IVec S_ 1 := (fun x v => Host.reduce IntOp.andi x v reducesTo_S8192x1000_S_d0_1 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x1000 .f32) (main_arg5 : IVec S8192 32) (main_arg6 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S8192x2048 : Shape := ⟨2, ![8192, 2048]⟩
abbrev S8192x1000 : Shape := ⟨2, ![8192, 1000]⟩
abbrev S8192 : Shape := ⟨1, ![8192]⟩
abbrev S2x256x2048 : Shape := ⟨3, ![2, 256, 2048]⟩
abbrev S512x2048 : Shape := ⟨2, ![512, 2048]⟩
abbrev S512 : Shape := ⟨1, ![512]⟩
abbrev S1x256x2048 : Shape := ⟨3, ![1, 256, 2048]⟩
abbrev S256x2048 : Shape := ⟨2, ![256, 2048]⟩
abbrev S512x1 : Shape := ⟨2, ![512, 1]⟩
abbrev S512x256 : Shape := ⟨2, ![512, 256]⟩
abbrev S256x512 : Shape := ⟨2, ![256, 512]⟩
abbrev S_ : Shape := ⟨0, ![]⟩
abbrev S2x1x128 : Shape := ⟨3, ![2, 1, 128]⟩
abbrev S1x1x128 : Shape := ⟨3, ![1, 1, 128]⟩
abbrev S1x128 : Shape := ⟨2, ![1, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2x1x1000 : Shape := ⟨3, ![2, 1, 1000]⟩
abbrev S1024x1000 : Shape := ⟨2, ![1024, 1000]⟩
abbrev S1024 : Shape := ⟨1, ![1024]⟩
abbrev S1x1x1000 : Shape := ⟨3, ![1, 1, 1000]⟩
abbrev S1x1000 : Shape := ⟨2, ![1, 1000]⟩
abbrev S1024x1 : Shape := ⟨2, ![1024, 1]⟩
abbrev S1000 : Shape := ⟨1, ![1000]⟩
abbrev S8192x1 : Shape := ⟨2, ![8192, 1]⟩

abbrev nBuf : Space → Nat
  | .hbm => 145
  | .vmem => 26
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x1000, .f32⟩
  | 5 => ⟨S8192, .i32⟩
  | 6 => ⟨S8192, .i32⟩
  | 7 => ⟨S2x256x2048, .f32⟩
  | 8 => ⟨S2x256x2048, .f32⟩
  | 9 => ⟨S_, .f32⟩
  | 10 => ⟨S256x2048, .f32⟩
  | 11 => ⟨S_, .f32⟩
  | 12 => ⟨S256x2048, .f32⟩
  | 13 => ⟨S2x1x128, .f32⟩
  | 14 => ⟨S_, .f32⟩
  | 15 => ⟨S1x128, .f32⟩
  | 16 => ⟨S2x1x1000, .f32⟩
  | 17 => ⟨S2x1x1000, .f32⟩
  | 18 => ⟨S_, .f32⟩
  | 19 => ⟨S1x1000, .f32⟩
  | 20 => ⟨S_, .f32⟩
  | 21 => ⟨S1x1000, .f32⟩
  | 22 => ⟨S_, .i32⟩
  | 23 => ⟨S8192, .i32⟩
  | 24 => ⟨S8192, .i1⟩
  | 25 => ⟨S8192, .f32⟩
  | 26 => ⟨S_, .i32⟩
  | 27 => ⟨S8192, .i32⟩
  | 28 => ⟨S8192, .i1⟩
  | 29 => ⟨S8192, .f32⟩
  | 30 => ⟨S_, .f32⟩
  | 31 => ⟨S256, .f32⟩
  | 32 => ⟨S8192x1, .i32⟩
  | 33 => ⟨S256, .f32⟩
  | 34 => ⟨S_, .f32⟩
  | 35 => ⟨S256, .f32⟩
  | 36 => ⟨S8192x1, .i32⟩
  | 37 => ⟨S256, .f32⟩
  | 38 => ⟨S_, .f32⟩
  | 39 => ⟨S256, .f32⟩
  | 40 => ⟨S256, .f32⟩
  | 41 => ⟨S256x1, .f32⟩
  | 42 => ⟨S256x2048, .f32⟩
  | 43 => ⟨S256x2048, .f32⟩
  | 44 => ⟨S_, .f32⟩
  | 45 => ⟨S256, .f32⟩
  | 46 => ⟨S256, .f32⟩
  | 47 => ⟨S256x1, .f32⟩
  | 48 => ⟨S256x2048, .f32⟩
  | 49 => ⟨S256x2048, .f32⟩
  | 50 => ⟨S256x2048, .f32⟩
  | 51 => ⟨S_, .f32⟩
  | 52 => ⟨S256, .f32⟩
  | 53 => ⟨S_, .f32⟩
  | 54 => ⟨S256, .f32⟩
  | 55 => ⟨S256, .f32⟩
  | 56 => ⟨S256x2048, .f32⟩
  | 57 => ⟨S_, .f32⟩
  | 58 => ⟨S256, .f32⟩
  | 59 => ⟨S_, .f32⟩
  | 60 => ⟨S256, .f32⟩
  | 61 => ⟨S256, .f32⟩
  | 62 => ⟨S_, .f32⟩
  | 63 => ⟨S256, .f32⟩
  | 64 => ⟨S256, .i1⟩
  | 65 => ⟨S_, .f32⟩
  | 66 => ⟨S256, .f32⟩
  | 67 => ⟨S256, .i1⟩
  | 68 => ⟨S256, .i1⟩
  | 69 => ⟨S256, .f32⟩
  | 70 => ⟨S256, .f32⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1x1, .f32⟩
  | 89 => ⟨S_, .f32⟩
  | 90 => ⟨S_, .f32⟩
  | 91 => ⟨S_, .f32⟩
  | 92 => ⟨S1x1, .f32⟩
  | 93 => ⟨S_, .f32⟩
  | 94 => ⟨S_, .f32⟩
  | 95 => ⟨S_, .f32⟩
  | 96 => ⟨S1x1, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S1000, .f32⟩
  | 107 => ⟨S_, .f32⟩
  | 108 => ⟨S_, .f32⟩
  | 109 => ⟨S1000, .f32⟩
  | 110 => ⟨S1000, .f32⟩
  | 111 => ⟨S1000, .f32⟩
  | 112 => ⟨S_, .f32⟩
  | 113 => ⟨S_, .f32⟩
  | 114 => ⟨S1000, .f32⟩
  | 115 => ⟨S1000, .f32⟩
  | 116 => ⟨S1000, .f32⟩
  | 117 => ⟨S1000, .f32⟩
  | 118 => ⟨S1000, .f32⟩
  | 119 => ⟨S1000, .f32⟩
  | 120 => ⟨S_, .f32⟩
  | 121 => ⟨S_, .f32⟩
  | 122 => ⟨S1000, .f32⟩
  | 123 => ⟨S1000, .f32⟩
  | 124 => ⟨S_, .f32⟩
  | 125 => ⟨S_, .f32⟩
  | 126 => ⟨S_, .f32⟩
  | 127 => ⟨S_, .f32⟩
  | _ => ⟨S8192x2048, .f32⟩

abbrev hbmTy0_1 (i : Nat) : BufTy := match i % 128 with
  | 0 => ⟨S_, .f32⟩
  | 1 => ⟨S_, .f32⟩
  | 2 => ⟨S_, .i1⟩
  | 3 => ⟨S_, .f32⟩
  | 4 => ⟨S_, .i1⟩
  | 5 => ⟨S_, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S512, .i32⟩
  | .local _ .vmem, ⟨3, _⟩ => ⟨S512, .i32⟩
  | .local _ .vmem, ⟨4, _⟩ => ⟨S512, .i32⟩
  | .local _ .vmem, ⟨5, _⟩ => ⟨S512, .i32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x1x128, .f32⟩
  | .local _ .vmem, ⟨17, _⟩ => ⟨S1x1x128, .f32⟩
  | .local _ .vmem, ⟨18, _⟩ => ⟨S1024x1000, .f32⟩
  | .local _ .vmem, ⟨19, _⟩ => ⟨S1024x1000, .f32⟩
  | .local _ .vmem, ⟨20, _⟩ => ⟨S1024, .i32⟩
  | .local _ .vmem, ⟨21, _⟩ => ⟨S1024, .i32⟩
  | .local _ .vmem, ⟨22, _⟩ => ⟨S1x1x1000, .f32⟩
  | .local _ .vmem, ⟨23, _⟩ => ⟨S1x1x1000, .f32⟩
  | .local _ .vmem, ⟨24, _⟩ => ⟨S1x1x1000, .f32⟩
  | .local _ .vmem, ⟨25, _⟩ => ⟨S1x1x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_cst_13 : Ref sig .tc := ⟨.hbm, 62, rfl⟩
abbrev main_v38 : Ref sig .tc := ⟨.hbm, 63, rfl⟩
abbrev main_v39 : Ref sig .tc := ⟨.hbm, 64, rfl⟩
abbrev main_cst_14 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_call0_v0 : Ref sig .tc := ⟨.hbm, 72, rfl⟩
abbrev main_call0_v1 : Ref sig .tc := ⟨.hbm, 73, rfl⟩
abbrev main_v45 : Ref sig .tc := ⟨.hbm, 74, rfl⟩
abbrev main_v46 : Ref sig .tc := ⟨.hbm, 75, rfl⟩
abbrev main_cst_16 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_cst_18 : Ref sig .tc := ⟨.hbm, 80, rfl⟩
abbrev main_v49 : Ref sig .tc := ⟨.hbm, 81, rfl⟩
abbrev main_cst_19 : Ref sig .tc := ⟨.hbm, 82, rfl⟩
abbrev main_v50 : Ref sig .tc := ⟨.hbm, 83, rfl⟩
abbrev main_v51 : Ref sig .tc := ⟨.hbm, 84, rfl⟩
abbrev main_cst_20 : Ref sig .tc := ⟨.hbm, 85, rfl⟩
abbrev main_call1_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_21 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_22 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_23 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_24 : Ref sig .tc := ⟨.hbm, 102, rfl⟩
abbrev main_v64 : Ref sig .tc := ⟨.hbm, 103, rfl⟩
abbrev main_cst_25 : Ref sig .tc := ⟨.hbm, 104, rfl⟩
abbrev main_v65 : Ref sig .tc := ⟨.hbm, 105, rfl⟩
abbrev main_v66 : Ref sig .tc := ⟨.hbm, 106, rfl⟩
abbrev main_cst_26 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_27 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_28 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_29 : Ref sig .tc := ⟨.hbm, 124, rfl⟩
abbrev main_v81 : Ref sig .tc := ⟨.hbm, 125, rfl⟩
abbrev main_v82 : Ref sig .tc := ⟨.hbm, 126, rfl⟩
abbrev main_cst_30 : Ref sig .tc := ⟨.hbm, 127, rfl⟩
abbrev main_v83 : Ref sig .tc := ⟨.hbm, 128, rfl⟩
abbrev main_cst_31 : Ref sig .tc := ⟨.hbm, 129, rfl⟩
abbrev main_v84 : Ref sig .tc := ⟨.hbm, 130, rfl⟩
abbrev main_cst_32 : Ref sig .tc := ⟨.hbm, 131, rfl⟩
abbrev main_v85 : Ref sig .tc := ⟨.hbm, 132, rfl⟩
abbrev main_v86 : Ref sig .tc := ⟨.hbm, 133, rfl⟩
abbrev main_cst_33 : Ref sig .tc := ⟨.hbm, 134, rfl⟩
abbrev main_call2_v0 : Ref sig .tc := ⟨.hbm, 135, rfl⟩
abbrev main_v87 : Ref sig .tc := ⟨.hbm, 136, rfl⟩
abbrev main_cst_34 : Ref sig .tc := ⟨.hbm, 137, rfl⟩
abbrev main_v88 : Ref sig .tc := ⟨.hbm, 138, rfl⟩
abbrev main_cst_35 : Ref sig .tc := ⟨.hbm, 139, rfl⟩
abbrev main_v89 : Ref sig .tc := ⟨.hbm, 140, rfl⟩
abbrev main_v90 : Ref sig .tc := ⟨.hbm, 141, rfl⟩
abbrev main_cst_36 : Ref sig .tc := ⟨.hbm, 142, rfl⟩
abbrev main_v91 : Ref sig .tc := ⟨.hbm, 143, rfl⟩
abbrev main_v92 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 1 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  ![v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x1000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S512_S512_0 : ∀ a, (![0] : Fin 1 → Nat) a + S512.size a ≤ S512.size a
  h_S512 : 0 < S512.numel
  iota_S512x256_d1_w32 : S512x256.Iotas .tc 32 [1]
  broadcasts_S512x1_S512x256 : S512x1.Broadcasts S512x256
  natLt_1_32 : 1 < 32
  bitsLt_bf16_f32 : FTy.bits .bf16 < FTy.bits .f32
  transposes_S512x256_p1_0_S256x512 : S512x256.Transposes [1, 0] S256x512
  reducesTo_S2x256x2048_S256x2048_d0 : S2x256x2048.ReducesTo [0] S256x2048
  h_S_ : 0 < S_.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  reduces_S256x1_S1 : S256x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  reducesTo_S2x1x128_S1x128_d0 : S2x1x128.ReducesTo [0] S1x128
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  inb_S1024_S1024_0 : ∀ a, (![0] : Fin 1 → Nat) a + S1024.size a ≤ S1024.size a
  h_S1024 : 0 < S1024.numel
  reduces_S1024x1000_S1000 : S1024x1000.Reduces [0] S1000
  shapeCasts_S1000_S1x1000 : S1000.ShapeCasts S1x1000
  reducesTo_S2x1x1000_S1x1000_d0 : S2x1x1000.ReducesTo [0] S1x1000
  bcast_S_S8192 : S_.BroadcastsInDim S8192 (![] : Fin 0 → Fin S8192.rank)
  bcast_S_S256 : S_.BroadcastsInDim S256 (![] : Fin 0 → Fin S256.rank)
  bcast_S8192_S8192x1_0 : S8192.BroadcastsInDim S8192x1 (![0] : Fin 1 → Fin S8192x1.rank)
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  reducesTo_S256x2048_S256_d1 : S256x2048.ReducesTo [1] S256
  reducesTo_S256_S_d0 : S256.ReducesTo [0] S_
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  reducesTo_S8192_S_d0 : S8192.ReducesTo [0] S_
  shapeCasts_S1x1000_S1000 : S1x1000.ShapeCasts S1000
  bcast_S_S1000 : S_.BroadcastsInDim S1000 (![] : Fin 0 → Fin S1000.rank)
  reducesTo_S1000_S_d0 : S1000.ReducesTo [0] S_
  dot_S256x512_S512x2048_S256x2048_1_0_0_1_n_n_wf : DotDims.WF S256x512 S512x2048 S256x2048 [1] [0] [0] [1] [] []
  scatter_S256_S8192x1_S8192_n_0_0_1_wf : ScatterDims.WF S256 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S8192.size a
  hwx0_1 : ∀ i : grid0.Coords, EltTy.bits .i32 = 32 ∨ (Rect.block (s := S8192) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .i32 = 32 ∨ (Rect.block (s := S8192) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S2x256x2048.size a
  hwx0_3 : ∀ i : grid0.Coords, EltTy.bits .f32 = 32 ∨ (Rect.block (s := S2x256x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S2x256x2048.size a
  hwx0_4 : ∀ i : grid0.Coords, EltTy.bits .f32 = 32 ∨ (Rect.block (s := S2x256x2048) S1x256x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x2048.size a
  hwx1_2 : ∀ i : grid1.Coords, EltTy.bits .f32 = 32 ∨ (Rect.block (s := S8192x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1000.size a ≤ S8192x1000.size a
  hwx2_0 : ∀ i : grid2.Coords, EltTy.bits .f32 = 32 ∨ (Rect.block (s := S8192x1000) S1024x1000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S8192.size a
  hwx2_1 : ∀ i : grid2.Coords, EltTy.bits .i32 = 32 ∨ (Rect.block (s := S8192) S1024.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1000.size a ≤ S2x1x1000.size a
  hwx2_2 : ∀ i : grid2.Coords, EltTy.bits .f32 = 32 ∨ (Rect.block (s := S2x1x1000) S1x1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1000.size a ≤ S2x1x1000.size a
  hwx2_3 : ∀ i : grid2.Coords, EltTy.bits .f32 = 32 ∨ (Rect.block (s := S2x1x1000) S1x1x1000.size (cc2_transform_3 i) (hinb2_3 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def scatter_S256_S8192x1_S8192_n_0_0_1 : ScatterDims S256 S8192x1 S8192 where
  updateWindowDims := []
  insertedWindowDims := [0]
  scatterDimsToOperandDims := [0]
  indexVectorDim := 1
  wf := scatter_S256_S8192x1_S8192_n_0_0_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg4) S1024x1000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5_0) S1x1x1000.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5_1) S1x1x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S8192x1000 : Shape := ⟨2, ![8192, 1000]⟩
abbrev S8192 : Shape := ⟨1, ![8192]⟩
abbrev S_ : Shape := ⟨0, ![]⟩
abbrev S8192x1 : Shape := ⟨2, ![8192, 1]⟩
abbrev S256x2048 : Shape := ⟨2, ![256, 2048]⟩
abbrev S256 : Shape := ⟨1, ![256]⟩
abbrev S256x1 : Shape := ⟨2, ![256, 1]⟩
abbrev S1000 : Shape := ⟨1, ![1000]⟩

abbrev nBuf : Space → Nat
  | .hbm => 230
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x1000, .f32⟩
  | 5 => ⟨S8192, .i32⟩
  | 6 => ⟨S8192, .i32⟩
  | 7 => ⟨S8192x2048, .f32⟩
  | 8 => ⟨S_, .f32⟩
  | 9 => ⟨S8192, .f32⟩
  | 10 => ⟨S8192x1, .f32⟩
  | 11 => ⟨S8192x1, .f32⟩
  | 12 => ⟨S_, .f32⟩
  | 13 => ⟨S_, .f32⟩
  | 14 => ⟨S8192x1, .f32⟩
  | 15 => ⟨S8192x1, .f32⟩
  | 16 => ⟨S8192x2048, .f32⟩
  | 17 => ⟨S8192x2048, .f32⟩
  | 18 => ⟨S_, .i32⟩
  | 19 => ⟨S8192, .i32⟩
  | 20 => ⟨S8192, .i1⟩
  | 21 => ⟨S8192, .f32⟩
  | 22 => ⟨S_, .i32⟩
  | 23 => ⟨S8192, .i32⟩
  | 24 => ⟨S8192, .i1⟩
  | 25 => ⟨S8192, .f32⟩
  | 26 => ⟨S8192x1, .f32⟩
  | 27 => ⟨S8192x2048, .f32⟩
  | 28 => ⟨S8192x2048, .f32⟩
  | 29 => ⟨S_, .f32⟩
  | 30 => ⟨S256x2048, .f32⟩
  | 31 => ⟨S8192x1, .i32⟩
  | 32 => ⟨S256x2048, .f32⟩
  | 33 => ⟨S8192x1, .f32⟩
  | 34 => ⟨S8192x2048, .f32⟩
  | 35 => ⟨S8192x2048, .f32⟩
  | 36 => ⟨S_, .f32⟩
  | 37 => ⟨S256x2048, .f32⟩
  | 38 => ⟨S8192x1, .i32⟩
  | 39 => ⟨S256x2048, .f32⟩
  | 40 => ⟨S_, .f32⟩
  | 41 => ⟨S256, .f32⟩
  | 42 => ⟨S8192x1, .i32⟩
  | 43 => ⟨S256, .f32⟩
  | 44 => ⟨S_, .f32⟩
  | 45 => ⟨S256, .f32⟩
  | 46 => ⟨S8192x1, .i32⟩
  | 47 => ⟨S256, .f32⟩
  | 48 => ⟨S_, .f32⟩
  | 49 => ⟨S256, .f32⟩
  | 50 => ⟨S256, .f32⟩
  | 51 => ⟨S256x1, .f32⟩
  | 52 => ⟨S256x2048, .f32⟩
  | 53 => ⟨S256x2048, .f32⟩
  | 54 => ⟨S_, .f32⟩
  | 55 => ⟨S256, .f32⟩
  | 56 => ⟨S256, .f32⟩
  | 57 => ⟨S256x1, .f32⟩
  | 58 => ⟨S256x2048, .f32⟩
  | 59 => ⟨S256x2048, .f32⟩
  | 60 => ⟨S256x2048, .f32⟩
  | 61 => ⟨S_, .f32⟩
  | 62 => ⟨S256, .f32⟩
  | 63 => ⟨S_, .f32⟩
  | 64 => ⟨S256, .f32⟩
  | 65 => ⟨S256, .f32⟩
  | 66 => ⟨S256x2048, .f32⟩
  | 67 => ⟨S_, .f32⟩
  | 68 => ⟨S256, .f32⟩
  | 69 => ⟨S_, .f32⟩
  | 70 => ⟨S256, .f32⟩
  | 71 => ⟨S256, .f32⟩
  | 72 => ⟨S_, .f32⟩
  | 73 => ⟨S256, .f32⟩
  | 74 => ⟨S256, .i1⟩
  | 75 => ⟨S_, .f32⟩
  | 76 => ⟨S256, .f32⟩
  | 77 => ⟨S256, .i1⟩
  | 78 => ⟨S256, .i1⟩
  | 79 => ⟨S256, .f32⟩
  | 80 => ⟨S256, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .f32⟩
  | 88 => ⟨S_, .f32⟩
  | 89 => ⟨S_, .i1⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S8192x2048, .f32⟩
  | 101 => ⟨S_, .f32⟩
  | 102 => ⟨S8192, .f32⟩
  | 103 => ⟨S8192x1, .f32⟩
  | 104 => ⟨S8192x1, .f32⟩
  | 105 => ⟨S_, .f32⟩
  | 106 => ⟨S_, .f32⟩
  | 107 => ⟨S8192x1, .f32⟩
  | 108 => ⟨S8192x1, .f32⟩
  | 109 => ⟨S8192x2048, .f32⟩
  | 110 => ⟨S8192x2048, .f32⟩
  | 111 => ⟨S8192x2048, .f32⟩
  | 112 => ⟨S_, .f32⟩
  | 113 => ⟨S8192, .f32⟩
  | 114 => ⟨S8192x1, .f32⟩
  | 115 => ⟨S8192x1, .f32⟩
  | 116 => ⟨S_, .f32⟩
  | 117 => ⟨S_, .f32⟩
  | 118 => ⟨S8192x1, .f32⟩
  | 119 => ⟨S8192x1, .f32⟩
  | 120 => ⟨S8192x2048, .f32⟩
  | 121 => ⟨S8192x2048, .f32⟩
  | 122 => ⟨S8192x2048, .f32⟩
  | 123 => ⟨S_, .f32⟩
  | 124 => ⟨S8192, .f32⟩
  | 125 => ⟨S8192x1, .f32⟩
  | 126 => ⟨S8192x1, .f32⟩
  | 127 => ⟨S_, .f32⟩
  | _ => ⟨S8192x2048, .f32⟩

abbrev hbmTy0_1 (i : Nat) : BufTy := match i % 128 with
  | 0 => ⟨S_, .f32⟩
  | 1 => ⟨S8192x1, .f32⟩
  | 2 => ⟨S8192x1, .f32⟩
  | 3 => ⟨S8192x2048, .f32⟩
  | 4 => ⟨S8192x2048, .f32⟩
  | 5 => ⟨S8192x2048, .f32⟩
  | 6 => ⟨S_, .f32⟩
  | 7 => ⟨S8192, .f32⟩
  | 8 => ⟨S8192, .f32⟩
  | 9 => ⟨S_, .f32⟩
  | 10 => ⟨S_, .f32⟩
  | 11 => ⟨S_, .f32⟩
  | 12 => ⟨S_, .f32⟩
  | 13 => ⟨S8192x2048, .f32⟩
  | 14 => ⟨S_, .f32⟩
  | 15 => ⟨S8192, .f32⟩
  | 16 => ⟨S8192, .f32⟩
  | 17 => ⟨S_, .f32⟩
  | 18 => ⟨S_, .f32⟩
  | 19 => ⟨S_, .f32⟩
  | 20 => ⟨S_, .f32⟩
  | 21 => ⟨S8192x2048, .f32⟩
  | 22 => ⟨S_, .f32⟩
  | 23 => ⟨S8192, .f32⟩
  | 24 => ⟨S8192, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S8192, .f32⟩
  | 36 => ⟨S_, .f32⟩
  | 37 => ⟨S8192, .f32⟩
  | 38 => ⟨S8192, .f32⟩
  | 39 => ⟨S8192x1, .f32⟩
  | 40 => ⟨S8192x1000, .f32⟩
  | 41 => ⟨S8192x1000, .f32⟩
  | 42 => ⟨S8192x1000, .f32⟩
  | 43 => ⟨S_, .f32⟩
  | 44 => ⟨S8192, .f32⟩
  | 45 => ⟨S8192x1, .f32⟩
  | 46 => ⟨S8192x1000, .f32⟩
  | 47 => ⟨S8192x1000, .f32⟩
  | 48 => ⟨S_, .i32⟩
  | 49 => ⟨S8192, .i32⟩
  | 50 => ⟨S8192, .i1⟩
  | 51 => ⟨S8192, .f32⟩
  | 52 => ⟨S_, .i32⟩
  | 53 => ⟨S8192, .i32⟩
  | 54 => ⟨S8192, .i1⟩
  | 55 => ⟨S8192, .f32⟩
  | 56 => ⟨S_, .f32⟩
  | 57 => ⟨S_, .f32⟩
  | 58 => ⟨S_, .f32⟩
  | 59 => ⟨S_, .f32⟩
  | 60 => ⟨S8192x1, .f32⟩
  | 61 => ⟨S8192x1000, .f32⟩
  | 62 => ⟨S8192x1000, .f32⟩
  | 63 => ⟨S_, .f32⟩
  | 64 => ⟨S1000, .f32⟩
  | 65 => ⟨S_, .f32⟩
  | 66 => ⟨S_, .f32⟩
  | 67 => ⟨S1000, .f32⟩
  | 68 => ⟨S1000, .f32⟩
  | 69 => ⟨S8192x1, .f32⟩
  | 70 => ⟨S8192x1000, .f32⟩
  | 71 => ⟨S8192x1000, .f32⟩
  | 72 => ⟨S_, .f32⟩
  | 73 => ⟨S1000, .f32⟩
  | 74 => ⟨S_, .f32⟩
  | 75 => ⟨S_, .f32⟩
  | 76 => ⟨S1000, .f32⟩
  | 77 => ⟨S1000, .f32⟩
  | 78 => ⟨S1000, .f32⟩
  | 79 => ⟨S1000, .f32⟩
  | 80 => ⟨S1000, .f32⟩
  | 81 => ⟨S1000, .f32⟩
  | 82 => ⟨S_, .f32⟩
  | 83 => ⟨S_, .f32⟩
  | 84 => ⟨S1000, .f32⟩
  | 85 => ⟨S1000, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .i1⟩
  | 93 => ⟨S_, .f32⟩
  | 94 => ⟨S_, .i1⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_call1_v0 : Ref sig .tc := ⟨.hbm, 82, rfl⟩
abbrev main_call1_v1 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_cst_17 : Ref sig .tc := ⟨.hbm, 90, rfl⟩
abbrev main_v60 : Ref sig .tc := ⟨.hbm, 91, rfl⟩
abbrev main_cst_18 : Ref sig .tc := ⟨.hbm, 92, rfl⟩
abbrev main_v61 : Ref sig .tc := ⟨.hbm, 93, rfl⟩
abbrev main_v62 : Ref sig .tc := ⟨.hbm, 94, rfl⟩
abbrev main_cst_19 : Ref sig .tc := ⟨.hbm, 95, rfl⟩
abbrev main_call2_v0 : Ref sig .tc := ⟨.hbm, 96, rfl⟩
abbrev main_v63 : Ref sig .tc := ⟨.hbm, 97, rfl⟩
abbrev main_cst_20 : Ref sig .tc := ⟨.hbm, 98, rfl⟩
abbrev main_v64 : Ref sig .tc := ⟨.hbm, 99, rfl⟩
abbrev main_v65 : Ref sig .tc := ⟨.hbm, 100, rfl⟩
abbrev main_cst_21 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_22 : Ref sig .tc := ⟨.hbm, 105, rfl⟩
abbrev main_call3_v0 : Ref sig .tc := ⟨.hbm, 106, rfl⟩
abbrev main_call3_v1 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_23 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_24 : Ref sig .tc := ⟨.hbm, 116, rfl⟩
abbrev main_call4_v0 : Ref sig .tc := ⟨.hbm, 117, rfl⟩
abbrev main_call4_v1 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_25 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_26 : Ref sig .tc := ⟨.hbm, 127, rfl⟩
abbrev main_call5_v0 : Ref sig .tc := ⟨.hbm, 128, rfl⟩
abbrev main_call5_v1 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_27 : Ref sig .tc := ⟨.hbm, 134, rfl⟩
abbrev main_v87 : Ref sig .tc := ⟨.hbm, 135, rfl⟩
abbrev main_v88 : Ref sig .tc := ⟨.hbm, 136, rfl⟩
abbrev main_cst_28 : Ref sig .tc := ⟨.hbm, 137, rfl⟩
abbrev main_v89 : Ref sig .tc := ⟨.hbm, 138, rfl⟩
abbrev main_cst_29 : Ref sig .tc := ⟨.hbm, 139, rfl⟩
abbrev main_v90 : Ref sig .tc := ⟨.hbm, 140, rfl⟩
abbrev main_v91 : Ref sig .tc := ⟨.hbm, 141, rfl⟩
abbrev main_cst_30 : Ref sig .tc := ⟨.hbm, 142, rfl⟩
abbrev main_v92 : Ref sig .tc := ⟨.hbm, 143, rfl⟩
abbrev main_v93 : Ref sig .tc := ⟨.hbm, 144, rfl⟩
abbrev main_cst_31 : Ref sig .tc := ⟨.hbm, 145, rfl⟩
abbrev main_v94 : Ref sig .tc := ⟨.hbm, 146, rfl⟩
abbrev main_cst_32 : Ref sig .tc := ⟨.hbm, 147, rfl⟩
abbrev main_v95 : Ref sig .tc := ⟨.hbm, 148, rfl⟩
abbrev main_v96 : Ref sig .tc := ⟨.hbm, 149, rfl⟩
abbrev main_cst_33 : Ref sig .tc := ⟨.hbm, 150, rfl⟩
abbrev main_v97 : Ref sig .tc := ⟨.hbm, 151, rfl⟩
abbrev main_v98 : Ref sig .tc := ⟨.hbm, 152, rfl⟩
abbrev main_cst_34 : Ref sig .tc := ⟨.hbm, 153, rfl⟩
abbrev main_v99 : Ref sig .tc := ⟨.hbm, 154, rfl⟩
abbrev main_cst_35 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_36 : Ref sig .tc := ⟨.hbm, 159, rfl⟩
abbrev main_v103 : Ref sig .tc := ⟨.hbm, 160, rfl⟩
abbrev main_v104 : Ref sig .tc := ⟨.hbm, 161, rfl⟩
abbrev main_cst_37 : Ref sig .tc := ⟨.hbm, 162, rfl⟩
abbrev main_v105 : Ref sig .tc := ⟨.hbm, 163, rfl⟩
abbrev main_cst_38 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_39 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_c_40 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_c_41 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_42 : Ref sig .tc := ⟨.hbm, 184, rfl⟩
abbrev main_v122 : Ref sig .tc := ⟨.hbm, 185, rfl⟩
abbrev main_cst_43 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_44 : Ref sig .tc := ⟨.hbm, 191, rfl⟩
abbrev main_v127 : Ref sig .tc := ⟨.hbm, 192, rfl⟩
abbrev main_cst_45 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_cst_46 : Ref sig .tc := ⟨.hbm, 200, rfl⟩
abbrev main_v134 : Ref sig .tc := ⟨.hbm, 201, rfl⟩
abbrev main_cst_47 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_cst_48 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_49 : Ref sig .tc := ⟨.hbm, 214, rfl⟩
abbrev main_v145 : Ref sig .tc := ⟨.hbm, 215, rfl⟩
abbrev main_v146 : Ref sig .tc := ⟨.hbm, 216, rfl⟩
abbrev main_cst_50 : Ref sig .tc := ⟨.hbm, 217, rfl⟩
abbrev main_v147 : Ref sig .tc := ⟨.hbm, 218, rfl⟩
abbrev main_cst_51 : Ref sig .tc := ⟨.hbm, 219, rfl⟩
abbrev main_v148 : Ref sig .tc := ⟨.hbm, 220, rfl⟩
abbrev main_cst_52 : Ref sig .tc := ⟨.hbm, 221, rfl⟩
abbrev main_v149 : Ref sig .tc := ⟨.hbm, 222, rfl⟩
abbrev main_v150 : Ref sig .tc := ⟨.hbm, 223, rfl⟩
abbrev main_cst_53 : Ref sig .tc := ⟨.hbm, 224, rfl⟩
abbrev main_call6_v0 : Ref sig .tc := ⟨.hbm, 225, rfl⟩
abbrev main_v151 : Ref sig .tc := ⟨.hbm, 226, rfl⟩
abbrev main_cst_54 : Ref sig .tc := ⟨.hbm, 227, rfl⟩
abbrev main_v152 : Ref sig .tc := ⟨.hbm, 228, rfl⟩
abbrev main_v153 : Ref sig .tc := ⟨.hbm, 229, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192 : S_.BroadcastsInDim S8192 (![] : Fin 0 → Fin S8192.rank)
  bcast_S_S256x2048 : S_.BroadcastsInDim S256x2048 (![] : Fin 0 → Fin S256x2048.rank)
  bcast_S_S256 : S_.BroadcastsInDim S256 (![] : Fin 0 → Fin S256.rank)
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  reducesTo_S256x2048_S256_d1 : S256x2048.ReducesTo [1] S256
  reducesTo_S256_S_d0 : S256.ReducesTo [0] S_
  reducesTo_S8192_S_d0 : S8192.ReducesTo [0] S_
  reducesTo_S8192x1000_S8192_d1 : S8192x1000.ReducesTo [1] S8192
  bcast_S8192x1_S8192x1000_0_1 : S8192x1.BroadcastsInDim S8192x1000 (![0, 1] : Fin 2 → Fin S8192x1000.rank)
  reducesTo_S8192x1000_S1000_d0 : S8192x1000.ReducesTo [0] S1000
  bcast_S_S1000 : S_.BroadcastsInDim S1000 (![] : Fin 0 → Fin S1000.rank)
  reducesTo_S1000_S_d0 : S1000.ReducesTo [0] S_
  scatter_S256x2048_S8192x1_S8192x2048_1_0_0_1_wf : ScatterDims.WF S256x2048 S8192x1 S8192x2048 [1] [0] [0] 1
  scatter_S256_S8192x1_S8192_n_0_0_1_wf : ScatterDims.WF S256 S8192x1 S8192 [] [0] [0] 1

variable [Facts₀]

def scatter_S256x2048_S8192x1_S8192x2048_1_0_0_1 : ScatterDims S256x2048 S8192x1 S8192x2048 where
  updateWindowDims := [1]
  insertedWindowDims := [0]
  scatterDimsToOperandDims := [0]
  indexVectorDim := 1
  wf := scatter_S256x2048_S8192x1_S8192x2048_1_0_0_1_wf
def scatter_S256_S8192x1_S8192_n_0_0_1 : ScatterDims S256 S8192x1 S8192 where
  updateWindowDims := []
  insertedWindowDims := [0]
  scatterDimsToOperandDims := [0]
  indexVectorDim := 1
  wf := scatter_S256_S8192x1_S8192_n_0_0_1_wf

class Facts : Prop extends Facts₀ where

variable [Facts]
-- ==== Proof.TailDef.lean ====
/- (template and substitutions: scratch/mk_taildef.py; one binding per host operation of hostOps3 .. hostOps3_6, in order;
   the region results %1, %2, %54, %57, %60, %66, %70 and the inputs %arg5, %arg6 are the parameters.)
   The program's host operations after its three kernels as ONE function of the seven region results and the two integer
   inputs: counts per label by scatter-add of the modality masks, centres = sums / max(count, 1), the squared difference of
   1 - <centre0, centre1> and 1 - <centre0, centre0> averaged over the labels with at least two rows of modality 0 and one
   of modality 1; the mean of the three pair sums over 8192 rows; the symmetric Kullback-Leibler term of the two class
   distributions; and 0.5 (first) + 0.1 (second) + 0.1 (third). -/
import proofs.«423768_j88124138979690_2_alg».proof.KernelIdeal
import proofs.«423768_j88124138979690_2_alg».proof.Proof.Gen.KernelIdeal

set_option maxRecDepth 16384

noncomputable section

namespace Cert.KernelIdeal.Tail

open Idealize.ShloMosaic Cert.KernelIdeal Cert.KernelIdeal.Gen

variable {F : FTy → Type} [FloatOps F]

/-- The host part of the program after its three kernels, as one function. -/
def tail (v1 v2 : FVec F S256x2048 .f32) (v54 v57 v60 : FVec F S_ .f32) (v66 v70 : FVec F S1000 .f32)
    (arg5 arg6 : IVec S8192 32) : FVec F S_ .f32 :=
  have c := constantI S_ 32 0#32
  have v8 := broadcastInDim S8192 ![] bcast_S_S8192 c
  have v9 := cmpi .eq arg6 v8
  have v10 := uitofp (F := F) .f32 v9
  have c_4 := constantI S_ 32 1#32
  have v11 := broadcastInDim S8192 ![] bcast_S_S8192 c_4
  have v12 := cmpi .eq arg6 v11
  have v13 := uitofp (F := F) .f32 v12
  have cst_5 := constant (F := F) S_ .f32 0x00000000#32
  have v14 := broadcastInDim S256 ![] bcast_S_S256 cst_5
  have v15 := broadcastInDim S8192x1 ![0] bcast_S8192_S8192x1_0 arg5
  have v16 := Host.scatterAdd scatter_S256_S8192x1_S8192_n_0_0_1 v14 v15 v10
  have cst_6 := constant (F := F) S_ .f32 0x00000000#32
  have v17 := broadcastInDim S256 ![] bcast_S_S256 cst_6
  have v18 := broadcastInDim S8192x1 ![0] bcast_S8192_S8192x1_0 arg5
  have v19 := Host.scatterAdd scatter_S256_S8192x1_S8192_n_0_0_1 v17 v18 v13
  have cst_7 := constant (F := F) S_ .f32 0x3F800000#32
  have v20 := broadcastInDim S256 ![] bcast_S_S256 cst_7
  have v21 := maximumf v16 v20
  have v22 := broadcastInDim S256x1 ![0] bcast_S256_S256x1_0 v21
  have v23 := broadcastInDim S256x2048 ![0, 1] bcast_S256x1_S256x2048_0_1 v22
  have v24 := Host.divf v1 v23
  have cst_8 := constant (F := F) S_ .f32 0x3F800000#32
  have v25 := broadcastInDim S256 ![] bcast_S_S256 cst_8
  have v26 := maximumf v19 v25
  have v27 := broadcastInDim S256x1 ![0] bcast_S256_S256x1_0 v26
  have v28 := broadcastInDim S256x2048 ![0, 1] bcast_S256x1_S256x2048_0_1 v27
  have v29 := Host.divf v2 v28
  have v30 := mulf v24 v29
  have cst_9 := constant (F := F) S_ .f32 0x00000000#32
  have v31 := Host.reduceAdd v30 cst_9 reducesTo_S256x2048_S256_d1 h_S_
  have cst_10 := constant (F := F) S_ .f32 0x3F800000#32
  have v32 := broadcastInDim S256 ![] bcast_S_S256 cst_10
  have v33 := subf v32 v31
  have v34 := mulf v24 v24
  have cst_11 := constant (F := F) S_ .f32 0x00000000#32
  have v35 := Host.reduceAdd v34 cst_11 reducesTo_S256x2048_S256_d1 h_S_
  have cst_12 := constant (F := F) S_ .f32 0x3F800000#32
  have v36 := broadcastInDim S256 ![] bcast_S_S256 cst_12
  have v37 := subf v36 v35
  have cst_13 := constant (F := F) S_ .f32 0x40000000#32
  have v38 := broadcastInDim S256 ![] bcast_S_S256 cst_13
  have v39 := cmpf .oge v16 v38
  have cst_14 := constant (F := F) S_ .f32 0x3F800000#32
  have v40 := broadcastInDim S256 ![] bcast_S_S256 cst_14
  have v41 := cmpf .oge v19 v40
  have v42 := andi v39 v41
  have v43 := subf v33 v37
  have v44 := mulf v43 v43
  have cst_15 := constant (F := F) S_ .f32 0x00000000#32
  have call0_v0 := cst_15
  have call0_v1 := broadcastInDim S256 ![] bcast_S_S256 call0_v0
  have v45 := select v42 v44 call0_v1
  have v46 := uitofp (F := F) .f32 v42
  have cst_16 := constant (F := F) S_ .f32 0x00000000#32
  have v47 := Host.reduceAdd v46 cst_16 reducesTo_S256_S_d0 h_S_
  have cst_17 := constant (F := F) S_ .f32 0x00000000#32
  have v48 := cmpf .ogt v47 cst_17
  have cst_18 := constant (F := F) S_ .f32 0x00000000#32
  have v49 := Host.reduceAdd v45 cst_18 reducesTo_S256_S_d0 h_S_
  have cst_19 := constant (F := F) S_ .f32 0x3F800000#32
  have v50 := maximumf v47 cst_19
  have v51 := Host.divf v49 v50
  have cst_20 := constant (F := F) S_ .f32 0x00000000#32
  have call1_v0 := cst_20
  have v52 := select v48 v51 call1_v0
  have cst_21 := constant (F := F) S_ .f32 0x46000000#32
  have v55 := Host.divf v54 cst_21
  have cst_22 := constant (F := F) S_ .f32 0x46000000#32
  have v58 := Host.divf v57 cst_22
  have cst_23 := constant (F := F) S_ .f32 0x46000000#32
  have v61 := Host.divf v60 cst_23
  have v62 := addf v55 v58
  have v63 := addf v62 v61
  have cst_24 := constant (F := F) S_ .f32 0x00000000#32
  have v64 := Host.reduceAdd v10 cst_24 reducesTo_S8192_S_d0 h_S_
  have cst_25 := constant (F := F) S_ .f32 0x00000000#32
  have v65 := Host.reduceAdd v13 cst_25 reducesTo_S8192_S_d0 h_S_
  have cst_26 := constant (F := F) S_ .f32 0x3F800000#32
  have v67 := maximumf v64 cst_26
  have v68 := broadcastInDim S1000 ![] bcast_S_S1000 v67
  have v69 := Host.divf v66 v68
  have cst_27 := constant (F := F) S_ .f32 0x3F800000#32
  have v71 := maximumf v65 cst_27
  have v72 := broadcastInDim S1000 ![] bcast_S_S1000 v71
  have v73 := Host.divf v70 v72
  have v74 := Host.log v69
  have v75 := Host.log v73
  have v76 := subf v75 v74
  have v77 := mulf v73 v76
  have cst_28 := constant (F := F) S_ .f32 0x00000000#32
  have v78 := Host.reduceAdd v77 cst_28 reducesTo_S1000_S_d0 h_S_
  have v79 := subf v74 v75
  have v80 := mulf v69 v79
  have cst_29 := constant (F := F) S_ .f32 0x00000000#32
  have v81 := Host.reduceAdd v80 cst_29 reducesTo_S1000_S_d0 h_S_
  have v82 := addf v78 v81
  have cst_30 := constant (F := F) S_ .f32 0x3F000000#32
  have v83 := mulf cst_30 v82
  have cst_31 := constant (F := F) S_ .f32 0x00000000#32
  have v84 := cmpf .ogt v64 cst_31
  have cst_32 := constant (F := F) S_ .f32 0x00000000#32
  have v85 := cmpf .ogt v65 cst_32
  have v86 := andi v84 v85
  have cst_33 := constant (F := F) S_ .f32 0x00000000#32
  have call2_v0 := cst_33
  have v87 := select v86 v83 call2_v0
  have cst_34 := constant (F := F) S_ .f32 0x3F000000#32
  have v88 := mulf cst_34 v52
  have cst_35 := constant (F := F) S_ .f32 0x3DCCCCCD#32
  have v89 := mulf cst_35 v63
  have v90 := addf v88 v89
  have cst_36 := constant (F := F) S_ .f32 0x3DCCCCCD#32
  have v91 := mulf cst_36 v87
  have v92 := addf v90 v91
  v92

end Cert.KernelIdeal.Tail

end
-- ==== Proof.Tail.lean ====
/-
  The kernel program's result is the host part's function (`tail`) of what its buffers hold when the third kernel has
  finished: the two label-sum arrays and the two class-sum arrays with their halves summed, and lanes 0, 1, 2 of the
  pair array with its halves summed.  The host operations after the third kernel only read those buffers and the two
  integer inputs, each operation writing a buffer of its own, so the result buffer's contents are the operations'
  composition.
-/
import proofs.«423768_j88124138979690_2_alg».proof.Proof.Gen.KernelIdeal.Frame
import proofs.«423768_j88124138979690_2_alg».proof.Proof.TailDef
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 40000000 in
/-- The program's result buffer, after its last host operation, is `tail` of the buffers' contents at the third
    kernel's exit. -/
theorem result_eq (c : Dev nD) :
    W12 m ρ c (Proc.devRef .tc main_v92)
      = tail (F := F) (W5 m ρ c (Proc.devRef .tc main_v1)) (W5 m ρ c (Proc.devRef .tc main_v2))
          (shapeCast S_ (extractStridedSlice S1x1 ![0, 0] (W5 m ρ c (Proc.devRef .tc main_v4)) slices_S1x128_S1x1_0_0) shapeCasts_S1x1_S_)
          (shapeCast S_ (extractStridedSlice S1x1 ![0, 1] (W5 m ρ c (Proc.devRef .tc main_v4)) slices_S1x128_S1x1_0_1) shapeCasts_S1x1_S_)
          (shapeCast S_ (extractStridedSlice S1x1 ![0, 2] (W5 m ρ c (Proc.devRef .tc main_v4)) slices_S1x128_S1x1_0_2) shapeCasts_S1x1_S_)
          (shapeCast S1000 (Host.reduceAdd (W5 m ρ c (Proc.devRef .tc main_v5_0)) (constant S_ .f32 0x00000000#32) reducesTo_S2x1x1000_S1x1000_d0 h_S_) shapeCasts_S1x1000_S1000)
          (shapeCast S1000 (Host.reduceAdd (W5 m ρ c (Proc.devRef .tc main_v5_1)) (constant S_ .f32 0x00000000#32) reducesTo_S2x1x1000_S1x1000_d0 h_S_) shapeCasts_S1x1000_S1000)
          (W5 m ρ c (Proc.devRef .tc main_arg5)) (W5 m ρ c (Proc.devRef .tc main_arg6)) := by
  show StableHlo.after hostOps3_6 (StableHlo.after hostOps3_5 (StableHlo.after hostOps3_4 (StableHlo.after hostOps3_3
    (StableHlo.after hostOps3_2 (StableHlo.after hostOps3_1 (StableHlo.after hostOps3 (W5 m ρ c))))))) (Proc.devRef .tc main_v92) = _
  simp (disch := decide) only [hostOps3, hostOps3_1, hostOps3_2, hostOps3_3, hostOps3_4, hostOps3_5, hostOps3_6,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  (try simp only [TRef.ofBuf, TRef.toBuf, cast_eq])
  rfl

end Cert.KernelIdeal.Tail

end
-- ==== Proof.Boundary.lean ====
/-
  What the program's buffers hold between its kernels.  No host operation and no kernel writes an argument array, so
  every kernel finds the arguments as launched.  After the third kernel: the two label-sum arrays were summed over
  their halves by the host right after the first kernel and nothing wrote those sums since; likewise the pair array
  after the second kernel; the class-sum arrays are what the third kernel's write-backs left.
-/
import proofs.«423768_j88124138979690_2_alg».proof.Proof.Gen.KernelIdeal.Frame
import Idealize.ShloMosaic.Lib.StableHlo.Run
import Idealize.ShloMosaic.Lib.Pipeline.Value

set_option maxRecDepth 16384

noncomputable section

namespace Cert.KernelIdeal.Boundary

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The arguments as each kernel finds them -/

theorem V0_arg0 (c : Dev nD) : V0 m ρ c main_arg0 = m ((c : Thread nD τ).loc main_arg0) := rfl
theorem V0_arg5 (c : Dev nD) : V0 m ρ c main_arg5 = m ((c : Thread nD τ).loc main_arg5) := rfl
theorem V0_arg6 (c : Dev nD) : V0 m ρ c main_arg6 = m ((c : Thread nD τ).loc main_arg6) := rfl

theorem V2_arg1 (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem V2_arg2 (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem V2_arg3 (c : Dev nD) : V2 m ρ c main_arg3 = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

theorem V4_arg4 (c : Dev nD) : V4 m ρ c main_arg4 = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl
theorem V4_arg6 (c : Dev nD) : V4 m ρ c main_arg6 = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := (W1_arr m ρ c 2).trans (((dat0 (V0 m ρ) c).arrAt_in 2 rfl _).trans (A_eq0 (V0 m ρ) c 2))
    _ = m ((c : Thread nD τ).loc main_arg6) := rfl

/-! ## The buffers at the third kernel's exit -/

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := (W1_arr m ρ c 1).trans (((dat0 (V0 m ρ) c).arrAt_in 1 rfl _).trans (A_eq0 (V0 m ρ) c 1))
    _ = m ((c : Thread nD τ).loc main_arg5) := rfl
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (W5_arr m ρ c 1).trans (((dat2 (V4 m ρ) c).arrAt_in 1 rfl _).trans (A_eq2 (V4 m ρ) c 1))
    _ = m ((c : Thread nD τ).loc main_arg6) := V4_arg6 m ρ c

/-- The first label-sum array summed over its halves. -/
theorem W5_v1 (c : Dev nD) : W5 m ρ c (Proc.devRef .tc main_v1)
    = Host.reduceAdd ((dat0 (V0 m ρ) c).arrAt 3 cfg0.N : FVec F S2x256x2048 .f32) (constant S_ .f32 0x00000000#32) reducesTo_S2x256x2048_S256x2048_d0 h_S_ :=
  calc W5 m ρ c (Proc.devRef .tc main_v1)
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W3_of_ne m ρ c main_v1 (by decide)
    _ = Host.reduceAdd (W1 m ρ c (Proc.devRef .tc main_v0_0)) (constant S_ .f32 0x00000000#32) reducesTo_S2x256x2048_S256x2048_d0 h_S_ := by
          show StableHlo.after hostOps1 (W1 m ρ c) (Proc.devRef .tc main_v1) = _
          after_results
    _ = _ := by rw [show W1 m ρ c (Proc.devRef .tc main_v0_0) = _ from W1_arr m ρ c 3]
/-- The second label-sum array summed over its halves. -/
theorem W5_v2 (c : Dev nD) : W5 m ρ c (Proc.devRef .tc main_v2)
    = Host.reduceAdd ((dat0 (V0 m ρ) c).arrAt 4 cfg0.N : FVec F S2x256x2048 .f32) (constant S_ .f32 0x00000000#32) reducesTo_S2x256x2048_S256x2048_d0 h_S_ :=
  calc W5 m ρ c (Proc.devRef .tc main_v2)
    _ = W4 m ρ c (Proc.devRef .tc main_v2) := W5_of_ne m ρ c main_v2 (by decide)
    _ = W3 m ρ c (Proc.devRef .tc main_v2) := StableHlo.after_of_forall_not_mem (b := Proc.devRef .tc main_v2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v2) := W3_of_ne m ρ c main_v2 (by decide)
    _ = Host.reduceAdd (W1 m ρ c (Proc.devRef .tc main_v0_1)) (constant S_ .f32 0x00000000#32) reducesTo_S2x256x2048_S256x2048_d0 h_S_ := by
          show StableHlo.after hostOps1 (W1 m ρ c) (Proc.devRef .tc main_v2) = _
          after_results
    _ = _ := by rw [show W1 m ρ c (Proc.devRef .tc main_v0_1) = _ from W1_arr m ρ c 4]
/-- The pair array summed over its halves. -/
theorem W5_v4 (c : Dev nD) : W5 m ρ c (Proc.devRef .tc main_v4)
    = Host.reduceAdd ((dat1 (V2 m ρ) c).arrAt 3 cfg1.N : FVec F S2x1x128 .f32) (constant S_ .f32 0x00000000#32) reducesTo_S2x1x128_S1x128_d0 h_S_ :=
  calc W5 m ρ c (Proc.devRef .tc main_v4)
    _ = W4 m ρ c (Proc.devRef .tc main_v4) := W5_of_ne m ρ c main_v4 (by decide)
    _ = Host.reduceAdd (W3 m ρ c (Proc.devRef .tc main_v3)) (constant S_ .f32 0x00000000#32) reducesTo_S2x1x128_S1x128_d0 h_S_ := by
          show StableHlo.after hostOps2 (W3 m ρ c) (Proc.devRef .tc main_v4) = _
          after_results
    _ = _ := by rw [show W3 m ρ c (Proc.devRef .tc main_v3) = _ from W3_arr m ρ c 3]
/-- The class-sum arrays as the third kernel leaves them. -/
theorem W5_v5_0 (c : Dev nD) : W5 m ρ c (Proc.devRef .tc main_v5_0) = (dat2 (V4 m ρ) c).arrAt 2 cfg2.N := W5_arr m ρ c 2
theorem W5_v5_1 (c : Dev nD) : W5 m ρ c (Proc.devRef .tc main_v5_1) = (dat2 (V4 m ρ) c).arrAt 3 cfg2.N := W5_arr m ρ c 3

end Cert.KernelIdeal.Boundary

end
-- ==== Proof.Steps.lean ====
/-
  Each of the three kernels visits its grid as two halves (the outer grid axis); inside a half the points run
  in order and share one output block.  At the first point of a half the block is reset to zero, at every point
  a term computed from that point's input blocks is added to it.  This module names one point's update of the
  block (the kernel's arithmetic as printed, with the block it finds as a parameter) and the block's contents
  after each point as a recursion over the points: a point whose position inside its half is zero starts from
  the zero block, any other from what the point before left.
-/
import proofs.«423768_j88124138979690_2_alg».proof.Proof.Gen.KernelIdeal.Skeleton

noncomputable section

namespace Cert.KernelIdeal.Steps

open Idealize.ShloMosaic Cert.KernelIdeal Cert.KernelIdeal.Gen

variable {F : FTy → Type} [FloatOps F]

/-! ## The label sums: 16 points, 8 to a half, two output blocks of shape 1 × 256 × 2048 -/

/-- One point's update of the first output block: the block plus (one-hot of the labels)ᵀ · (unit rows masked by
    "modality is 0"). -/
def step0_a (x : Vec F S512x2048 .f32) (lab modal : Vec F S512 .i32) (acc : Vec F S1x256x2048 .f32) :
    Vec F S1x256x2048 .f32 :=
  k0_pay1 (k0_pay8 x lab modal acc)

/-- One point's update of the second output block: the same with the mask "modality is 1". -/
def step0_b (x : Vec F S512x2048 .f32) (lab modal : Vec F S512 .i32) (acc : Vec F S1x256x2048 .f32) :
    Vec F S1x256x2048 .f32 :=
  k0_pay2 (k0_pay6 x modal) (k0_pay7 lab) acc

/-- The two output blocks after point `n`, from the input blocks `X`, `L`, `M` of every point. -/
def acc0 (X : Fin 16 → Vec F S512x2048 .f32) (L M : Fin 16 → Vec F S512 .i32) :
    (n : ℕ) → n < 16 → Vec F S1x256x2048 .f32 × Vec F S1x256x2048 .f32
  | 0, h => (step0_a (X ⟨0, h⟩) (L ⟨0, h⟩) (M ⟨0, h⟩) k0_pay3, step0_b (X ⟨0, h⟩) (L ⟨0, h⟩) (M ⟨0, h⟩) k0_pay4)
  | n + 1, h =>
    if (n + 1) % 8 = 0 then
      (step0_a (X ⟨n + 1, h⟩) (L ⟨n + 1, h⟩) (M ⟨n + 1, h⟩) k0_pay3,
       step0_b (X ⟨n + 1, h⟩) (L ⟨n + 1, h⟩) (M ⟨n + 1, h⟩) k0_pay4)
    else
      (step0_a (X ⟨n + 1, h⟩) (L ⟨n + 1, h⟩) (M ⟨n + 1, h⟩) (acc0 X L M n (Nat.lt_of_succ_lt h)).1,
       step0_b (X ⟨n + 1, h⟩) (L ⟨n + 1, h⟩) (M ⟨n + 1, h⟩) (acc0 X L M n (Nat.lt_of_succ_lt h)).2)

/-! ## The pairwise row products: 32 points, 16 to a half, one output block of shape 1 × 1 × 128 -/

/-- One point's update: lanes 0, 1, 2 of the block gain the sums over the point's rows of |⟨a, b⟩|, |⟨a, c⟩|,
    |⟨b, c⟩| of the unit rows; every other lane gains zero. -/
def step1 (a b c : Vec F S256x2048 .f32) (acc : Vec F S1x1x128 .f32) : Vec F S1x1x128 .f32 :=
  k1_pay1 (k1_pay6 a b) (k1_pay7 a c) (k1_pay8 b c) acc

/-- The output block after point `n`. -/
def acc1 (A B C : Fin 32 → Vec F S256x2048 .f32) : (n : ℕ) → n < 32 → Vec F S1x1x128 .f32
  | 0, h => step1 (A ⟨0, h⟩) (B ⟨0, h⟩) (C ⟨0, h⟩) k1_pay2
  | n + 1, h =>
    if (n + 1) % 16 = 0 then step1 (A ⟨n + 1, h⟩) (B ⟨n + 1, h⟩) (C ⟨n + 1, h⟩) k1_pay2
    else step1 (A ⟨n + 1, h⟩) (B ⟨n + 1, h⟩) (C ⟨n + 1, h⟩) (acc1 A B C n (Nat.lt_of_succ_lt h))

/-! ## The class probabilities: 8 points, 4 to a half, two output blocks of shape 1 × 1 × 1000 -/

/-- One point's update of the first output block: the block plus the column sums of (softmax rows masked by
    "modality is 0"). -/
def step2_a (x : Vec F S1024x1000 .f32) (modal : Vec F S1024 .i32) (acc : Vec F S1x1x1000 .f32) :
    Vec F S1x1x1000 .f32 :=
  k2_pay5 x modal acc

/-- One point's update of the second output block: the same with the mask "modality is 1". -/
def step2_b (x : Vec F S1024x1000 .f32) (modal : Vec F S1024 .i32) (acc : Vec F S1x1x1000 .f32) :
    Vec F S1x1x1000 .f32 :=
  k2_pay1 (k2_pay4 x) (k2_pay6 acc) (k2_pay7 modal)

/-- The two output blocks after point `n`. -/
def acc2 (X : Fin 8 → Vec F S1024x1000 .f32) (M : Fin 8 → Vec F S1024 .i32) :
    (n : ℕ) → n < 8 → Vec F S1x1x1000 .f32 × Vec F S1x1x1000 .f32
  | 0, h => (step2_a (X ⟨0, h⟩) (M ⟨0, h⟩) k2_pay2, step2_b (X ⟨0, h⟩) (M ⟨0, h⟩) k2_pay3)
  | n + 1, h =>
    if (n + 1) % 4 = 0 then
      (step2_a (X ⟨n + 1, h⟩) (M ⟨n + 1, h⟩) k2_pay2, step2_b (X ⟨n + 1, h⟩) (M ⟨n + 1, h⟩) k2_pay3)
    else
      (step2_a (X ⟨n + 1, h⟩) (M ⟨n + 1, h⟩) (acc2 X M n (Nat.lt_of_succ_lt h)).1,
       step2_b (X ⟨n + 1, h⟩) (M ⟨n + 1, h⟩) (acc2 X M n (Nat.lt_of_succ_lt h)).2)

end Cert.KernelIdeal.Steps

end
-- ==== Proof.LabelBlocks.lean ====
/-
  The first kernel's two result arrays, of shape 2 × 256 × 2048, after the whole grid has run.  Half p of a result
  array is written once, after the last point 8p + 7 of that half, with the output block that point leaves; that
  block is the running block of `Steps.acc0` over the points' input blocks.  Point t's input blocks are rows
  512·t … 512·t + 511 of the features, the labels and the modalities.
-/
import proofs.«423768_j88124138979690_2_alg».proof.Proof.Gen.KernelIdeal.Frame
import proofs.«423768_j88124138979690_2_alg».proof.Proof.Steps
import Idealize.ShloMosaic.Lib.Pipeline.Value
import Idealize.ShloMosaic.Lib.ValueIdx
import Idealize.ShloMosaic.Lib.Tactic

noncomputable section

namespace Cert.KernelIdeal.LabelBlocks

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hN : cfg0.N = 16 := N_0

/-! ## What one run of the body leaves in each output block -/

/-- The offsets of an access to a whole block, all zero, in ranks one to three. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Away from the start of a half the body stores, over the whole first output block, the update of what the
    block held by the point's three input blocks. -/
theorem out_B_3 (c : Dev nD) (i : grid0.Coords) (a2 : Memref sig .tc .vmem S512x2048 .f32) (h2 : a2.IsWhole)
    (a3 : Memref sig .tc .vmem S512 .i32) (h3 : a3.IsWhole) (a4 : Memref sig .tc .vmem S512 .i32) (h4 : a4.IsWhole)
    (a5 : Memref sig .tc .vmem S1x256x2048 .f32) (h5 : a5.IsWhole) (a6 : Memref sig .tc .vmem S1x256x2048 .f32) (h6 : a6.IsWhole)
    (hc : ¬cond0_0 i) (x0 : Vec F S512x2048 .f32) (x1 x2 : Vec F S512 .i32) (xo3 xo4 : Vec F S1x256x2048 .f32) :
    out0_B_3 c i a2 h2 a3 h3 a4 h4 a5 h5 a6 h6 hc x0 x1 x2 xo3 xo4 = Steps.step0_a x0 x1 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread,
    View.ld_unit_zero (S := S512x2048) hz2, View.ld_unit_zero (S := S512) hz1, View.ld_unit_zero (S := S1x256x2048) hz3]
  rfl

/-- The same for the second output block. -/
theorem out_B_4 (c : Dev nD) (i : grid0.Coords) (a2 : Memref sig .tc .vmem S512x2048 .f32) (h2 : a2.IsWhole)
    (a3 : Memref sig .tc .vmem S512 .i32) (h3 : a3.IsWhole) (a4 : Memref sig .tc .vmem S512 .i32) (h4 : a4.IsWhole)
    (a5 : Memref sig .tc .vmem S1x256x2048 .f32) (h5 : a5.IsWhole) (a6 : Memref sig .tc .vmem S1x256x2048 .f32) (h6 : a6.IsWhole)
    (hc : ¬cond0_0 i) (x0 : Vec F S512x2048 .f32) (x1 x2 : Vec F S512 .i32) (xo3 xo4 : Vec F S1x256x2048 .f32) :
    out0_B_4 c i a2 h2 a3 h3 a4 h4 a5 h5 a6 h6 hc x0 x1 x2 xo3 xo4 = Steps.step0_b x0 x1 x2 xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h6.read_unread,
    View.ld_unit_zero (S := S512x2048) hz2, View.ld_unit_zero (S := S512) hz1, View.ld_unit_zero (S := S1x256x2048) hz3]
  rfl

/-- At the start of a half the body first stores the zero block over the first output block and reads it back, so
    the update it then stores is the update of the zero block. -/
theorem out_A_3 (c : Dev nD) (i : grid0.Coords) (a2 : Memref sig .tc .vmem S512x2048 .f32) (h2 : a2.IsWhole)
    (a3 : Memref sig .tc .vmem S512 .i32) (h3 : a3.IsWhole) (a4 : Memref sig .tc .vmem S512 .i32) (h4 : a4.IsWhole)
    (a5 : Memref sig .tc .vmem S1x256x2048 .f32) (h5 : a5.IsWhole) (a6 : Memref sig .tc .vmem S1x256x2048 .f32) (h6 : a6.IsWhole)
    (hc : cond0_0 i) (x0 : Vec F S512x2048 .f32) (x1 x2 : Vec F S512 .i32) :
    out0_A_3 c i a2 h2 a3 h3 a4 h4 a5 h5 a6 h6 hc x0 x1 x2 = Steps.step0_a x0 x1 x2 k0_pay3 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x256x2048) hz3]
  simp only [View.readAt_eq_ld, h2.read_unread, h3.read_unread, h4.read_unread,
    View.ld_unit_zero (S := S512x2048) hz2, View.ld_unit_zero (S := S512) hz1,
    View.readCov_unit_zero (S := S1x256x2048) _ hz3]
  rfl

/-- The same for the second output block. -/
theorem out_A_4 (c : Dev nD) (i : grid0.Coords) (a2 : Memref sig .tc .vmem S512x2048 .f32) (h2 : a2.IsWhole)
    (a3 : Memref sig .tc .vmem S512 .i32) (h3 : a3.IsWhole) (a4 : Memref sig .tc .vmem S512 .i32) (h4 : a4.IsWhole)
    (a5 : Memref sig .tc .vmem S1x256x2048 .f32) (h5 : a5.IsWhole) (a6 : Memref sig .tc .vmem S1x256x2048 .f32) (h6 : a6.IsWhole)
    (hc : cond0_0 i) (x0 : Vec F S512x2048 .f32) (x1 x2 : Vec F S512 .i32) :
    out0_A_4 c i a2 h2 a3 h3 a4 h4 a5 h5 a6 h6 hc x0 x1 x2 = Steps.step0_b x0 x1 x2 k0_pay4 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x256x2048) hz3]
  simp only [View.readAt_eq_ld, h2.read_unread, h3.read_unread, h4.read_unread,
    View.ld_unit_zero (S := S512x2048) hz2, View.ld_unit_zero (S := S512) hz1,
    View.readCov_unit_zero (S := S1x256x2048) _ hz3]
  rfl

/-! ## The input blocks as rows of the arrays -/

/-- The block indices of the five windows at point `t`: the inputs' blocks move with the point along the rows, the
    outputs' block is the point's half. -/
theorem idx_facts : ∀ t : Fin cfg0.N,
    win0_0.index t (0 : Fin 2) = t.val ∧ win0_0.index t (1 : Fin 2) = 0
    ∧ win0_1.index t (0 : Fin 1) = t.val ∧ win0_2.index t (0 : Fin 1) = t.val
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0 :=
  (by decide +kernel : ∀ t : Fin grid0.N, _)

/-- Point `t`'s block of the features, of the labels, of the modalities, as the region finds the arrays. -/
def blkX (c : Dev nD) (t : Fin 16) : Vec F S512x2048 .f32 := iblk0 V c 0 (Fin.cast hN.symm t)
def blkL (c : Dev nD) (t : Fin 16) : Vec F S512 .i32 := iblk0 V c 1 (Fin.cast hN.symm t)
def blkM (c : Dev nD) (t : Fin 16) : Vec F S512 .i32 := iblk0 V c 2 (Fin.cast hN.symm t)

/-- Row r of point t's block is row 512·t + r of the array. -/
theorem blkX_apply (c : Dev nD) (t : Fin 16) (r : Fin 512) (d : Fin 2048) :
    blkX V c t (ix2 r d) = V c main_arg0 (ix2 (⟨512 * t.val + r.val, by omega⟩ : Fin 8192) d) := by
  obtain ⟨e0, e1, -⟩ := idx_facts (Fin.cast hN.symm t)
  unfold blkX iblk0
  rw [View.read_apply]
  show V c main_arg0 _ = V c main_arg0 _
  congr 1
  funext a
  apply Fin.ext
  match a with
  | ⟨0, _⟩ =>
    show win0_0.index (Fin.cast hN.symm t) (0 : Fin 2) * 512 + 1 * r.val = 512 * t.val + r.val
    rw [e0]; show t.val * 512 + 1 * r.val = _; omega
  | ⟨1, _⟩ =>
    show win0_0.index (Fin.cast hN.symm t) (1 : Fin 2) * 2048 + 1 * d.val = d.val
    rw [e1]; omega
theorem blkL_apply (c : Dev nD) (t : Fin 16) (r : Fin 512) :
    blkL V c t (ix1 r) = V c main_arg5 (ix1 (⟨512 * t.val + r.val, by omega⟩ : Fin 8192)) := by
  obtain ⟨-, -, e0, -⟩ := idx_facts (Fin.cast hN.symm t)
  unfold blkL iblk0
  rw [View.read_apply]
  show V c main_arg5 _ = V c main_arg5 _
  congr 1
  funext a
  apply Fin.ext
  match a with
  | ⟨0, _⟩ =>
    show win0_1.index (Fin.cast hN.symm t) (0 : Fin 1) * 512 + 1 * r.val = 512 * t.val + r.val
    rw [e0]; show t.val * 512 + 1 * r.val = _; omega
theorem blkM_apply (c : Dev nD) (t : Fin 16) (r : Fin 512) :
    blkM V c t (ix1 r) = V c main_arg6 (ix1 (⟨512 * t.val + r.val, by omega⟩ : Fin 8192)) := by
  obtain ⟨-, -, -, e0, -⟩ := idx_facts (Fin.cast hN.symm t)
  unfold blkM iblk0
  rw [View.read_apply]
  show V c main_arg6 _ = V c main_arg6 _
  congr 1
  funext a
  apply Fin.ext
  match a with
  | ⟨0, _⟩ =>
    show win0_2.index (Fin.cast hN.symm t) (0 : Fin 1) * 512 + 1 * r.val = 512 * t.val + r.val
    rw [e0]; show t.val * 512 + 1 * r.val = _; omega

/-! ## The generated accumulation is the recursion over the points -/

/-- The recursion, with the two bounds on the point kept apart. -/
theorem outsAt_acc (c : Dev nD) : ∀ (n : ℕ) (h : n < cfg0.N) (h' : n < 16),
    outsAt0 V c n h = Steps.acc0 (blkX V c) (blkL V c) (blkM V c) n h'
  | 0, h, h' => by
    rw [outsAt0_A V c ⟨0, h⟩ rfl, out_A_3, out_A_4]
    rfl
  | n + 1, h, h' => by
    by_cases h0 : (n + 1) % 8 = 0
    · rw [outsAt0_A V c ⟨n + 1, h⟩ h0, out_A_3, out_A_4, Steps.acc0, if_pos h0]
      rfl
    · rw [outsAt0_B V c ⟨n + 1, h⟩ h0, out_B_3, out_B_4, Steps.acc0, if_neg h0]
      show (Steps.step0_a _ _ _ (outsAt0 V c n _).1, Steps.step0_b _ _ _ (outsAt0 V c n _).2) = _
      rw [outsAt_acc c n (Nat.lt_of_succ_lt h) (Nat.lt_of_succ_lt h')]
      rfl

/-- What the two output blocks hold after point `n` is the running pair of `Steps.acc0`. -/
theorem outsAt_eq (c : Dev nD) (n : ℕ) (h : n < cfg0.N) :
    outsAt0 V c n h = Steps.acc0 (blkX V c) (blkL V c) (blkM V c) n (hN ▸ h) := by
  exact outsAt_acc V c n h _

/-! ## The result arrays after the run -/

/-- The first result array as a whole: its entry (p, l, d) is entry (0, l, d) of the first running block after the last
    point 8p + 7 of half p. -/
def res_a (c : Dev nD) : Vec F S2x256x2048 .f32 := fun i =>
  (Steps.acc0 (blkX V c) (blkL V c) (blkM V c) (8 * (i 0 : Fin 2).val + 7) (by have h : (i 0 : Fin 2).val < 2 := (i 0).isLt; omega)).1
    (ix3 (0 : Fin 1) (i 1 : Fin 256) (i 2 : Fin 2048))

/-- An entry of the first running block after point `n`, seen from the array: `n` is the last point of the entry's half
    and the two inner coordinates agree. -/
theorem res_a_eq (c : Dev nD) (n : ℕ) (hn : n < 16) (y : S1x256x2048.Idx) (i : S2x256x2048.Idx)
    (e0 : n = 8 * (i 0).val + 7) (e1 : (y 1).val = (i 1).val) (e2 : (y 2).val = (i 2).val) :
    (Steps.acc0 (blkX V c) (blkL V c) (blkM V c) n hn).1 y = res_a V c i := by
  subst e0
  unfold res_a
  have hy : y = ix3 (0 : Fin 1) (i 1 : Fin 256) (i 2 : Fin 2048) := by
    funext a
    apply Fin.ext
    match a with
    | ⟨0, _⟩ => show (y 0).val = 0; have : (y 0).val < 1 := (y 0).isLt; omega
    | ⟨1, _⟩ => exact e1
    | ⟨2, _⟩ => exact e2
  rw [hy]
  rfl

/-- What a point that writes the first output block back writes is its block of `res_a`: the point is the last of its
    half, and the block sits at that half. -/
theorem flushed_a (c : Dev nD) (t : Fin cfg0.N) (hf : (cfg0.win 3).flush t = true) :
    (dat0 V c).flushed 3 t = ((cfg0.win 3).blk t).view.read (Elt F) (res_a V c) := by
  have h7 : t.val % 8 = 7 := (flush0_3 t).mp hf
  obtain ⟨-, -, -, -, e0, e1, e2, -⟩ := idx_facts t
  show (cfg0.win 3).cut (grid0.coords t) ((dat0 V c).after 3 t) = _
  rw [after0_3, outsAt_eq]
  funext j
  rw [View.read_apply]
  show _ = res_a V c (((cfg0.win 3).blk t).view.emb j)
  refine res_a_eq V c t.val _ _ _ ?_ ?_ ?_
  · show t.val = 8 * (win0_3.index t (0 : Fin 3) * 1 + 1 * (j 0).val) + 7
    rw [e0]; have : (j 0).val < 1 := (j 0).isLt; omega
  · show (j 1).val = win0_3.index t (1 : Fin 3) * 256 + 1 * (j 1).val
    rw [e1]; omega
  · show (j 2).val = win0_3.index t (2 : Fin 3) * 2048 + 1 * (j 2).val
    rw [e2]; omega

/-- Every entry of the first result array lies in the block written back after the last point of its half, so the array
    ends as `res_a`. -/
theorem arr_a (c : Dev nD) : (dat0 V c).arrAt 3 cfg0.N = res_a V c :=
  (dat0 V c).arrAt_eq_of_cover 3 (res_a V c) (flushed_a V c) fun i => by
    have hp : (i 0).val < 2 := (i 0).isLt
    have hl : (i 1).val < 256 := (i 1).isLt
    have hd : (i 2).val < 2048 := (i 2).isLt
    obtain ⟨t, ht7, ht⟩ : ∃ t : Fin cfg0.N, t.val % 8 = 7 ∧ t.val / 8 = (i 0).val :=
      ⟨⟨8 * (i 0).val + 7, by rw [hN]; omega⟩, by show (8 * (i 0).val + 7) % 8 = 7; omega,
        by show (8 * (i 0).val + 7) / 8 = (i 0).val; omega⟩
    obtain ⟨-, -, -, -, e0, e1, e2, -⟩ := idx_facts t
    refine ⟨t, (flush0_3 t).mpr ht7, ?_⟩
    show i ∈ ((View.whole main_v0_0).slice (win0_3.rect t)).set
    rw [View.set_slice_whole, Rect.mem_set_unit]
    intro a
    match a with
    | ⟨0, _⟩ =>
      show win0_3.index t (0 : Fin 3) * 1 ≤ (i 0).val ∧ (i 0).val < win0_3.index t (0 : Fin 3) * 1 + 1
      rw [e0]; omega
    | ⟨1, _⟩ =>
      show win0_3.index t (1 : Fin 3) * 256 ≤ (i 1).val ∧ (i 1).val < win0_3.index t (1 : Fin 3) * 256 + 256
      rw [e1]; omega
    | ⟨2, _⟩ =>
      show win0_3.index t (2 : Fin 3) * 2048 ≤ (i 2).val ∧ (i 2).val < win0_3.index t (2 : Fin 3) * 2048 + 2048
      rw [e2]; omega

/-- The second result array as a whole: its entry (p, l, d) is entry (0, l, d) of the second running block after the last
    point 8p + 7 of half p. -/
def res_b (c : Dev nD) : Vec F S2x256x2048 .f32 := fun i =>
  (Steps.acc0 (blkX V c) (blkL V c) (blkM V c) (8 * (i 0 : Fin 2).val + 7) (by have h : (i 0 : Fin 2).val < 2 := (i 0).isLt; omega)).2
    (ix3 (0 : Fin 1) (i 1 : Fin 256) (i 2 : Fin 2048))

/-- An entry of the second running block after point `n`, seen from the array: `n` is the last point of the entry's half
    and the two inner coordinates agree. -/
theorem res_b_eq (c : Dev nD) (n : ℕ) (hn : n < 16) (y : S1x256x2048.Idx) (i : S2x256x2048.Idx)
    (e0 : n = 8 * (i 0).val + 7) (e1 : (y 1).val = (i 1).val) (e2 : (y 2).val = (i 2).val) :
    (Steps.acc0 (blkX V c) (blkL V c) (blkM V c) n hn).2 y = res_b V c i := by
  subst e0
  unfold res_b
  have hy : y = ix3 (0 : Fin 1) (i 1 : Fin 256) (i 2 : Fin 2048) := by
    funext a
    apply Fin.ext
    match a with
    | ⟨0, _⟩ => show (y 0).val = 0; have : (y 0).val < 1 := (y 0).isLt; omega
    | ⟨1, _⟩ => exact e1
    | ⟨2, _⟩ => exact e2
  rw [hy]
  rfl

/-- What a point that writes the second output block back writes is its block of `res_b`: the point is the last of its
    half, and the block sits at that half. -/
theorem flushed_b (c : Dev nD) (t : Fin cfg0.N) (hf : (cfg0.win 4).flush t = true) :
    (dat0 V c).flushed 4 t = ((cfg0.win 4).blk t).view.read (Elt F) (res_b V c) := by
  have h7 : t.val % 8 = 7 := (flush0_4 t).mp hf
  obtain ⟨-, -, -, -, -, -, -, e0, e1, e2⟩ := idx_facts t
  show (cfg0.win 4).cut (grid0.coords t) ((dat0 V c).after 4 t) = _
  rw [after0_4, outsAt_eq]
  funext j
  rw [View.read_apply]
  show _ = res_b V c (((cfg0.win 4).blk t).view.emb j)
  refine res_b_eq V c t.val _ _ _ ?_ ?_ ?_
  · show t.val = 8 * (win0_4.index t (0 : Fin 3) * 1 + 1 * (j 0).val) + 7
    rw [e0]; have : (j 0).val < 1 := (j 0).isLt; omega
  · show (j 1).val = win0_4.index t (1 : Fin 3) * 256 + 1 * (j 1).val
    rw [e1]; omega
  · show (j 2).val = win0_4.index t (2 : Fin 3) * 2048 + 1 * (j 2).val
    rw [e2]; omega

/-- Every entry of the second result array lies in the block written back after the last point of its half, so the array
    ends as `res_b`. -/
theorem arr_b (c : Dev nD) : (dat0 V c).arrAt 4 cfg0.N = res_b V c :=
  (dat0 V c).arrAt_eq_of_cover 4 (res_b V c) (flushed_b V c) fun i => by
    have hp : (i 0).val < 2 := (i 0).isLt
    have hl : (i 1).val < 256 := (i 1).isLt
    have hd : (i 2).val < 2048 := (i 2).isLt
    obtain ⟨t, ht7, ht⟩ : ∃ t : Fin cfg0.N, t.val % 8 = 7 ∧ t.val / 8 = (i 0).val :=
      ⟨⟨8 * (i 0).val + 7, by rw [hN]; omega⟩, by show (8 * (i 0).val + 7) % 8 = 7; omega,
        by show (8 * (i 0).val + 7) / 8 = (i 0).val; omega⟩
    obtain ⟨-, -, -, -, -, -, -, e0, e1, e2⟩ := idx_facts t
    refine ⟨t, (flush0_4 t).mpr ht7, ?_⟩
    show i ∈ ((View.whole main_v0_1).slice (win0_4.rect t)).set
    rw [View.set_slice_whole, Rect.mem_set_unit]
    intro a
    match a with
    | ⟨0, _⟩ =>
      show win0_4.index t (0 : Fin 3) * 1 ≤ (i 0).val ∧ (i 0).val < win0_4.index t (0 : Fin 3) * 1 + 1
      rw [e0]; omega
    | ⟨1, _⟩ =>
      show win0_4.index t (1 : Fin 3) * 256 ≤ (i 1).val ∧ (i 1).val < win0_4.index t (1 : Fin 3) * 256 + 256
      rw [e1]; omega
    | ⟨2, _⟩ =>
      show win0_4.index t (2 : Fin 3) * 2048 ≤ (i 2).val ∧ (i 2).val < win0_4.index t (2 : Fin 3) * 2048 + 2048
      rw [e2]; omega

/-- Half `p` of the first result array is the first running block after point 8p + 7. -/
theorem final_a (c : Dev nD) (p : Fin 2) (l : Fin 256) (d : Fin 2048) :
    ((dat0 V c).arrAt 3 cfg0.N : Vec F S2x256x2048 .f32) (ix3 p l d)
      = (Steps.acc0 (blkX V c) (blkL V c) (blkM V c) (8 * p.val + 7) (by omega)).1 (ix3 (0 : Fin 1) l d) := by
  rw [arr_a V c]
  rfl
/-- Half `p` of the second result array is the second running block after point 8p + 7. -/
theorem final_b (c : Dev nD) (p : Fin 2) (l : Fin 256) (d : Fin 2048) :
    ((dat0 V c).arrAt 4 cfg0.N : Vec F S2x256x2048 .f32) (ix3 p l d)
      = (Steps.acc0 (blkX V c) (blkL V c) (blkM V c) (8 * p.val + 7) (by omega)).2 (ix3 (0 : Fin 1) l d) := by
  rw [arr_b V c]
  rfl

end Cert.KernelIdeal.LabelBlocks

end
-- ==== Proof.Spec.lean ====
/-
  The quantities both programs compute from the argument arrays, written once over the extended reals.
  A row of a matrix is scaled to unit length, a length below ε = 2⁻⁴⁰·(1 + 0.0995…) (the float nearest 10⁻¹²)
  being raised to ε:  u(x)[r, d] = x[r, d] / max(√(Σ_k x[r, k]²), ε).
  * the label sums:  S_v[l, d] = Σ_r [label r = l] · (u(x)[r, d] · [modality r = v]);
    a label outside 0 … 255 matches no l and its row is dropped.
  * the pair sums:   Σ_r | Σ_d u(a)[r, d] · u(b)[r, d] |.
  * the class sums:  P_v[k] = Σ_r softmax(x)[r, k] · [modality r = v],
    softmax(x)[r, k] = e^(x[r, k] − M_r) / Σ_j e^(x[r, j] − M_r), M_r the greatest entry of row r.
-/
import Idealize.ShloMosaic.PureOps.Ideal
import Idealize.ShloMosaic.Lib.ValueIdx

noncomputable section

namespace Cert.Spec

open Idealize.ShloMosaic Idealize.ShloMosaic.ValueIdx
open scoped BigOperators

/-- 1 when the word `w` is `v`, 0 otherwise. -/
def ind (w v : BitVec 32) : EReal := if w = v then 1 else 0

/-- The floor under a row's length. -/
def eps : EReal := Ideal.ofBits .f32 0x2B8CBCCC#32

/-- |y| on the extended reals. -/
def absE (y : EReal) : EReal := max y (-y)

/-- Entry (r, d) of `x` with row r scaled to unit length. -/
def unitRow (x : (⟨2, ![8192, 2048]⟩ : Shape).Idx → EReal) (r : Fin 8192) (d : Fin 2048) : EReal :=
  Ideal.div (x (ix2 r d)) (max (Ideal.sqrt (∑ k : Fin 2048, x (ix2 r k) * x (ix2 r k))) eps)

/-- The label sum at label `l`, column `d`, for modality `v`. -/
def selSum (x : (⟨2, ![8192, 2048]⟩ : Shape).Idx → EReal) (lab modal : (⟨1, ![8192]⟩ : Shape).Idx → BitVec 32)
    (v : BitVec 32) (l : Fin 256) (d : Fin 2048) : EReal :=
  ∑ r : Fin 8192, if (lab (ix1 r)).toInt = (l.val : Int) then unitRow x r d * ind (modal (ix1 r)) v else 0

/-- The pair sum of `a` and `b`. -/
def pairSum (a b : (⟨2, ![8192, 2048]⟩ : Shape).Idx → EReal) : EReal :=
  ∑ r : Fin 8192, absE (∑ d : Fin 2048, unitRow a r d * unitRow b r d)

/-- The greatest entry of row `r`. -/
def rowMax (x : (⟨2, ![8192, 1000]⟩ : Shape).Idx → EReal) (r : Fin 8192) : EReal :=
  Finset.univ.sup fun k : Fin 1000 => x (ix2 r k)

/-- softmax of row `r` at column `k`. -/
def soft (x : (⟨2, ![8192, 1000]⟩ : Shape).Idx → EReal) (r : Fin 8192) (k : Fin 1000) : EReal :=
  Ideal.div (Ideal.exp (x (ix2 r k) - rowMax x r)) (∑ j : Fin 1000, Ideal.exp (x (ix2 r j) - rowMax x r))

/-- The class sum at class `k` for modality `v`. -/
def classSum (x : (⟨2, ![8192, 1000]⟩ : Shape).Idx → EReal) (modal : (⟨1, ![8192]⟩ : Shape).Idx → BitVec 32)
    (v : BitVec 32) (k : Fin 1000) : EReal :=
  ∑ r : Fin 8192, soft x r k * ind (modal (ix1 r)) v

end Cert.Spec

end
-- ==== Proof.LabelSums.lean ====
/-
  Summing the two halves of the first kernel's result arrays gives the label sums.  After the 8 points of a half
  the running block holds, at (l, d), the sum over the half's 4096 rows r of [label r = l]·(u[r, d]·[modality r = v]):
  each point adds (one-hot)ᵀ·(masked unit rows) of its 512 rows to the block, and the first point of a half starts
  from zero.  The two halves together are all 8192 rows.
-/
import proofs.«423768_j88124138979690_2_alg».proof.Proof.Steps
import proofs.«423768_j88124138979690_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.LabelSums

open Idealize.ShloMosaic Idealize.ShloMosaic.ValueIdx
open Cert.KernelIdeal Cert.KernelIdeal.Gen
open scoped BigOperators

/-! ## Columns: a vector viewed as one column, and one column spread over many -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Words -/

/-- A one-bit word widened to 32 bits and read as a signed integer is 1 or 0. -/
theorem sitofp_bit (b : BitVec 1) :
    (FloatOps.sitofp (F := Ideal) .f32 (b.setWidth 32) : EReal) = if b = 1#1 then 1 else 0 := by
  rcases BitVec.eq_zero_or_eq_one b with rfl | rfl
  · show (((BitVec.setWidth 32 0#1).toInt : ℝ) : EReal) = _
    rw [show (BitVec.setWidth 32 0#1).toInt = 0 by decide, if_neg (by decide)]
    simp
  · show (((BitVec.setWidth 32 1#1).toInt : ℝ) : EReal) = _
    rw [show (BitVec.setWidth 32 1#1).toInt = 1 by decide, if_pos rfl]
    simp

/-- The word of a lane number below 256 is a given word exactly when that word, read signed, is the lane number. -/
theorem lane_eq_iff (w : BitVec 32) (l : Fin 256) : BitVec.ofNat 32 l.val = w ↔ w.toInt = (l.val : Int) := by
  have hl : (BitVec.ofNat 32 l.val).toInt = (l.val : Int) := by
    rw [BitVec.toInt_ofNat']
    exact Int.bmod_eq_of_le_mul_two (by have := l.isLt; omega) (by have := l.isLt; omega)
  constructor
  · rintro rfl; exact hl
  · intro h; exact (BitVec.eq_of_toInt_eq (h.trans hl.symm)).symm

/-! ## One point's arithmetic read at an index -/

/-- Entry (r, d) of a block with row r scaled to unit length, a length below ε raised to ε. -/
def urow (x : Vec Ideal S512x2048 .f32) (r : Fin 512) (d : Fin 2048) : EReal :=
  Ideal.div (x (ix2 r d)) (max (Ideal.sqrt (∑ k : Fin 2048, x (ix2 r k) * x (ix2 r k))) Spec.eps)

/-- 1 when the label word, read signed, is the lane's number, else 0. -/
def oh (w : BitVec 32) (l : Fin 256) : EReal := if w.toInt = (l.val : Int) then 1 else 0

/-- The block divided by its rows' lengths reads the unit row. -/
theorem pay5_apply (x : Vec Ideal S512x2048 .f32) (r : Fin 512) (d : Fin 2048) :
    k0_pay5 x (ix2 r d) = urow x r d := by
  unfold k0_pay5 urow
  refine (divf_apply _ _ _).trans ?_
  refine congrArg (Ideal.div (x (ix2 r d))) ?_
  refine (broadcastTo_a1_ab_apply _ _ r d).trans ?_
  refine (maximumf_apply _ _ _).trans ?_
  refine congrArg₂ max ?_ rfl
  show Ideal.sqrt (shapeCast S512x1 _ _ (ix2 r (0 : Fin 1))) = _
  refine congrArg Ideal.sqrt ?_
  refine (shapeCast_a_a1_apply _ _ r 0).trans ?_
  refine (Ideal.multiReduction_add_single _ _ reduces_S512x2048_S512 _ _ (ix1 r)).trans ?_
  refine Finset.sum_congr rfl fun (k : Fin 2048) _ => ?_
  have e : reduces_S512x2048_S512.lift (ix1 r) k = ix2 r k := by
    funext a; match a with | ⟨0, _⟩ => rfl | ⟨1, _⟩ => rfl
  rw [e]
  rfl

/-- The one-hot block of the labels reads, at (r, l), whether label r is l. -/
theorem pay7_apply (lab : Vec Ideal S512 .i32) (r : Fin 512) (l : Fin 256) :
    k0_pay7 (F := Ideal) lab (ix2 r l) = oh (lab (ix1 r)) l := by
  unfold k0_pay7 oh
  refine (truncf_apply (φ := .f32) (ψ := .bf16) _ bitsLt_bf16_f32 (ix2 r l)).trans ?_
  refine (sitofp_apply _ _).trans ?_
  refine (congrArg (FloatOps.sitofp (F := Ideal) .f32) (extui_apply _ _ _)).trans ?_
  refine (sitofp_bit _).trans ?_
  refine if_congr ?_ rfl rfl
  show IntOp.cmpi .eq _ _ = 1#1 ↔ _
  rw [IntOp.cmpi_eq, iota_single_apply, broadcastTo_a1_ab_apply, shapeCast_a_a1_apply]
  exact lane_eq_iff _ l

/-- The mask column "modality is v" spread over the row reads, at (r, d), whether modality r is v. -/
theorem mask_apply (modal : Vec Ideal S512 .i32) (v : BitVec 32) (r : Fin 512) (d : Fin 2048) :
    broadcastTo S512x2048 (shapeCast S512x1 (sitofp (F := Ideal) .f32 (extui 32 (cmpi .eq modal (broadcast S512 v)) natLt_1_32))
      shapeCasts_S512_S512x1) broadcasts_S512x1_S512x2048 (ix2 r d) = Spec.ind (modal (ix1 r)) v := by
  refine (broadcastTo_a1_ab_apply _ _ r d).trans ?_
  refine (shapeCast_a_a1_apply _ _ r 0).trans ?_
  refine (sitofp_apply _ _).trans ?_
  refine (congrArg (FloatOps.sitofp (F := Ideal) .f32) (extui_apply _ _ _)).trans ?_
  refine (sitofp_bit _).trans ?_
  unfold Spec.ind
  refine if_congr ?_ rfl rfl
  exact IntOp.cmpi_eq

/-- The unit rows masked by "modality is 1" read the unit row times the indicator. -/
theorem pay6_apply (x : Vec Ideal S512x2048 .f32) (modal : Vec Ideal S512 .i32) (r : Fin 512) (d : Fin 2048) :
    k0_pay6 x modal (ix2 r d) = urow x r d * Spec.ind (modal (ix1 r)) 1#32 := by
  unfold k0_pay6
  refine (truncf_apply (φ := .f32) (ψ := .bf16) _ bitsLt_bf16_f32 (ix2 r d)).trans ?_
  refine (mulf_apply _ _ _).trans ?_
  exact congrArg₂ (· * ·) (pay5_apply x r d) (mask_apply modal 1#32 r d)

/-! ## The product over the point's 512 rows

The product contracts the second axis of its left operand with the first axis of its right one: at result index (l, d)
and contraction coordinate r the operands are read at (l, r) and (r, d). The four lemmas say so axis by axis. -/

theorem lhs_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl

theorem lhs_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q

theorem rhs_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q

theorem rhs_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-- The product into the zero block reads, at (l, d), the sum over the rows r of A[l, r]·B[r, d]. -/
theorem matmul_rows (A : FVec Ideal S256x512 .bf16) (B : FVec Ideal S512x2048 .bf16) (l : Fin 256) (d : Fin 2048) :
    matmul dot_S256x512_S512x2048_S256x2048_1_0_0_1_n_n none A B (constant (F := Ideal) S256x2048 .f32 0x00000000#32) (ix2 l d)
      = ∑ r : Fin 512, A (ix2 l r) * B (ix2 r d) := by
  simp only [matmul]
  rw [Ideal.matmul_constant_zero_apply,
    ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 l d)
      ((contrEquiv1 dot_S256x512_S512x2048_S256x2048_1_0_0_1_n_n 512 rfl rfl).symm k) = ix2 l k := funext fun a => Fin.ext (by
    match a with
    | ⟨0, _⟩ => exact lhs_0 _ _
    | ⟨1, _⟩ => exact (lhs_1 _ _).trans hk)
  have er : dot_S256x512_S512x2048_S256x2048_1_0_0_1_n_n.rhsIdx (ix2 l d)
      ((contrEquiv1 dot_S256x512_S512x2048_S256x2048_1_0_0_1_n_n 512 rfl rfl).symm k) = ix2 k d := funext fun a => Fin.ext (by
    match a with
    | ⟨0, _⟩ => exact (rhs_0 _ _).trans hk
    | ⟨1, _⟩ => exact rhs_1 _ _)
  rw [el, er]

/-! ## One point's update of a block, read at an index -/

/-- What one point adds at (l, d) for modality v: the sum over its rows r of [label r = l]·(unit row · [modality r = v]). -/
def term (v : BitVec 32) (x : Vec Ideal S512x2048 .f32) (lab modal : Vec Ideal S512 .i32) (l : Fin 256) (d : Fin 2048) : EReal :=
  ∑ r : Fin 512, oh (lab (ix1 r)) l * (urow x r d * Spec.ind (modal (ix1 r)) v)

theorem pay8_apply (x : Vec Ideal S512x2048 .f32) (lab modal : Vec Ideal S512 .i32) (acc : Vec Ideal S1x256x2048 .f32)
    (l : Fin 256) (d : Fin 2048) :
    k0_pay8 x lab modal acc (ix2 l d) = acc (ix3 (0 : Fin 1) l d) + term 0#32 x lab modal l d := by
  unfold k0_pay8 term
  refine (addf_apply _ _ _).trans ?_
  refine congrArg₂ (· + ·) (shapeCast_1ab_ab_apply _ _ l d) ?_
  refine (matmul_rows _ _ l d).trans ?_
  refine Finset.sum_congr rfl fun r _ => ?_
  refine congrArg₂ (· * ·) ((transpose_ix2_apply _ _ l r).trans (pay7_apply lab r l)) ?_
  refine (truncf_apply (φ := .f32) (ψ := .bf16) _ bitsLt_bf16_f32 (ix2 r d)).trans ?_
  refine (mulf_apply _ _ _).trans ?_
  exact congrArg₂ (· * ·) (pay5_apply x r d) (mask_apply modal 0#32 r d)

/-- The first block after a point is the block before it plus the point's term for modality 0. -/
theorem step0_a_apply (x : Vec Ideal S512x2048 .f32) (lab modal : Vec Ideal S512 .i32) (acc : Vec Ideal S1x256x2048 .f32)
    (l : Fin 256) (d : Fin 2048) :
    Steps.step0_a x lab modal acc (ix3 (0 : Fin 1) l d) = acc (ix3 (0 : Fin 1) l d) + term 0#32 x lab modal l d := by
  unfold Steps.step0_a k0_pay1
  exact (shapeCast_ab_1ab_apply _ _ (0 : Fin 1) l d).trans (pay8_apply x lab modal acc l d)

/-- The second block after a point is the block before it plus the point's term for modality 1. -/
theorem step0_b_apply (x : Vec Ideal S512x2048 .f32) (lab modal : Vec Ideal S512 .i32) (acc : Vec Ideal S1x256x2048 .f32)
    (l : Fin 256) (d : Fin 2048) :
    Steps.step0_b x lab modal acc (ix3 (0 : Fin 1) l d) = acc (ix3 (0 : Fin 1) l d) + term 1#32 x lab modal l d := by
  unfold Steps.step0_b k0_pay2 term
  refine (shapeCast_ab_1ab_apply _ _ (0 : Fin 1) l d).trans ?_
  refine (addf_apply _ _ _).trans ?_
  refine congrArg₂ (· + ·) (shapeCast_1ab_ab_apply _ _ l d) ?_
  refine (matmul_rows _ _ l d).trans ?_
  refine Finset.sum_congr rfl fun r _ => ?_
  exact congrArg₂ (· * ·) ((transpose_ix2_apply _ _ l r).trans (pay7_apply lab r l)) (pay6_apply x modal r d)

/-- The block a half starts from is zero. -/
theorem pay3_apply (l : Fin 256) (d : Fin 2048) : (k0_pay3 (F := Ideal)) (ix3 (0 : Fin 1) l d) = 0 := by
  unfold k0_pay3
  refine (shapeCast_ab_1ab_apply _ _ (0 : Fin 1) l d).trans ?_
  exact Ideal.ofBits_zero_f32

theorem pay4_apply (l : Fin 256) (d : Fin 2048) : (k0_pay4 (F := Ideal)) (ix3 (0 : Fin 1) l d) = 0 := by
  unfold k0_pay4
  refine (shapeCast_ab_1ab_apply _ _ (0 : Fin 1) l d).trans ?_
  exact Ideal.ofBits_zero_f32

/-! ## The blocks after each point -/

section Run

variable (X : Fin 16 → Vec Ideal S512x2048 .f32) (L M : Fin 16 → Vec Ideal S512 .i32)

/-- The term of point n, zero past the last point. -/
def termAt (v : BitVec 32) (n : ℕ) (l : Fin 256) (d : Fin 2048) : EReal :=
  if h : n < 16 then term v (X ⟨n, h⟩) (L ⟨n, h⟩) (M ⟨n, h⟩) l d else 0

/-- The first point of a half updates the zero blocks. -/
theorem acc0_first (n : ℕ) (h : n < 16) (hr : n % 8 = 0) :
    Steps.acc0 X L M n h = (Steps.step0_a (X ⟨n, h⟩) (L ⟨n, h⟩) (M ⟨n, h⟩) (k0_pay3 (F := Ideal)),
      Steps.step0_b (X ⟨n, h⟩) (L ⟨n, h⟩) (M ⟨n, h⟩) (k0_pay4 (F := Ideal))) := by
  cases n with
  | zero => rfl
  | succ n => rw [Steps.acc0]; exact if_pos hr

/-- Any other point updates the blocks the point before left. -/
theorem acc0_next (n : ℕ) (h : n + 1 < 16) (hr : ¬(n + 1) % 8 = 0) :
    Steps.acc0 X L M (n + 1) h = (Steps.step0_a (X ⟨n + 1, h⟩) (L ⟨n + 1, h⟩) (M ⟨n + 1, h⟩) (Steps.acc0 X L M n (Nat.lt_of_succ_lt h)).1,
      Steps.step0_b (X ⟨n + 1, h⟩) (L ⟨n + 1, h⟩) (M ⟨n + 1, h⟩) (Steps.acc0 X L M n (Nat.lt_of_succ_lt h)).2) := by
  rw [Steps.acc0]; exact if_neg hr

theorem acc0_first_a (n : ℕ) (h : n < 16) (hr : n % 8 = 0) :
    (Steps.acc0 X L M n h).1 = Steps.step0_a (X ⟨n, h⟩) (L ⟨n, h⟩) (M ⟨n, h⟩) (k0_pay3 (F := Ideal)) :=
  congrArg Prod.fst (acc0_first X L M n h hr)

theorem acc0_first_b (n : ℕ) (h : n < 16) (hr : n % 8 = 0) :
    (Steps.acc0 X L M n h).2 = Steps.step0_b (X ⟨n, h⟩) (L ⟨n, h⟩) (M ⟨n, h⟩) (k0_pay4 (F := Ideal)) :=
  congrArg Prod.snd (acc0_first X L M n h hr)

theorem acc0_next_a (n : ℕ) (h : n + 1 < 16) (hr : ¬(n + 1) % 8 = 0) :
    (Steps.acc0 X L M (n + 1) h).1
      = Steps.step0_a (X ⟨n + 1, h⟩) (L ⟨n + 1, h⟩) (M ⟨n + 1, h⟩) (Steps.acc0 X L M n (Nat.lt_of_succ_lt h)).1 :=
  congrArg Prod.fst (acc0_next X L M n h hr)

theorem acc0_next_b (n : ℕ) (h : n + 1 < 16) (hr : ¬(n + 1) % 8 = 0) :
    (Steps.acc0 X L M (n + 1) h).2
      = Steps.step0_b (X ⟨n + 1, h⟩) (L ⟨n + 1, h⟩) (M ⟨n + 1, h⟩) (Steps.acc0 X L M n (Nat.lt_of_succ_lt h)).2 :=
  congrArg Prod.snd (acc0_next X L M n h hr)

/-- After point n the two blocks hold, at (l, d), the sums of the terms of the points of n's half up to n. -/
theorem acc0_run (l : Fin 256) (d : Fin 2048) : ∀ (n : ℕ) (h : n < 16),
    (Steps.acc0 X L M n h).1 (ix3 (0 : Fin 1) l d) = ∑ j ∈ Finset.range (n % 8 + 1), termAt X L M 0#32 (8 * (n / 8) + j) l d
    ∧ (Steps.acc0 X L M n h).2 (ix3 (0 : Fin 1) l d) = ∑ j ∈ Finset.range (n % 8 + 1), termAt X L M 1#32 (8 * (n / 8) + j) l d := by
  intro n
  induction n with
  | zero =>
    intro h
    refine ⟨?_, ?_⟩
    · rw [acc0_first_a X L M 0 h rfl, step0_a_apply, pay3_apply, zero_add, show 0 % 8 + 1 = 1 from rfl,
        Finset.sum_range_one, show 8 * (0 / 8) + 0 = 0 from rfl, termAt, dif_pos h]
    · rw [acc0_first_b X L M 0 h rfl, step0_b_apply, pay4_apply, zero_add, show 0 % 8 + 1 = 1 from rfl,
        Finset.sum_range_one, show 8 * (0 / 8) + 0 = 0 from rfl, termAt, dif_pos h]
  | succ n ih =>
    intro h
    by_cases hr : (n + 1) % 8 = 0
    · have e8 : 8 * ((n + 1) / 8) + 0 = n + 1 := by omega
      refine ⟨?_, ?_⟩
      · rw [acc0_first_a X L M (n + 1) h hr, step0_a_apply, pay3_apply, zero_add, hr, zero_add,
          Finset.sum_range_one, e8, termAt, dif_pos h]
      · rw [acc0_first_b X L M (n + 1) h hr, step0_b_apply, pay4_apply, zero_add, hr, zero_add,
          Finset.sum_range_one, e8, termAt, dif_pos h]
    · have e1 : (n + 1) % 8 = n % 8 + 1 := by omega
      have e2 : (n + 1) / 8 = n / 8 := by omega
      have e3 : 8 * (n / 8) + (n % 8 + 1) = n + 1 := by omega
      obtain ⟨iha, ihb⟩ := ih (Nat.lt_of_succ_lt h)
      refine ⟨?_, ?_⟩
      · rw [acc0_next_a X L M n h hr, step0_a_apply, iha, e1, e2, Finset.sum_range_succ _ (n % 8 + 1), e3,
          termAt, dif_pos h]
      · rw [acc0_next_b X L M n h hr, step0_b_apply, ihb, e1, e2, Finset.sum_range_succ _ (n % 8 + 1), e3,
          termAt, dif_pos h]

end Run

/-! ## All the rows -/

section Rows

variable (X : Fin 16 → Vec Ideal S512x2048 .f32) (L M : Fin 16 → Vec Ideal S512 .i32)
variable (x : (⟨2, ![8192, 2048]⟩ : Shape).Idx → EReal) (lab modal : (⟨1, ![8192]⟩ : Shape).Idx → BitVec 32)

/-- Row R's summand of the label sum at (l, d) for modality v. -/
def rowTerm (v : BitVec 32) (l : Fin 256) (d : Fin 2048) (R : Fin 8192) : EReal :=
  if (lab (ix1 R)).toInt = (l.val : Int) then Spec.unitRow x R d * Spec.ind (modal (ix1 R)) v else 0

/-- A point's term is the sum of its 512 rows' summands: 1·y = y and 0·y = 0 at every y. -/
theorem term_rows
    (hX : ∀ (t : Fin 16) (r : Fin 512) (d : Fin 2048), X t (ix2 r d) = x (ix2 (⟨512 * t.val + r.val, by omega⟩ : Fin 8192) d))
    (hL : ∀ (t : Fin 16) (r : Fin 512), L t (ix1 r) = lab (ix1 (⟨512 * t.val + r.val, by omega⟩ : Fin 8192)))
    (hM : ∀ (t : Fin 16) (r : Fin 512), M t (ix1 r) = modal (ix1 (⟨512 * t.val + r.val, by omega⟩ : Fin 8192)))
    (v : BitVec 32) (t : Fin 16) (l : Fin 256) (d : Fin 2048) :
    term v (X t) (L t) (M t) l d = ∑ r : Fin 512, rowTerm x lab modal v l d ⟨512 * t.val + r.val, by omega⟩ := by
  unfold term
  refine Finset.sum_congr rfl fun r _ => ?_
  have hu : urow (X t) r d = Spec.unitRow x ⟨512 * t.val + r.val, by omega⟩ d := by
    unfold urow Spec.unitRow
    rw [hX t r d]
    refine congrArg (fun s => Ideal.div _ (max (Ideal.sqrt s) Spec.eps)) ?_
    exact Finset.sum_congr rfl fun k _ => by rw [hX t r k]
  rw [hu, hL t r, hM t r]
  simp only [oh, rowTerm, ite_mul, one_mul, zero_mul]

/-- The rows of the 16 points are all 8192 rows. -/
theorem sum_points_rows (g : Fin 8192 → EReal) :
    ∑ t : Fin 16, ∑ r : Fin 512, g ⟨512 * t.val + r.val, by omega⟩ = ∑ R : Fin 8192, g R := by
  rw [← Equiv.sum_comp (finProdFinEquiv : Fin 16 × Fin 512 ≃ Fin 8192) g, Fintype.sum_prod_type]
  refine Finset.sum_congr rfl fun t _ => Finset.sum_congr rfl fun r _ => congrArg g (Fin.ext ?_)
  show 512 * t.val + r.val = r.val + 512 * t.val
  omega

/-- The 8 points of each of the two halves are all 16 points. -/
theorem sum_halves (f : ℕ → EReal) : ∑ p : Fin 2, ∑ j ∈ Finset.range 8, f (8 * p.val + j) = ∑ t : Fin 16, f t.val := by
  rw [← Equiv.sum_comp (finProdFinEquiv : Fin 2 × Fin 8 ≃ Fin 16) (fun t => f t.val), Fintype.sum_prod_type]
  refine Finset.sum_congr rfl fun p _ => ?_
  rw [Finset.sum_range]
  refine Finset.sum_congr rfl fun j _ => congrArg f ?_
  show 8 * p.val + j.val = j.val + 8 * p.val
  omega

/-- The terms of all the points of both halves add up to the label sum. -/
theorem halves_eq
    (hX : ∀ (t : Fin 16) (r : Fin 512) (d : Fin 2048), X t (ix2 r d) = x (ix2 (⟨512 * t.val + r.val, by omega⟩ : Fin 8192) d))
    (hL : ∀ (t : Fin 16) (r : Fin 512), L t (ix1 r) = lab (ix1 (⟨512 * t.val + r.val, by omega⟩ : Fin 8192)))
    (hM : ∀ (t : Fin 16) (r : Fin 512), M t (ix1 r) = modal (ix1 (⟨512 * t.val + r.val, by omega⟩ : Fin 8192)))
    (v : BitVec 32) (l : Fin 256) (d : Fin 2048) :
    ∑ p : Fin 2, ∑ j ∈ Finset.range 8, termAt X L M v (8 * p.val + j) l d = Spec.selSum x lab modal v l d := by
  rw [sum_halves (fun n => termAt X L M v n l d)]
  show _ = ∑ R : Fin 8192, rowTerm x lab modal v l d R
  rw [← sum_points_rows (rowTerm x lab modal v l d)]
  refine Finset.sum_congr rfl fun t _ => ?_
  rw [termAt, dif_pos t.isLt]
  exact term_rows X L M x lab modal hX hL hM v t l d

/-- The host's sum over the half axis of an array whose half p is a running block after point 8p + 7. -/
theorem host_sum (v : BitVec 32) (sel : Vec Ideal S1x256x2048 .f32 × Vec Ideal S1x256x2048 .f32 → Vec Ideal S1x256x2048 .f32)
    (hsel : ∀ (n : ℕ) (h : n < 16) (l : Fin 256) (d : Fin 2048),
      sel (Steps.acc0 X L M n h) (ix3 (0 : Fin 1) l d) = ∑ j ∈ Finset.range (n % 8 + 1), termAt X L M v (8 * (n / 8) + j) l d)
    (A : Vec Ideal S2x256x2048 .f32)
    (hA : ∀ (p : Fin 2) (l : Fin 256) (d : Fin 2048),
      A (ix3 p l d) = sel (Steps.acc0 X L M (8 * p.val + 7) (by omega)) (ix3 (0 : Fin 1) l d))
    (l : Fin 256) (d : Fin 2048) :
    Host.reduceAdd (F := Ideal) A (constant S_ .f32 0x00000000#32) reducesTo_S2x256x2048_S256x2048_d0 h_S_ (ix2 l d)
      = ∑ p : Fin 2, ∑ j ∈ Finset.range 8, termAt X L M v (8 * p.val + j) l d := by
  have hR : S2x256x2048.Reduces [0] S256x2048 := by decide
  refine (Ideal.hostReduceAdd_single reducesTo_S2x256x2048_S256x2048_d0 hR A _ (ix2 l d)).trans ?_
  show Ideal.ofBits .f32 0x00000000#32 + _ = _
  rw [Ideal.ofBits_zero_f32, zero_add]
  refine Finset.sum_congr rfl fun (p : Fin 2) _ => ?_
  have e : hR.lift (ix2 l d) p = ix3 p l d := by
    funext a; match a with | ⟨0, _⟩ => rfl | ⟨1, _⟩ => rfl | ⟨2, _⟩ => rfl
  have e1 : (8 * p.val + 7) % 8 + 1 = 8 := by omega
  have e2 : 8 * ((8 * p.val + 7) / 8) = 8 * p.val := by omega
  rw [e, hA p l d, hsel (8 * p.val + 7) (by omega) l d, e1, e2]

end Rows

/-! ## The two label sums -/

variable (X : Fin 16 → Vec Ideal S512x2048 .f32) (L M : Fin 16 → Vec Ideal S512 .i32)
variable (x : (⟨2, ![8192, 2048]⟩ : Shape).Idx → EReal) (lab modal : (⟨1, ![8192]⟩ : Shape).Idx → BitVec 32)

/-- The sum over the two halves of an array whose half p is the first running block after point 8p + 7 is the
    label sum of modality 0. -/
theorem sum_a
    (hX : ∀ (t : Fin 16) (r : Fin 512) (d : Fin 2048), X t (ix2 r d) = x (ix2 (⟨512 * t.val + r.val, by omega⟩ : Fin 8192) d))
    (hL : ∀ (t : Fin 16) (r : Fin 512), L t (ix1 r) = lab (ix1 (⟨512 * t.val + r.val, by omega⟩ : Fin 8192)))
    (hM : ∀ (t : Fin 16) (r : Fin 512), M t (ix1 r) = modal (ix1 (⟨512 * t.val + r.val, by omega⟩ : Fin 8192)))
    (A : Vec Ideal S2x256x2048 .f32)
    (hA : ∀ (p : Fin 2) (l : Fin 256) (d : Fin 2048),
      A (ix3 p l d) = (Steps.acc0 X L M (8 * p.val + 7) (by omega)).1 (ix3 (0 : Fin 1) l d))
    (l : Fin 256) (d : Fin 2048) :
    Host.reduceAdd (F := Ideal) A (constant S_ .f32 0x00000000#32) reducesTo_S2x256x2048_S256x2048_d0 h_S_ (ix2 l d)
      = Spec.selSum x lab modal 0#32 l d := by
  rw [← halves_eq X L M x lab modal hX hL hM 0#32 l d]
  exact host_sum X L M 0#32 Prod.fst (fun n h l d => (acc0_run X L M l d n h).1) A hA l d

/-- The same for the second running block and modality 1. -/
theorem sum_b
    (hX : ∀ (t : Fin 16) (r : Fin 512) (d : Fin 2048), X t (ix2 r d) = x (ix2 (⟨512 * t.val + r.val, by omega⟩ : Fin 8192) d))
    (hL : ∀ (t : Fin 16) (r : Fin 512), L t (ix1 r) = lab (ix1 (⟨512 * t.val + r.val, by omega⟩ : Fin 8192)))
    (hM : ∀ (t : Fin 16) (r : Fin 512), M t (ix1 r) = modal (ix1 (⟨512 * t.val + r.val, by omega⟩ : Fin 8192)))
    (A : Vec Ideal S2x256x2048 .f32)
    (hA : ∀ (p : Fin 2) (l : Fin 256) (d : Fin 2048),
      A (ix3 p l d) = (Steps.acc0 X L M (8 * p.val + 7) (by omega)).2 (ix3 (0 : Fin 1) l d))
    (l : Fin 256) (d : Fin 2048) :
    Host.reduceAdd (F := Ideal) A (constant S_ .f32 0x00000000#32) reducesTo_S2x256x2048_S256x2048_d0 h_S_ (ix2 l d)
      = Spec.selSum x lab modal 1#32 l d := by
  rw [← halves_eq X L M x lab modal hX hL hM 1#32 l d]
  exact host_sum X L M 1#32 Prod.snd (fun n h l d => (acc0_run X L M l d n h).2) A hA l d

end Cert.KernelIdeal.LabelSums

end
-- ==== Proof.PairBlocks.lean ====
/-
  The second kernel's result array, of shape 2 × 1 × 128, after the whole grid has run.  Half p is written once,
  after the last point 16p + 15 of that half, with the output block that point leaves: the running block of
  `Steps.acc1` over the points' input blocks.  Point t's input blocks are rows 256·t … 256·t + 255 of the three
  feature arrays.
-/
import proofs.«423768_j88124138979690_2_alg».proof.Proof.Gen.KernelIdeal.Frame
import proofs.«423768_j88124138979690_2_alg».proof.Proof.Steps
import Idealize.ShloMosaic.Lib.Pipeline.Value
import Idealize.ShloMosaic.Lib.ValueIdx

noncomputable section

namespace Cert.KernelIdeal.PairBlocks

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hN : cfg1.N = 32 := N_1

/-- Point `t`'s block of each of the three arrays, as the region finds them. -/
def blkA (c : Dev nD) (t : Fin 32) : Vec F S256x2048 .f32 := iblk1 V c 0 (Fin.cast hN.symm t)
def blkB (c : Dev nD) (t : Fin 32) : Vec F S256x2048 .f32 := iblk1 V c 1 (Fin.cast hN.symm t)
def blkC (c : Dev nD) (t : Fin 32) : Vec F S256x2048 .f32 := iblk1 V c 2 (Fin.cast hN.symm t)

/-! ## A block is a range of rows of its array -/

/-- The block index maps of the three input windows, over the grid: point t reads block row t, block column 0. -/
theorem idx_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row r of point t's block is row 256·t + r of the array. -/
theorem blkA_apply (c : Dev nD) (t : Fin 32) (r : Fin 256) (d : Fin 2048) :
    blkA V c t (ix2 r d) = V c main_arg1 (ix2 (⟨256 * t.val + r.val, by omega⟩ : Fin 8192) d) := by
  obtain ⟨e0, e1, -⟩ := idx_in (Fin.cast hN.symm t)
  unfold blkA iblk1
  rw [View.read_apply]
  show V c main_arg1 _ = V c main_arg1 _
  congr 1
  funext a
  apply Fin.ext
  -- a coordinate of the array is the block's index times the block's extent plus the coordinate inside the block
  match a with
  | ⟨0, _⟩ =>
    show win1_0.index (Fin.cast hN.symm t) (0 : Fin 2) * 256 + 1 * r.val = 256 * t.val + r.val
    rw [e0]; show t.val * 256 + 1 * r.val = 256 * t.val + r.val; omega
  | ⟨1, _⟩ =>
    show win1_0.index (Fin.cast hN.symm t) (1 : Fin 2) * 2048 + 1 * d.val = d.val
    rw [e1]; omega
theorem blkB_apply (c : Dev nD) (t : Fin 32) (r : Fin 256) (d : Fin 2048) :
    blkB V c t (ix2 r d) = V c main_arg2 (ix2 (⟨256 * t.val + r.val, by omega⟩ : Fin 8192) d) := by
  obtain ⟨-, -, e0, e1, -⟩ := idx_in (Fin.cast hN.symm t)
  unfold blkB iblk1
  rw [View.read_apply]
  show V c main_arg2 _ = V c main_arg2 _
  congr 1
  funext a
  apply Fin.ext
  match a with
  | ⟨0, _⟩ =>
    show win1_1.index (Fin.cast hN.symm t) (0 : Fin 2) * 256 + 1 * r.val = 256 * t.val + r.val
    rw [e0]; show t.val * 256 + 1 * r.val = 256 * t.val + r.val; omega
  | ⟨1, _⟩ =>
    show win1_1.index (Fin.cast hN.symm t) (1 : Fin 2) * 2048 + 1 * d.val = d.val
    rw [e1]; omega
theorem blkC_apply (c : Dev nD) (t : Fin 32) (r : Fin 256) (d : Fin 2048) :
    blkC V c t (ix2 r d) = V c main_arg3 (ix2 (⟨256 * t.val + r.val, by omega⟩ : Fin 8192) d) := by
  obtain ⟨-, -, -, -, e0, e1⟩ := idx_in (Fin.cast hN.symm t)
  unfold blkC iblk1
  rw [View.read_apply]
  show V c main_arg3 _ = V c main_arg3 _
  congr 1
  funext a
  apply Fin.ext
  match a with
  | ⟨0, _⟩ =>
    show win1_2.index (Fin.cast hN.symm t) (0 : Fin 2) * 256 + 1 * r.val = 256 * t.val + r.val
    rw [e0]; show t.val * 256 + 1 * r.val = 256 * t.val + r.val; omega
  | ⟨1, _⟩ =>
    show win1_2.index (Fin.cast hN.symm t) (1 : Fin 2) * 2048 + 1 * d.val = d.val
    rw [e1]; omega

/-! ## One point's update of the output block

  Every load of the body reads a whole buffer from offset zero, and its last store writes the whole output block;
  so what a point leaves in the output block is the stored term over the buffers' contents. -/

theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its half: the output block holding `xo` is left at the update of `xo` by the
    point's three input blocks. -/
theorem out_B (c : Dev nD) (i : grid1.Coords)
    (a2 : Memref sig .tc .vmem S256x2048 .f32) (h2 : a2.IsWhole)
    (a3 : Memref sig .tc .vmem S256x2048 .f32) (h3 : a3.IsWhole)
    (a4 : Memref sig .tc .vmem S256x2048 .f32) (h4 : a4.IsWhole)
    (a5 : Memref sig .tc .vmem S1x1x128 .f32) (h5 : a5.IsWhole) (hc : ¬cond1_0 i)
    (x0 x1 x2 : Vec F S256x2048 .f32) (xo : Vec F S1x1x128 .f32) :
    out1_B_3 c i a2 h2 a3 h3 a4 h4 a5 h5 hc x0 x1 x2 xo = Steps.step1 x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  unfold Steps.step1
  simp only [View.readAt_eq_ld, h2.read_unread, h3.read_unread, h4.read_unread, h5.read_unread,
    View.ld_unit_zero (S := S256x2048) hz2, View.ld_unit_zero (S := S1x1x128) hz3]

/-- The first point of a half: the zero block is stored first and read back, so the output block is left at the
    update of the zero block, whatever it held. -/
theorem out_A (c : Dev nD) (i : grid1.Coords)
    (a2 : Memref sig .tc .vmem S256x2048 .f32) (h2 : a2.IsWhole)
    (a3 : Memref sig .tc .vmem S256x2048 .f32) (h3 : a3.IsWhole)
    (a4 : Memref sig .tc .vmem S256x2048 .f32) (h4 : a4.IsWhole)
    (a5 : Memref sig .tc .vmem S1x1x128 .f32) (h5 : a5.IsWhole) (hc : cond1_0 i)
    (x0 x1 x2 : Vec F S256x2048 .f32) :
    out1_A_3 c i a2 h2 a3 h3 a4 h4 a5 h5 hc x0 x1 x2 = Steps.step1 x0 x1 x2 k1_pay2 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x128) hz3, View.readCov_unit_zero (S := S1x1x128) _ hz3]
  unfold Steps.step1
  simp only [View.readAt_eq_ld, h2.read_unread, h3.read_unread, h4.read_unread,
    View.ld_unit_zero (S := S256x2048) hz2]

/-! ## The running block -/

/-- What the output block holds after point `n` is the running block of `Steps.acc1`. -/
theorem outsAt_eq (c : Dev nD) (n : ℕ) (h : n < cfg1.N) :
    outsAt1 V c n h = Steps.acc1 (blkA V c) (blkB V c) (blkC V c) n (hN ▸ h) := by
  induction n with
  | zero =>
    -- point 0 opens the first half
    rw [outsAt1_A V c ⟨0, h⟩ (Nat.zero_mod 16), out_A]
    rfl
  | succ n ih =>
    by_cases h0 : (n + 1) % 16 = 0
    · -- the first point of the second half starts again from the zero block
      rw [outsAt1_A V c ⟨n + 1, h⟩ h0, out_A]
      unfold Steps.acc1
      rw [if_pos h0]
      rfl
    · -- any other point updates what the point before left
      rw [outsAt1_B V c ⟨n + 1, h⟩ h0, out_B]
      unfold Steps.acc1
      rw [if_neg h0]
      show Steps.step1 _ _ _ (outsAt1 V c n _) = Steps.step1 _ _ _ (Steps.acc1 _ _ _ n _)
      rw [ih]
      rfl

/-! ## The result array after the run -/

/-- The block index map of the result window, over the grid: point t's block is block (t / 16, 0, 0). -/
theorem idx_out : ∀ t : Fin cfg1.N, win1_3.index t (0 : Fin 3) = t.val / 16 ∧ win1_3.index t (1 : Fin 3) = 0
    ∧ win1_3.index t (2 : Fin 3) = 0 :=
  (by decide +kernel : ∀ t : Fin grid1.N, _)

/-- The running block depends on the point's number only, not on the proof that it is a point. -/
theorem acc1_congr (A B C : Fin 32 → Vec F S256x2048 .f32) {n n' : ℕ} (e : n = n') (h : n < 32) (h' : n' < 32)
    {i i' : S1x1x128.Idx} (ei : i = i') : Steps.acc1 A B C n h i = Steps.acc1 A B C n' h' i' := by
  subst e; subst ei; rfl

/-- The whole result array as one function: entry (p, 0, lane) is lane `lane` of the running block after the last
    point 16p + 15 of half p. -/
def resultArr (c : Dev nD) : Vec F S2x1x128 .f32 := fun i =>
  Steps.acc1 (blkA V c) (blkB V c) (blkC V c) (16 * (i 0).val + 15)
    (by have h : (i 0).val < 2 := (i 0).isLt; omega) (ix3 (0 : Fin 1) (0 : Fin 1) (i 2))

/-- A point that writes its block back is the last of its half, t = 16p + 15, and what it writes to block
    (p, 0, 0) of the array is the running block after it: block (p, 0, 0) of `resultArr`. -/
theorem flushed_eq (c : Dev nD) (t : Fin cfg1.N) (hf : (cfg1.win 3).flush t = true) :
    (dat1 V c).flushed 3 t = ((cfg1.win 3).blk t).view.read (Elt F) (resultArr V c) := by
  have h15 : t.val % 16 = 15 := (flush1_3 t).mp hf
  have hlt : t.val < 32 := lt_of_lt_of_eq t.isLt hN
  obtain ⟨e0, e1, e2⟩ := idx_out t
  show (cfg1.win 3).cut (grid1.coords t) ((dat1 V c).after 3 t) = _
  rw [after1_3, outsAt_eq]
  funext j
  rw [View.read_apply]
  have hj0 : (j 0).val < 1 := (j 0).isLt
  have hj1 : (j 1).val < 1 := (j 1).isLt
  have hj2 : (j 2).val < 128 := (j 2).isLt
  have k0 : ((((cfg1.win 3).blk t).view.emb j : S2x1x128.Idx) 0).val
      = win1_3.index t (0 : Fin 3) * 1 + 1 * (j 0).val := rfl
  have k2 : ((((cfg1.win 3).blk t).view.emb j : S2x1x128.Idx) 2).val
      = win1_3.index t (2 : Fin 3) * 128 + 1 * (j 2).val := rfl
  show Steps.acc1 _ _ _ t.val _ ((cfg1.win 3).xinj (grid1.coords t) j)
    = resultArr V c (((cfg1.win 3).blk t).view.emb j)
  unfold resultArr
  -- the half is t / 16, and 16 · (t / 16) + 15 = t since t ≡ 15 (mod 16); the lane is the block's own
  refine acc1_congr _ _ _ (by rw [k0, e0]; omega) _ _ ?_
  funext a; apply Fin.ext
  match a with
  | ⟨0, _⟩ => show (j 0).val = 0; omega
  | ⟨1, _⟩ => show (j 1).val = 0; omega
  | ⟨2, _⟩ =>
    show (j 2).val = ((((cfg1.win 3).blk t).view.emb j : S2x1x128.Idx) 2).val
    rw [k2, e2]; omega

/-- After the whole grid the result array is `resultArr`: entry (p, 0, lane) lies in the block of point 16p + 15, which
    writes back. -/
theorem arrAt_eq (c : Dev nD) : (dat1 V c).arrAt 3 cfg1.N = resultArr V c :=
  (dat1 V c).arrAt_eq_of_cover 3 (resultArr V c) (flushed_eq V c) fun i => by
    have hi0 : (i 0).val < 2 := (i 0).isLt
    have hi1 : (i 1).val < 1 := (i 1).isLt
    have hi2 : (i 2).val < 128 := (i 2).isLt
    have ht : 16 * (i 0).val + 15 < cfg1.N := by rw [hN]; omega
    obtain ⟨e0, e1, e2⟩ := idx_out ⟨16 * (i 0).val + 15, ht⟩
    refine ⟨⟨16 * (i 0).val + 15, ht⟩, (flush1_3 _).mpr (by show (16 * (i 0).val + 15) % 16 = 15; omega), ?_⟩
    show i ∈ ((View.whole main_v3).slice (win1_3.rect ⟨16 * (i 0).val + 15, ht⟩)).set
    rw [View.set_slice_whole, Rect.mem_set_unit]
    intro a
    match a with
    | ⟨0, _⟩ =>
      show win1_3.index ⟨16 * (i 0).val + 15, ht⟩ (0 : Fin 3) * 1 ≤ (i 0).val
        ∧ (i 0).val < win1_3.index ⟨16 * (i 0).val + 15, ht⟩ (0 : Fin 3) * 1 + 1
      rw [e0]
      show (16 * (i 0).val + 15) / 16 * 1 ≤ (i 0).val ∧ (i 0).val < (16 * (i 0).val + 15) / 16 * 1 + 1
      omega
    | ⟨1, _⟩ =>
      show win1_3.index ⟨16 * (i 0).val + 15, ht⟩ (1 : Fin 3) * 1 ≤ (i 1).val
        ∧ (i 1).val < win1_3.index ⟨16 * (i 0).val + 15, ht⟩ (1 : Fin 3) * 1 + 1
      rw [e1]; omega
    | ⟨2, _⟩ =>
      show win1_3.index ⟨16 * (i 0).val + 15, ht⟩ (2 : Fin 3) * 128 ≤ (i 2).val
        ∧ (i 2).val < win1_3.index ⟨16 * (i 0).val + 15, ht⟩ (2 : Fin 3) * 128 + 128
      rw [e2]; omega

/-- Half `p` of the result array is the running block after point 16p + 15. -/
theorem final (c : Dev nD) (p : Fin 2) (lane : Fin 128) :
    ((dat1 V c).arrAt 3 cfg1.N : Vec F S2x1x128 .f32) (ix3 p (0 : Fin 1) lane)
      = Steps.acc1 (blkA V c) (blkB V c) (blkC V c) (16 * p.val + 15) (by omega) (ix3 (0 : Fin 1) (0 : Fin 1) lane) := by
  exact congrFun (arrAt_eq V c) (ix3 p (0 : Fin 1) lane)

end Cert.KernelIdeal.PairBlocks

end
-- ==== Proof.PairSums.lean ====
/-
  Summing the two halves of the second kernel's result array and reading lanes 0, 1, 2 gives the three pair sums.
  After the 16 points of a half, lane 0 of the running block holds the sum over the half's 4096 rows r of
  |Σ_d u(a)[r, d]·u(b)[r, d]|, lane 1 the same of (a, c), lane 2 of (b, c): each point adds its 256 rows' terms,
  and the first point of a half starts from zero.  The two halves together are all 8192 rows.
-/
import proofs.«423768_j88124138979690_2_alg».proof.Proof.Steps
import proofs.«423768_j88124138979690_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PairSums

open Idealize.ShloMosaic Idealize.ShloMosaic.ValueIdx
open Cert.KernelIdeal Cert.KernelIdeal.Gen
open scoped BigOperators

/-! ## Reading the layout operations and the sums of this region at an index -/

/-- A vector of 256 entries seen as a column reads its entry. -/
theorem col_apply {α : Type} (v : S256.Idx → α) (r : Fin 256) (u : Fin 1) :
    shapeCast S256x1 v shapeCasts_S256_S256x1 (ix2 r u) = v (ix1 r) :=
  shapeCast_apply v shapeCasts_S256_S256x1 _ _ (by
    have hu : u.val = 0 := by omega
    rw [Shape.rowMajor_val_two, Shape.rowMajor_val_one]
    show r.val = r.val * 1 + u.val
    rw [hu, Nat.mul_one, Nat.add_zero])

/-- A column spread over 2048 columns reads the column's entry of the same row. -/
theorem spread_apply {α : Type} (v : S256x1.Idx → α) (r : Fin 256) (d : Fin 2048) :
    broadcastTo S256x2048 v broadcasts_S256x1_S256x2048 (ix2 r d) = v (ix2 r (0 : Fin 1)) := by
  refine broadcastTo_apply v broadcasts_S256x1_S256x2048 (ix2 r d) (ix2 r (0 : Fin 1)) fun ax => ?_
  match ax with
  | ⟨0, _⟩ => rfl
  | ⟨1, _⟩ => rfl

/-- The sum along a row of a 256 × 2048 block. -/
theorem rowSum_apply (src : FVec Ideal S256x2048 .f32) (hφ : FKind.Formats .f32)
    (hacc : (0x00000000#32 : BitVec 32) = FKind.add.neutral .f32 hφ) (r : Fin 256) :
    multiReduction (F := Ideal) .add [1] S256 src 0x00000000#32 reduces_S256x2048_S256 hφ hacc (ix1 r)
      = ∑ k : Fin 2048, src (ix2 r k) := by
  refine (Ideal.multiReduction_add_single src 0x00000000#32 reduces_S256x2048_S256 hφ hacc (ix1 r)).trans ?_
  show ∑ k : Fin 2048, src (reduces_S256x2048_S256.lift (ix1 r) k) = _
  refine Finset.sum_congr rfl fun k _ => congrArg src (funext fun ax => Fin.ext ?_)
  match ax with
  | ⟨0, _⟩ => rfl
  | ⟨1, _⟩ => rfl

/-- The sum down the one column of a 256 × 1 block. -/
theorem colSum_apply (src : FVec Ideal S256x1 .f32) (hφ : FKind.Formats .f32)
    (hacc : (0x00000000#32 : BitVec 32) = FKind.add.neutral .f32 hφ) (u : Fin 1) :
    multiReduction (F := Ideal) .add [0] S1 src 0x00000000#32 reduces_S256x1_S1 hφ hacc (ix1 u)
      = ∑ r : Fin 256, src (ix2 r (0 : Fin 1)) := by
  refine (Ideal.multiReduction_add_single src 0x00000000#32 reduces_S256x1_S1 hφ hacc (ix1 u)).trans ?_
  show ∑ r : Fin 256, src (reduces_S256x1_S1.lift (ix1 u) r) = _
  refine Finset.sum_congr rfl fun r _ => congrArg src (funext fun ax => Fin.ext ?_)
  match ax with
  | ⟨0, _⟩ => rfl
  | ⟨1, _⟩ =>
    show u.val = 0
    omega

/-! ## One point's blocks: unit rows and their products -/

/-- Entry (r, d) of a 256 × 2048 block with row r scaled to unit length. -/
def unitB (x : S256x2048.Idx → EReal) (r : Fin 256) (d : Fin 2048) : EReal :=
  Ideal.div (x (ix2 r d)) (max (Ideal.sqrt (∑ k : Fin 2048, x (ix2 r k) * x (ix2 r k))) Spec.eps)

/-- The product of row r of the unit rows of two blocks. -/
def dotB (x y : S256x2048.Idx → EReal) (r : Fin 256) : EReal :=
  ∑ d : Fin 2048, unitB x r d * unitB y r d

/-- The sum over a block's 256 rows of the absolute row products. -/
def rowsAbs (x y : S256x2048.Idx → EReal) : EReal :=
  ∑ r : Fin 256, Spec.absE (dotB x y r)

/-- The first scaled block at an entry. -/
theorem pay3_apply (x : Vec Ideal S256x2048 .f32) (r : Fin 256) (d : Fin 2048) :
    k1_pay3 x (ix2 r d) = unitB x r d := by
  unfold k1_pay3 unitB
  show Ideal.div (x (ix2 r d)) (broadcastTo S256x2048 _ broadcasts_S256x1_S256x2048 (ix2 r d)) = _
  refine congrArg (Ideal.div (x (ix2 r d))) ?_
  refine (spread_apply _ r d).trans ?_
  show max (Ideal.sqrt (shapeCast S256x1 _ shapeCasts_S256_S256x1 (ix2 r (0 : Fin 1)))) Spec.eps = _
  refine congrArg (fun y => max (Ideal.sqrt y) Spec.eps) ?_
  refine (col_apply _ r 0).trans ?_
  exact rowSum_apply _ _ _ r

/-- The second scaled block is computed as the first. -/
theorem pay4_apply (x : Vec Ideal S256x2048 .f32) (r : Fin 256) (d : Fin 2048) :
    k1_pay4 x (ix2 r d) = unitB x r d := pay3_apply x r d

/-- The third scaled block is computed as the first. -/
theorem pay5_apply (x : Vec Ideal S256x2048 .f32) (r : Fin 256) (d : Fin 2048) :
    k1_pay5 x (ix2 r d) = unitB x r d := pay3_apply x r d

/-- The column of absolute row products of the first and second blocks. -/
theorem pay6_apply (x y : Vec Ideal S256x2048 .f32) (r : Fin 256) :
    k1_pay6 x y (ix2 r (0 : Fin 1)) = Spec.absE (dotB x y r) := by
  unfold k1_pay6
  show Spec.absE (shapeCast S256x1 _ shapeCasts_S256_S256x1 (ix2 r (0 : Fin 1))) = _
  refine congrArg Spec.absE ?_
  refine (col_apply _ r 0).trans ?_
  refine (rowSum_apply _ _ _ r).trans ?_
  refine Finset.sum_congr rfl fun d _ => ?_
  show k1_pay3 x (ix2 r d) * k1_pay4 y (ix2 r d) = _
  rw [pay3_apply, pay4_apply]

/-- The column of absolute row products of the first and third blocks. -/
theorem pay7_apply (x z : Vec Ideal S256x2048 .f32) (r : Fin 256) :
    k1_pay7 x z (ix2 r (0 : Fin 1)) = Spec.absE (dotB x z r) := by
  unfold k1_pay7
  show Spec.absE (shapeCast S256x1 _ shapeCasts_S256_S256x1 (ix2 r (0 : Fin 1))) = _
  refine congrArg Spec.absE ?_
  refine (col_apply _ r 0).trans ?_
  refine (rowSum_apply _ _ _ r).trans ?_
  refine Finset.sum_congr rfl fun d _ => ?_
  show k1_pay3 x (ix2 r d) * k1_pay5 z (ix2 r d) = _
  rw [pay3_apply, pay5_apply]

/-- The row products of the second and third blocks, before the absolute value. -/
theorem pay8_apply (y z : Vec Ideal S256x2048 .f32) (r : Fin 256) :
    k1_pay8 y z (ix1 r) = dotB y z r := by
  unfold k1_pay8
  refine (rowSum_apply _ _ _ r).trans ?_
  refine Finset.sum_congr rfl fun d _ => ?_
  show k1_pay4 y (ix2 r d) * k1_pay5 z (ix2 r d) = _
  rw [pay4_apply, pay5_apply]

/-! ## One point's update of the running block, read at a lane -/

/-- A one-entry vector, made a 1 × 1 cell and spread along the 128 lanes, reads that entry at every lane. -/
theorem cell_apply {α : Type} (v : S1.Idx → α) (lane : Fin 128) :
    broadcastTo S1x128 (shapeCast S1x1 (shapeCast S1x1 v shapeCasts_S1_S1x1) shapeCasts_S1x1_S1x1) broadcasts_S1x1_S1x128
      (ix2 (0 : Fin 1) lane) = v (ix1 (0 : Fin 1)) := by
  refine (broadcastTo_apply _ broadcasts_S1x1_S1x128 (ix2 (0 : Fin 1) lane) (ix2 (0 : Fin 1) (0 : Fin 1)) fun ax => ?_).trans ?_
  · match ax with
    | ⟨0, _⟩ => rfl
    | ⟨1, _⟩ => rfl
  · rw [shapeCast_self]
    exact shapeCast_a_1a_apply v shapeCasts_S1_S1x1 0 0

/-- The bit "this lane's number is the word w". -/
def laneIs (w : BitVec 32) (lane : Fin 128) : BitVec 1 :=
  cmpi .eq (iota .tc S1x128 32 [1] iota_S1x128_d1_w32) (broadcast S1x128 w) (ix2 (0 : Fin 1) lane)

/-- What a lane gains of three values: the first at lane 0, the second at lane 1, the third at lane 2, zero at any other lane. -/
def laneSel (lane : Fin 128) (P0 P1 P2 : EReal) : EReal :=
  Scalar.select (laneIs 0#32 lane) P0 (Scalar.select (laneIs 1#32 lane) P1 (Scalar.select (laneIs 2#32 lane) P2 0))

/-- One point adds to each lane of the block what `laneSel` picks of the three sums of absolute row products. -/
theorem step1_apply (x y z : Vec Ideal S256x2048 .f32) (acc : Vec Ideal S1x1x128 .f32) (lane : Fin 128) :
    Steps.step1 x y z acc (ix3 (0 : Fin 1) (0 : Fin 1) lane)
      = acc (ix3 (0 : Fin 1) (0 : Fin 1) lane) + laneSel lane (rowsAbs x y) (rowsAbs x z) (rowsAbs y z) := by
  unfold Steps.step1 k1_pay1
  refine (shapeCast_ab_1ab_apply _ shapeCasts_S1x128_S1x1x128 0 0 lane).trans ?_
  show shapeCast S1x128 acc shapeCasts_S1x1x128_S1x128 (ix2 (0 : Fin 1) lane)
      + Scalar.select (laneIs 0#32 lane) _ (Scalar.select (laneIs 1#32 lane) _ (Scalar.select (laneIs 2#32 lane) _ _)) = _
  unfold laneSel
  refine congrArg₂ (· + ·) (shapeCast_1ab_ab_apply acc shapeCasts_S1x1x128_S1x128 0 lane) ?_
  refine congrArg₂ (Scalar.select (laneIs 0#32 lane)) ?_
    (congrArg₂ (Scalar.select (laneIs 1#32 lane)) ?_ (congrArg₂ (Scalar.select (laneIs 2#32 lane)) ?_ ?_))
  · refine (cell_apply _ lane).trans ((colSum_apply _ _ _ 0).trans ?_)
    exact Finset.sum_congr rfl fun r _ => pay6_apply x y r
  · refine (cell_apply _ lane).trans ((colSum_apply _ _ _ 0).trans ?_)
    exact Finset.sum_congr rfl fun r _ => pay7_apply x z r
  · refine (cell_apply _ lane).trans ((colSum_apply _ _ _ 0).trans ?_)
    refine Finset.sum_congr rfl fun r _ => ?_
    show Spec.absE (shapeCast S256x1 (k1_pay8 y z) shapeCasts_S256_S256x1 (ix2 r (0 : Fin 1))) = _
    exact congrArg Spec.absE ((col_apply _ r 0).trans (pay8_apply y z r))
  · exact Ideal.ofBits_zero_f32

/-- The block a half starts from is zero at every lane. -/
theorem pay2_apply (lane : Fin 128) : (k1_pay2 (F := Ideal)) (ix3 (0 : Fin 1) (0 : Fin 1) lane) = 0 := by
  unfold k1_pay2
  refine (shapeCast_ab_1ab_apply _ shapeCasts_S1x128_S1x1x128 0 0 lane).trans ?_
  exact Ideal.ofBits_zero_f32

/-- Lane 0 gains the first value, lane 1 the second, lane 2 the third. -/
theorem laneSel_zero (P0 P1 P2 : EReal) : laneSel (0 : Fin 128) P0 P1 P2 = P0 := rfl
theorem laneSel_one (P0 P1 P2 : EReal) : laneSel (1 : Fin 128) P0 P1 P2 = P1 := rfl
theorem laneSel_two (P0 P1 P2 : EReal) : laneSel (2 : Fin 128) P0 P1 P2 = P2 := rfl

/-! ## The running block over a half -/

section Halves

variable (A B C : Fin 32 → Vec Ideal S256x2048 .f32)

/-- What point n adds at a lane (nothing past the last point). -/
def gain (lane : Fin 128) (n : ℕ) : EReal :=
  if h : n < 32 then
    laneSel lane (rowsAbs (A ⟨n, h⟩) (B ⟨n, h⟩)) (rowsAbs (A ⟨n, h⟩) (C ⟨n, h⟩)) (rowsAbs (B ⟨n, h⟩) (C ⟨n, h⟩))
  else 0

/-- The first point of a half leaves its own gain: it starts from the zero block. -/
theorem acc1_first (n : ℕ) (h : n < 32) (hn : n % 16 = 0) (lane : Fin 128) :
    Steps.acc1 A B C n h (ix3 (0 : Fin 1) (0 : Fin 1) lane) = gain A B C lane n := by
  have e : Steps.acc1 A B C n h = Steps.step1 (A ⟨n, h⟩) (B ⟨n, h⟩) (C ⟨n, h⟩) (k1_pay2 (F := Ideal)) := by
    cases n with
    | zero => rfl
    | succ k => rw [Steps.acc1, if_pos hn]
  rw [e, step1_apply, pay2_apply, zero_add, gain, dif_pos h]

/-- Any other point adds its gain to what the point before left. -/
theorem acc1_next (n : ℕ) (h : n + 1 < 32) (hn : (n + 1) % 16 ≠ 0) (lane : Fin 128) :
    Steps.acc1 A B C (n + 1) h (ix3 (0 : Fin 1) (0 : Fin 1) lane)
      = Steps.acc1 A B C n (Nat.lt_of_succ_lt h) (ix3 (0 : Fin 1) (0 : Fin 1) lane) + gain A B C lane (n + 1) := by
  rw [Steps.acc1, if_neg hn, step1_apply, gain, dif_pos h]

/-- After point j of half p the block holds the gains of the half's points 0 … j. -/
theorem acc1_half (p j : ℕ) (h : 16 * p + j < 32) (hj : j < 16) (lane : Fin 128) :
    Steps.acc1 A B C (16 * p + j) h (ix3 (0 : Fin 1) (0 : Fin 1) lane)
      = ∑ i ∈ Finset.range (j + 1), gain A B C lane (16 * p + i) := by
  induction j with
  | zero =>
    rw [Finset.sum_range_one]
    exact acc1_first A B C (16 * p + 0) h (by omega) lane
  | succ k ih =>
    rw [Finset.sum_range_succ, ← ih (by omega) (by omega)]
    exact acc1_next A B C (16 * p + k) h (by omega) lane

end Halves

/-! ## The host's sum of the two halves and the reads of one lane -/

/-- The sum over the half axis, read at a lane, is the two halves' entries added. -/
theorem halves_apply (O : Vec Ideal S2x1x128 .f32) (lane : Fin 128) :
    Host.reduceAdd (F := Ideal) O (constant S_ .f32 0x00000000#32) reducesTo_S2x1x128_S1x128_d0 h_S_ (ix2 (0 : Fin 1) lane)
      = O (ix3 (0 : Fin 2) (0 : Fin 1) lane) + O (ix3 (1 : Fin 2) (0 : Fin 1) lane) := by
  have hr : S2x1x128.Reduces [0] S1x128 := by decide
  unfold Host.reduceAdd
  refine (Ideal.hostReduceAdd_single reducesTo_S2x1x128_S1x128_d0 hr O _ (ix2 (0 : Fin 1) lane)).trans ?_
  show Ideal.ofBits .f32 0x00000000#32 + ∑ k : Fin 2, O (hr.lift (ix2 (0 : Fin 1) lane) k) = _
  rw [Ideal.ofBits_zero_f32, zero_add, Fin.sum_univ_two]
  refine congrArg₂ (· + ·) (congrArg O ?_) (congrArg O ?_)
  · funext ax
    apply Fin.ext
    match ax with
    | ⟨0, _⟩ => rfl
    | ⟨1, _⟩ => rfl
    | ⟨2, _⟩ => rfl
  · funext ax
    apply Fin.ext
    match ax with
    | ⟨0, _⟩ => rfl
    | ⟨1, _⟩ => rfl
    | ⟨2, _⟩ => rfl

/-- The 1 × 1 cell cut at lane L of a 1 × 128 vector, made a scalar, is the vector's entry at lane L. -/
theorem laneRead {α : Type} (X : S1x128.Idx → α) (L : ℕ) (hL : L < 128) (hs : S1x128.Slices ![0, L] S1x1) (i : S_.Idx) :
    shapeCast S_ (extractStridedSlice S1x1 ![0, L] X hs) shapeCasts_S1x1_S_ i = X (ix2 (0 : Fin 1) (⟨L, hL⟩ : Fin 128)) := by
  refine (shapeCast_apply _ shapeCasts_S1x1_S_ i (ix2 (0 : Fin 1) (0 : Fin 1)) ?_).trans ?_
  · have h1 := (S1x1.rowMajor (ix2 (0 : Fin 1) (0 : Fin 1))).isLt
    have h2 := (S_.rowMajor i).isLt
    have e1 : S1x1.numel = 1 := by decide
    have e2 : S_.numel = 1 := by decide
    omega
  · refine extractStridedSlice_apply _ X hs _ _ fun ax => ?_
    match ax with
    | ⟨0, _⟩ => rfl
    | ⟨1, _⟩ => rfl

/-! ## Regrouping: two halves of 16 points of 256 rows are the 8192 rows -/

/-- Consecutive stretches of n terms, m of them, are the first m·n terms. -/
theorem sum_stretches (f : ℕ → EReal) (m n : ℕ) :
    ∑ i ∈ Finset.range m, ∑ r ∈ Finset.range n, f (n * i + r) = ∑ k ∈ Finset.range (m * n), f k := by
  induction m with
  | zero => simp
  | succ m ih =>
    rw [Finset.sum_range_succ, ih, Nat.succ_mul, Finset.sum_range_add, Nat.mul_comm n m]

/-- If point n's gain is the sum of g over the point's 256 rows, the two halves' gains are the sum of g over all rows. -/
theorem regroup (g : Fin 8192 → EReal) (T : ℕ → EReal)
    (hT : ∀ (n : ℕ) (h : n < 32), T n = ∑ r : Fin 256, g ⟨256 * n + r.val, by omega⟩) :
    ∑ i ∈ Finset.range 16, T (16 * 0 + i) + ∑ i ∈ Finset.range 16, T (16 * 1 + i) = ∑ R : Fin 8192, g R := by
  let G : ℕ → EReal := fun n => if h : n < 8192 then g ⟨n, h⟩ else 0
  have hG : ∀ (n : ℕ) (h : n < 32), T n = ∑ r ∈ Finset.range 256, G (256 * n + r) := by
    intro n h
    rw [hT n h, Finset.sum_range]
    refine Finset.sum_congr rfl fun r _ => ?_
    show _ = if h' : 256 * n + r.val < 8192 then g ⟨256 * n + r.val, h'⟩ else 0
    rw [dif_pos (by omega)]
  have half : ∀ p : ℕ, p < 2 →
      ∑ i ∈ Finset.range 16, T (16 * p + i) = ∑ k ∈ Finset.range 4096, G (4096 * p + k) := by
    intro p hp
    rw [show (4096 : ℕ) = 16 * 256 from rfl, ← sum_stretches (fun k => G (16 * 256 * p + k)) 16 256]
    refine Finset.sum_congr rfl fun i hi => ?_
    have hi' := Finset.mem_range.mp hi
    rw [hG (16 * p + i) (by omega)]
    refine Finset.sum_congr rfl fun r _ => ?_
    exact congrArg G (by ring)
  rw [half 0 (by omega), half 1 (by omega)]
  have e : ∑ R : Fin 8192, g R = ∑ k ∈ Finset.range (4096 + 4096), G k := by
    rw [show (4096 + 4096 : ℕ) = 8192 from rfl, Finset.sum_range]
    refine Finset.sum_congr rfl fun R _ => ?_
    show _ = if h' : R.val < 8192 then g ⟨R.val, h'⟩ else 0
    rw [dif_pos R.isLt]
  rw [e, Finset.sum_range_add]
  simp only [Nat.mul_zero, Nat.mul_one, Nat.zero_add]

/-! ## The three pair sums -/

/-- The absolute row product of two whole arrays at row R: the term the pair sum adds over the rows. -/
def pairTerm (x y : (⟨2, ![8192, 2048]⟩ : Shape).Idx → EReal) (R : Fin 8192) : EReal :=
  Spec.absE (∑ d : Fin 2048, Spec.unitRow x R d * Spec.unitRow y R d)

/-- A block that is rows 256t … 256t + 255 of an array has that array's unit rows. -/
theorem unitB_eq (X : S256x2048.Idx → EReal) (x : (⟨2, ![8192, 2048]⟩ : Shape).Idx → EReal) (t : Fin 32)
    (hX : ∀ (r : Fin 256) (d : Fin 2048), X (ix2 r d) = x (ix2 (⟨256 * t.val + r.val, by omega⟩ : Fin 8192) d))
    (r : Fin 256) (d : Fin 2048) :
    unitB X r d = Spec.unitRow x ⟨256 * t.val + r.val, by omega⟩ d := by
  unfold unitB Spec.unitRow
  rw [hX r d]
  refine congrArg (fun s => Ideal.div _ (max (Ideal.sqrt s) Spec.eps)) ?_
  exact Finset.sum_congr rfl fun k _ => by rw [hX r k]

/-- So the sum over such blocks' rows of the absolute row products is the sum of the arrays' terms over those rows. -/
theorem rowsAbs_eq (X Y : S256x2048.Idx → EReal) (x y : (⟨2, ![8192, 2048]⟩ : Shape).Idx → EReal) (t : Fin 32)
    (hX : ∀ (r : Fin 256) (d : Fin 2048), X (ix2 r d) = x (ix2 (⟨256 * t.val + r.val, by omega⟩ : Fin 8192) d))
    (hY : ∀ (r : Fin 256) (d : Fin 2048), Y (ix2 r d) = y (ix2 (⟨256 * t.val + r.val, by omega⟩ : Fin 8192) d)) :
    rowsAbs X Y = ∑ r : Fin 256, pairTerm x y ⟨256 * t.val + r.val, by omega⟩ := by
  unfold rowsAbs dotB pairTerm
  refine Finset.sum_congr rfl fun r _ => congrArg Spec.absE (Finset.sum_congr rfl fun d _ => ?_)
  rw [unitB_eq X x t hX r d, unitB_eq Y y t hY r d]

/-- Lane L of the sum of the halves, read as a scalar, is the sum over all rows of g, whenever each point's gain at
    lane L is the sum of g over the point's rows. -/
theorem total (A B C : Fin 32 → Vec Ideal S256x2048 .f32) (O : Vec Ideal S2x1x128 .f32)
    (hO : ∀ (p : Fin 2) (lane : Fin 128),
      O (ix3 p (0 : Fin 1) lane) = Steps.acc1 A B C (16 * p.val + 15) (by omega) (ix3 (0 : Fin 1) (0 : Fin 1) lane))
    (L : ℕ) (hL : L < 128) (hs : S1x128.Slices ![0, L] S1x1) (i : S_.Idx) (g : Fin 8192 → EReal)
    (hg : ∀ (n : ℕ) (h : n < 32), gain A B C ⟨L, hL⟩ n = ∑ r : Fin 256, g ⟨256 * n + r.val, by omega⟩) :
    shapeCast S_ (extractStridedSlice S1x1 ![0, L]
        (Host.reduceAdd (F := Ideal) O (constant S_ .f32 0x00000000#32) reducesTo_S2x1x128_S1x128_d0 h_S_) hs)
      shapeCasts_S1x1_S_ i = ∑ R : Fin 8192, g R := by
  refine (laneRead _ L hL hs i).trans ?_
  refine (halves_apply O ⟨L, hL⟩).trans ?_
  rw [hO 0 ⟨L, hL⟩, hO 1 ⟨L, hL⟩]
  refine (congrArg₂ (· + ·) (acc1_half A B C (0 : Fin 2).val 15 _ (by omega) ⟨L, hL⟩)
    (acc1_half A B C (1 : Fin 2).val 15 _ (by omega) ⟨L, hL⟩)).trans ?_
  exact regroup g (gain A B C ⟨L, hL⟩) hg

variable (A B C : Fin 32 → Vec Ideal S256x2048 .f32)
variable (a b c : (⟨2, ![8192, 2048]⟩ : Shape).Idx → EReal)

/-- Lane 0 of the sum of the halves is the pair sum of (a, b). -/
theorem lane0
    (hA : ∀ (t : Fin 32) (r : Fin 256) (d : Fin 2048), A t (ix2 r d) = a (ix2 (⟨256 * t.val + r.val, by omega⟩ : Fin 8192) d))
    (hB : ∀ (t : Fin 32) (r : Fin 256) (d : Fin 2048), B t (ix2 r d) = b (ix2 (⟨256 * t.val + r.val, by omega⟩ : Fin 8192) d))
    (hC : ∀ (t : Fin 32) (r : Fin 256) (d : Fin 2048), C t (ix2 r d) = c (ix2 (⟨256 * t.val + r.val, by omega⟩ : Fin 8192) d))
    (O : Vec Ideal S2x1x128 .f32)
    (hO : ∀ (p : Fin 2) (lane : Fin 128),
      O (ix3 p (0 : Fin 1) lane) = Steps.acc1 A B C (16 * p.val + 15) (by omega) (ix3 (0 : Fin 1) (0 : Fin 1) lane))
    (i : S_.Idx) :
    shapeCast S_ (extractStridedSlice S1x1 ![0, 0]
        (Host.reduceAdd (F := Ideal) O (constant S_ .f32 0x00000000#32) reducesTo_S2x1x128_S1x128_d0 h_S_) slices_S1x128_S1x1_0_0)
      shapeCasts_S1x1_S_ i = Spec.pairSum a b :=
  total A B C O hO 0 (by omega) slices_S1x128_S1x1_0_0 i (pairTerm a b) fun n h => by
    rw [gain, dif_pos h]
    exact (laneSel_zero _ _ _).trans (rowsAbs_eq _ _ a b ⟨n, h⟩ (hA ⟨n, h⟩) (hB ⟨n, h⟩))

/-- Lane 1 is the pair sum of (a, c). -/
theorem lane1
    (hA : ∀ (t : Fin 32) (r : Fin 256) (d : Fin 2048), A t (ix2 r d) = a (ix2 (⟨256 * t.val + r.val, by omega⟩ : Fin 8192) d))
    (hB : ∀ (t : Fin 32) (r : Fin 256) (d : Fin 2048), B t (ix2 r d) = b (ix2 (⟨256 * t.val + r.val, by omega⟩ : Fin 8192) d))
    (hC : ∀ (t : Fin 32) (r : Fin 256) (d : Fin 2048), C t (ix2 r d) = c (ix2 (⟨256 * t.val + r.val, by omega⟩ : Fin 8192) d))
    (O : Vec Ideal S2x1x128 .f32)
    (hO : ∀ (p : Fin 2) (lane : Fin 128),
      O (ix3 p (0 : Fin 1) lane) = Steps.acc1 A B C (16 * p.val + 15) (by omega) (ix3 (0 : Fin 1) (0 : Fin 1) lane))
    (i : S_.Idx) :
    shapeCast S_ (extractStridedSlice S1x1 ![0, 1]
        (Host.reduceAdd (F := Ideal) O (constant S_ .f32 0x00000000#32) reducesTo_S2x1x128_S1x128_d0 h_S_) slices_S1x128_S1x1_0_1)
      shapeCasts_S1x1_S_ i = Spec.pairSum a c :=
  total A B C O hO 1 (by omega) slices_S1x128_S1x1_0_1 i (pairTerm a c) fun n h => by
    rw [gain, dif_pos h]
    exact (laneSel_one _ _ _).trans (rowsAbs_eq _ _ a c ⟨n, h⟩ (hA ⟨n, h⟩) (hC ⟨n, h⟩))

/-- Lane 2 is the pair sum of (b, c). -/
theorem lane2
    (hA : ∀ (t : Fin 32) (r : Fin 256) (d : Fin 2048), A t (ix2 r d) = a (ix2 (⟨256 * t.val + r.val, by omega⟩ : Fin 8192) d))
    (hB : ∀ (t : Fin 32) (r : Fin 256) (d : Fin 2048), B t (ix2 r d) = b (ix2 (⟨256 * t.val + r.val, by omega⟩ : Fin 8192) d))
    (hC : ∀ (t : Fin 32) (r : Fin 256) (d : Fin 2048), C t (ix2 r d) = c (ix2 (⟨256 * t.val + r.val, by omega⟩ : Fin 8192) d))
    (O : Vec Ideal S2x1x128 .f32)
    (hO : ∀ (p : Fin 2) (lane : Fin 128),
      O (ix3 p (0 : Fin 1) lane) = Steps.acc1 A B C (16 * p.val + 15) (by omega) (ix3 (0 : Fin 1) (0 : Fin 1) lane))
    (i : S_.Idx) :
    shapeCast S_ (extractStridedSlice S1x1 ![0, 2]
        (Host.reduceAdd (F := Ideal) O (constant S_ .f32 0x00000000#32) reducesTo_S2x1x128_S1x128_d0 h_S_) slices_S1x128_S1x1_0_2)
      shapeCasts_S1x1_S_ i = Spec.pairSum b c :=
  total A B C O hO 2 (by omega) slices_S1x128_S1x1_0_2 i (pairTerm b c) fun n h => by
    rw [gain, dif_pos h]
    exact (laneSel_two _ _ _).trans (rowsAbs_eq _ _ b c ⟨n, h⟩ (hB ⟨n, h⟩) (hC ⟨n, h⟩))

end Cert.KernelIdeal.PairSums

end
-- ==== Proof.ClassBlocks.lean ====
/-
  The third kernel's two result arrays, of shape 2 × 1 × 1000, after the whole grid has run.  Half p of a result
  array is written once, after the last point 4p + 3 of that half, with the output block that point leaves: the
  running block of `Steps.acc2` over the points' input blocks.  Point t's input blocks are rows
  1024·t … 1024·t + 1023 of the logits and of the modalities.
-/
import proofs.«423768_j88124138979690_2_alg».proof.Proof.Gen.KernelIdeal.Frame
import proofs.«423768_j88124138979690_2_alg».proof.Proof.Steps
import Idealize.ShloMosaic.Lib.Pipeline.Value
import Idealize.ShloMosaic.Lib.ValueIdx

noncomputable section

namespace Cert.KernelIdeal.ClassBlocks

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hN : cfg2.N = 8 := N_2

/-- Point `t`'s block of the logits and of the modalities, as the region finds the arrays. -/
def blkX (c : Dev nD) (t : Fin 8) : Vec F S1024x1000 .f32 := iblk2 V c 0 (Fin.cast hN.symm t)
def blkM (c : Dev nD) (t : Fin 8) : Vec F S1024 .i32 := iblk2 V c 1 (Fin.cast hN.symm t)

/-! ## A point's input blocks are row ranges of the arrays -/

/-- At point `t` the logits' block index is (t, 0) and the modalities' is (t): the inputs advance one block of
    1024 rows per point, through both halves. -/
theorem idx_in : ∀ t : Fin cfg2.N, win2_0.index t (0 : Fin 2) = t.val ∧ win2_0.index t (1 : Fin 2) = 0
    ∧ win2_1.index t (0 : Fin 1) = t.val :=
  (by decide +kernel : ∀ t : Fin grid2.N, _)

/-- Row r of point t's block is row 1024·t + r of the array. -/
theorem blkX_apply (c : Dev nD) (t : Fin 8) (r : Fin 1024) (k : Fin 1000) :
    blkX V c t (ix2 r k) = V c main_arg4 (ix2 (⟨1024 * t.val + r.val, by omega⟩ : Fin 8192) k) := by
  obtain ⟨e0, e1, -⟩ := idx_in (Fin.cast hN.symm t)
  unfold blkX iblk2
  rw [View.read_apply]
  show V c main_arg4 _ = V c main_arg4 _
  congr 1
  funext a
  apply Fin.ext
  -- a coordinate of the block inside the array is (block index) × (block size) + the coordinate inside the block
  match a with
  | ⟨0, _⟩ =>
    show win2_0.index (Fin.cast hN.symm t) (0 : Fin 2) * 1024 + 1 * r.val = 1024 * t.val + r.val
    rw [e0]; show t.val * 1024 + 1 * r.val = _; omega
  | ⟨1, _⟩ =>
    show win2_0.index (Fin.cast hN.symm t) (1 : Fin 2) * 1000 + 1 * k.val = k.val
    rw [e1]; omega
theorem blkM_apply (c : Dev nD) (t : Fin 8) (r : Fin 1024) :
    blkM V c t (ix1 r) = V c main_arg6 (ix1 (⟨1024 * t.val + r.val, by omega⟩ : Fin 8192)) := by
  obtain ⟨-, -, e0⟩ := idx_in (Fin.cast hN.symm t)
  unfold blkM iblk2
  rw [View.read_apply]
  show V c main_arg6 _ = V c main_arg6 _
  congr 1
  funext a
  apply Fin.ext
  match a with
  | ⟨0, _⟩ =>
    show win2_1.index (Fin.cast hN.symm t) (0 : Fin 1) * 1024 + 1 * r.val = 1024 * t.val + r.val
    rw [e0]; show t.val * 1024 + 1 * r.val = _; omega

/-! ## What one point leaves in each output block

The body loads its whole input blocks and stores each whole output block: every load and store goes through the
rectangle at zero offsets of the block's own sizes.  At the first point of a half it first stores the zero block and
reads it back, so the update starts from zero; at any other point the update starts from what the block held. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Not the first point of a half: the first output block, holding `xo2`, is left at its update by the point's
    input blocks — the one covering store's payload, its loads reading the whole buffers. -/
theorem out_B_2 (c : Dev nD) (i : grid2.Coords)
    (a2 : Memref sig .tc .vmem S1024x1000 .f32) (h2 : a2.IsWhole) (a3 : Memref sig .tc .vmem S1024 .i32) (h3 : a3.IsWhole)
    (a4 : Memref sig .tc .vmem S1x1x1000 .f32) (h4 : a4.IsWhole) (a5 : Memref sig .tc .vmem S1x1x1000 .f32) (h5 : a5.IsWhole)
    (hc : ¬cond2_0 i) (x0 : Vec F S1024x1000 .f32) (x1 : Vec F S1024 .i32) (xo2 xo3 : Vec F S1x1x1000 .f32) :
    out2_B_2 c i a2 h2 a3 h3 a4 h4 a5 h5 hc x0 x1 xo2 xo3 = Steps.step2_a x0 x1 xo2 := by
  unfold out2_B_2
  rw [View.read_writes_eq_canon _ _ _ (cover2_B_2 c i a2 h2 a3 h3 a4 h4 a5 h5 hc x0 x1 xo2 xo3)]
  unfold kernelRun2_B
  dsimp only
  sl_unfold_words
  rw [View.canon_unit_zero hz3]
  unfold Steps.step2_a
  simp only [View.readAt_eq_ld, h2.read_unread, h3.read_unread, h4.read_unread, View.ld_unit_zero (S := S1024x1000) hz2,
    View.ld_unit_zero (S := S1024) hz1, View.ld_unit_zero (S := S1x1x1000) hz3]

/-- Not the first point of a half: the second output block, holding `xo3`, is left at its update. -/
theorem out_B_3 (c : Dev nD) (i : grid2.Coords)
    (a2 : Memref sig .tc .vmem S1024x1000 .f32) (h2 : a2.IsWhole) (a3 : Memref sig .tc .vmem S1024 .i32) (h3 : a3.IsWhole)
    (a4 : Memref sig .tc .vmem S1x1x1000 .f32) (h4 : a4.IsWhole) (a5 : Memref sig .tc .vmem S1x1x1000 .f32) (h5 : a5.IsWhole)
    (hc : ¬cond2_0 i) (x0 : Vec F S1024x1000 .f32) (x1 : Vec F S1024 .i32) (xo2 xo3 : Vec F S1x1x1000 .f32) :
    out2_B_3 c i a2 h2 a3 h3 a4 h4 a5 h5 hc x0 x1 xo2 xo3 = Steps.step2_b x0 x1 xo3 := by
  unfold out2_B_3
  rw [View.read_writes_eq_canon _ _ _ (cover2_B_3 c i a2 h2 a3 h3 a4 h4 a5 h5 hc x0 x1 xo2 xo3)]
  unfold kernelRun2_B
  dsimp only
  sl_unfold_words
  rw [View.canon_unit_zero hz3]
  unfold Steps.step2_b
  simp only [View.readAt_eq_ld, h2.read_unread, h3.read_unread, h5.read_unread, View.ld_unit_zero (S := S1024x1000) hz2,
    View.ld_unit_zero (S := S1024) hz1, View.ld_unit_zero (S := S1x1x1000) hz3]

/-- The first point of a half: the first output block is zeroed, read back, and left at the update of the zero
    block; the later of the two stores covers the block, so it alone decides the contents. -/
theorem out_A_2 (c : Dev nD) (i : grid2.Coords)
    (a2 : Memref sig .tc .vmem S1024x1000 .f32) (h2 : a2.IsWhole) (a3 : Memref sig .tc .vmem S1024 .i32) (h3 : a3.IsWhole)
    (a4 : Memref sig .tc .vmem S1x1x1000 .f32) (h4 : a4.IsWhole) (a5 : Memref sig .tc .vmem S1x1x1000 .f32) (h5 : a5.IsWhole)
    (hc : cond2_0 i) (x0 : Vec F S1024x1000 .f32) (x1 : Vec F S1024 .i32) :
    out2_A_2 c i a2 h2 a3 h3 a4 h4 a5 h5 hc x0 x1 = Steps.step2_a x0 x1 k2_pay2 := by
  unfold out2_A_2
  rw [View.read_writes_eq_canon _ _ _ (cover2_A_2 c i a2 h2 a3 h3 a4 h4 a5 h5 hc x0 x1)]
  unfold kernelRun2_A
  dsimp only
  sl_unfold_words
  rw [View.canon_cons_unit_zero (S := S1x1x1000) hz3, View.readCov_unit_zero (S := S1x1x1000) _ hz3]
  unfold Steps.step2_a
  simp only [View.readAt_eq_ld, h2.read_unread, h3.read_unread, View.ld_unit_zero (S := S1024x1000) hz2,
    View.ld_unit_zero (S := S1024) hz1]

/-- The first point of a half: the second output block likewise. -/
theorem out_A_3 (c : Dev nD) (i : grid2.Coords)
    (a2 : Memref sig .tc .vmem S1024x1000 .f32) (h2 : a2.IsWhole) (a3 : Memref sig .tc .vmem S1024 .i32) (h3 : a3.IsWhole)
    (a4 : Memref sig .tc .vmem S1x1x1000 .f32) (h4 : a4.IsWhole) (a5 : Memref sig .tc .vmem S1x1x1000 .f32) (h5 : a5.IsWhole)
    (hc : cond2_0 i) (x0 : Vec F S1024x1000 .f32) (x1 : Vec F S1024 .i32) :
    out2_A_3 c i a2 h2 a3 h3 a4 h4 a5 h5 hc x0 x1 = Steps.step2_b x0 x1 k2_pay3 := by
  unfold out2_A_3
  rw [View.read_writes_eq_canon _ _ _ (cover2_A_3 c i a2 h2 a3 h3 a4 h4 a5 h5 hc x0 x1)]
  unfold kernelRun2_A
  dsimp only
  sl_unfold_words
  rw [View.canon_cons_unit_zero (S := S1x1x1000) hz3, View.readCov_unit_zero (S := S1x1x1000) _ hz3]
  unfold Steps.step2_b
  simp only [View.readAt_eq_ld, h2.read_unread, h3.read_unread, View.ld_unit_zero (S := S1024x1000) hz2,
    View.ld_unit_zero (S := S1024) hz1]

/-! ## The output blocks after each point: the recursion over the points -/

/-- By induction on the point: a point whose position inside its half is zero starts both blocks from zero, any
    other updates what the point before left. -/
theorem outsAt_eq' (c : Dev nD) : ∀ (n : ℕ) (h : n < cfg2.N) (h' : n < 8),
    outsAt2 V c n h = Steps.acc2 (blkX V c) (blkM V c) n h'
  | 0, h, h' => by
    rw [outsAt2_A V c ⟨0, h⟩ rfl,
      out_A_2 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
        (ms2_3 ⟨0, h⟩) (hs2_3 ⟨0, h⟩) ((hcond2_0 ⟨0, h⟩).mpr rfl) (iblk2 V c 0 ⟨0, h⟩) (iblk2 V c 1 ⟨0, h⟩),
      out_A_3 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
        (ms2_3 ⟨0, h⟩) (hs2_3 ⟨0, h⟩) ((hcond2_0 ⟨0, h⟩).mpr rfl) (iblk2 V c 0 ⟨0, h⟩) (iblk2 V c 1 ⟨0, h⟩)]
    rfl
  | n + 1, h, h' => by
    by_cases h0 : (n + 1) % 4 = 0
    · rw [outsAt2_A V c ⟨n + 1, h⟩ h0,
        out_A_2 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
          (ms2_3 ⟨n + 1, h⟩) (hs2_3 ⟨n + 1, h⟩) ((hcond2_0 ⟨n + 1, h⟩).mpr h0) (iblk2 V c 0 ⟨n + 1, h⟩) (iblk2 V c 1 ⟨n + 1, h⟩),
        out_A_3 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
          (ms2_3 ⟨n + 1, h⟩) (hs2_3 ⟨n + 1, h⟩) ((hcond2_0 ⟨n + 1, h⟩).mpr h0) (iblk2 V c 0 ⟨n + 1, h⟩) (iblk2 V c 1 ⟨n + 1, h⟩)]
      show _ = (if (n + 1) % 4 = 0 then _ else _)
      rw [if_pos h0]
      rfl
    · have ih := outsAt_eq' c n (Nat.lt_of_succ_lt h) (Nat.lt_of_succ_lt h')
      rw [outsAt2_B V c ⟨n + 1, h⟩ h0]
      dsimp only
      rw [out_B_2 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
          (ms2_3 ⟨n + 1, h⟩) (hs2_3 ⟨n + 1, h⟩) _ (iblk2 V c 0 ⟨n + 1, h⟩) (iblk2 V c 1 ⟨n + 1, h⟩) _ _,
        out_B_3 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
          (ms2_3 ⟨n + 1, h⟩) (hs2_3 ⟨n + 1, h⟩) _ (iblk2 V c 0 ⟨n + 1, h⟩) (iblk2 V c 1 ⟨n + 1, h⟩) _ _]
      show (Steps.step2_a _ _ (outsAt2 V c n (Nat.lt_of_succ_lt h)).1, Steps.step2_b _ _ (outsAt2 V c n (Nat.lt_of_succ_lt h)).2)
        = (if (n + 1) % 4 = 0 then _ else _)
      rw [if_neg h0, ih]
      rfl

/-- What the two output blocks hold after point `n` is the running pair of `Steps.acc2`. -/
theorem outsAt_eq (c : Dev nD) (n : ℕ) (h : n < cfg2.N) :
    outsAt2 V c n h = Steps.acc2 (blkX V c) (blkM V c) n (hN ▸ h) :=
  outsAt_eq' V c n h _

/-! ## The result arrays after the run

Both result arrays have two blocks of shape 1 × 1 × 1000, block p at index (p, 0, 0).  The output block index at
point t is (t / 4, 0, 0) and the block is written back at the points t ≡ 3 (mod 4): half p is written once, at
its last point 4p + 3, with what that point leaves.  The two written blocks tile the array. -/

/-- The output windows' block index at point `t`: (t / 4, 0, 0). -/
theorem idx_out : ∀ t : Fin cfg2.N, win2_2.index t (0 : Fin 3) = t.val / 4 ∧ win2_2.index t (1 : Fin 3) = 0
    ∧ win2_2.index t (2 : Fin 3) = 0 ∧ win2_3.index t (0 : Fin 3) = t.val / 4 ∧ win2_3.index t (1 : Fin 3) = 0
    ∧ win2_3.index t (2 : Fin 3) = 0 :=
  (by decide +kernel : ∀ t : Fin grid2.N, _)

/-- The first result array as one function of its index: entry (p, ·, k) is entry k of the first running block
    after point 4p + 3. -/
def resA (c : Dev nD) : Vec F S2x1x1000 .f32 := fun i =>
  (Steps.acc2 (blkX V c) (blkM V c) (4 * (i 0).val + 3) (by have : (i 0).val < 2 := (i 0).isLt; omega)).1
    (ix3 (0 : Fin 1) (0 : Fin 1) (⟨(i 2).val, (i 2).isLt⟩ : Fin 1000))
/-- The second result array likewise, from the second running block. -/
def resB (c : Dev nD) : Vec F S2x1x1000 .f32 := fun i =>
  (Steps.acc2 (blkX V c) (blkM V c) (4 * (i 0).val + 3) (by have : (i 0).val < 2 := (i 0).isLt; omega)).2
    (ix3 (0 : Fin 1) (0 : Fin 1) (⟨(i 2).val, (i 2).isLt⟩ : Fin 1000))

/-- An entry of the running block after point `n` is the array function's entry at any index whose half has `n`
    as its last point and whose lane is the entry's. -/
theorem resA_of (c : Dev nD) (i : S2x1x1000.Idx) (n : ℕ) (hn : n < 8) (y : S1x1x1000.Idx)
    (en : n = 4 * (i 0).val + 3) (y0 : (y 0).val = 0) (y1 : (y 1).val = 0) (y2 : (y 2).val = (i 2).val) :
    (Steps.acc2 (blkX V c) (blkM V c) n hn).1 y = resA V c i := by
  subst en
  unfold resA
  have e : y = ix3 (0 : Fin 1) (0 : Fin 1) (⟨(i 2).val, (i 2).isLt⟩ : Fin 1000) := by
    funext a
    apply Fin.ext
    match a with
    | ⟨0, _⟩ => exact y0
    | ⟨1, _⟩ => exact y1
    | ⟨2, _⟩ => exact y2
  rw [e]
theorem resB_of (c : Dev nD) (i : S2x1x1000.Idx) (n : ℕ) (hn : n < 8) (y : S1x1x1000.Idx)
    (en : n = 4 * (i 0).val + 3) (y0 : (y 0).val = 0) (y1 : (y 1).val = 0) (y2 : (y 2).val = (i 2).val) :
    (Steps.acc2 (blkX V c) (blkM V c) n hn).2 y = resB V c i := by
  subst en
  unfold resB
  have e : y = ix3 (0 : Fin 1) (0 : Fin 1) (⟨(i 2).val, (i 2).isLt⟩ : Fin 1000) := by
    funext a
    apply Fin.ext
    match a with
    | ⟨0, _⟩ => exact y0
    | ⟨1, _⟩ => exact y1
    | ⟨2, _⟩ => exact y2
  rw [e]

/-- What a point t ≡ 3 (mod 4) writes back to the first result array is block (t / 4, 0, 0) of `resA`: the point
    is the last of half t / 4, so 4 · (t / 4) + 3 = t. -/
theorem flushedA_eq (c : Dev nD) (t : Fin cfg2.N) (hf : (cfg2.win 2).flush t = true) :
    (dat2 V c).flushed 2 t = ((cfg2.win 2).blk t).view.read (Elt F) (resA V c) := by
  have h3 : t.val % 4 = 3 := (flush2_2 t).mp hf
  have ht : t.val < 8 := lt_of_lt_of_eq t.isLt hN
  obtain ⟨e0, e1, e2, -⟩ := idx_out t
  show (cfg2.win 2).cut (grid2.coords t) ((dat2 V c).after 2 t) = _
  rw [after2_2, outsAt_eq' V c t.val t.isLt ht]
  funext j
  rw [View.read_apply]
  have hj0 : (j 0).val < 1 := (j 0).isLt
  have hj1 : (j 1).val < 1 := (j 1).isLt
  refine resA_of V c (((cfg2.win 2).blk t).view.emb j) t.val ht ((cfg2.win 2).xinj (grid2.coords t) j) ?_ ?_ ?_ ?_
  · show t.val = 4 * (win2_2.index t (0 : Fin 3) * 1 + 1 * (j 0).val) + 3
    rw [e0]; omega
  · show (j 0).val = 0
    omega
  · show (j 1).val = 0
    omega
  · show (j 2).val = win2_2.index t (2 : Fin 3) * 1000 + 1 * (j 2).val
    rw [e2]; omega
theorem flushedB_eq (c : Dev nD) (t : Fin cfg2.N) (hf : (cfg2.win 3).flush t = true) :
    (dat2 V c).flushed 3 t = ((cfg2.win 3).blk t).view.read (Elt F) (resB V c) := by
  have h3 : t.val % 4 = 3 := (flush2_3 t).mp hf
  have ht : t.val < 8 := lt_of_lt_of_eq t.isLt hN
  obtain ⟨-, -, -, e0, e1, e2⟩ := idx_out t
  show (cfg2.win 3).cut (grid2.coords t) ((dat2 V c).after 3 t) = _
  rw [after2_3, outsAt_eq' V c t.val t.isLt ht]
  funext j
  rw [View.read_apply]
  have hj0 : (j 0).val < 1 := (j 0).isLt
  have hj1 : (j 1).val < 1 := (j 1).isLt
  refine resB_of V c (((cfg2.win 3).blk t).view.emb j) t.val ht ((cfg2.win 3).xinj (grid2.coords t) j) ?_ ?_ ?_ ?_
  · show t.val = 4 * (win2_3.index t (0 : Fin 3) * 1 + 1 * (j 0).val) + 3
    rw [e0]; omega
  · show (j 0).val = 0
    omega
  · show (j 1).val = 0
    omega
  · show (j 2).val = win2_3.index t (2 : Fin 3) * 1000 + 1 * (j 2).val
    rw [e2]; omega

/-- The last point of half `p`. -/
def lastOf (p : Fin 2) : Fin cfg2.N := ⟨4 * p.val + 3, by rw [hN]; omega⟩

/-- Every index (p, 0, k) of the first result array lies in the block written back at the last point of half p. -/
theorem coverA (i : S2x1x1000.Idx) :
    ∃ t : Fin cfg2.N, (cfg2.win 2).flush t = true ∧ i ∈ ((cfg2.win 2).blk t).view.set := by
  have hi0 : (i 0).val < 2 := (i 0).isLt
  have hi1 : (i 1).val < 1 := (i 1).isLt
  have hi2 : (i 2).val < 1000 := (i 2).isLt
  obtain ⟨e0, e1, e2, -⟩ := idx_out (lastOf (i 0))
  have e0' : win2_2.index (lastOf (i 0)) (0 : Fin 3) = (4 * (i 0).val + 3) / 4 := e0
  refine ⟨lastOf (i 0), (flush2_2 _).mpr (by show (4 * (i 0).val + 3) % 4 = 3; omega), ?_⟩
  show i ∈ ((View.whole main_v5_0).slice (win2_2.rect (lastOf (i 0)))).set
  rw [View.set_slice_whole, Rect.mem_set_unit]
  intro a
  match a with
  | ⟨0, _⟩ =>
    show win2_2.index (lastOf (i 0)) (0 : Fin 3) * 1 ≤ (i 0).val ∧ (i 0).val < win2_2.index (lastOf (i 0)) (0 : Fin 3) * 1 + 1
    rw [e0']; omega
  | ⟨1, _⟩ =>
    show win2_2.index (lastOf (i 0)) (1 : Fin 3) * 1 ≤ (i 1).val ∧ (i 1).val < win2_2.index (lastOf (i 0)) (1 : Fin 3) * 1 + 1
    rw [e1]; omega
  | ⟨2, _⟩ =>
    show win2_2.index (lastOf (i 0)) (2 : Fin 3) * 1000 ≤ (i 2).val ∧ (i 2).val < win2_2.index (lastOf (i 0)) (2 : Fin 3) * 1000 + 1000
    rw [e2]; omega
theorem coverB (i : S2x1x1000.Idx) :
    ∃ t : Fin cfg2.N, (cfg2.win 3).flush t = true ∧ i ∈ ((cfg2.win 3).blk t).view.set := by
  have hi0 : (i 0).val < 2 := (i 0).isLt
  have hi1 : (i 1).val < 1 := (i 1).isLt
  have hi2 : (i 2).val < 1000 := (i 2).isLt
  obtain ⟨-, -, -, e0, e1, e2⟩ := idx_out (lastOf (i 0))
  have e0' : win2_3.index (lastOf (i 0)) (0 : Fin 3) = (4 * (i 0).val + 3) / 4 := e0
  refine ⟨lastOf (i 0), (flush2_3 _).mpr (by show (4 * (i 0).val + 3) % 4 = 3; omega), ?_⟩
  show i ∈ ((View.whole main_v5_1).slice (win2_3.rect (lastOf (i 0)))).set
  rw [View.set_slice_whole, Rect.mem_set_unit]
  intro a
  match a with
  | ⟨0, _⟩ =>
    show win2_3.index (lastOf (i 0)) (0 : Fin 3) * 1 ≤ (i 0).val ∧ (i 0).val < win2_3.index (lastOf (i 0)) (0 : Fin 3) * 1 + 1
    rw [e0']; omega
  | ⟨1, _⟩ =>
    show win2_3.index (lastOf (i 0)) (1 : Fin 3) * 1 ≤ (i 1).val ∧ (i 1).val < win2_3.index (lastOf (i 0)) (1 : Fin 3) * 1 + 1
    rw [e1]; omega
  | ⟨2, _⟩ =>
    show win2_3.index (lastOf (i 0)) (2 : Fin 3) * 1000 ≤ (i 2).val ∧ (i 2).val < win2_3.index (lastOf (i 0)) (2 : Fin 3) * 1000 + 1000
    rw [e2]; omega

/-- Half `p` of the first result array is the first running block after point 4p + 3. -/
theorem final_a (c : Dev nD) (p : Fin 2) (k : Fin 1000) :
    ((dat2 V c).arrAt 2 cfg2.N : Vec F S2x1x1000 .f32) (ix3 p (0 : Fin 1) k)
      = (Steps.acc2 (blkX V c) (blkM V c) (4 * p.val + 3) (by omega)).1 (ix3 (0 : Fin 1) (0 : Fin 1) k) :=
  congrFun ((dat2 V c).arrAt_eq_of_cover 2 (resA V c) (flushedA_eq V c) coverA) (ix3 p (0 : Fin 1) k)
/-- Half `p` of the second result array is the second running block after point 4p + 3. -/
theorem final_b (c : Dev nD) (p : Fin 2) (k : Fin 1000) :
    ((dat2 V c).arrAt 3 cfg2.N : Vec F S2x1x1000 .f32) (ix3 p (0 : Fin 1) k)
      = (Steps.acc2 (blkX V c) (blkM V c) (4 * p.val + 3) (by omega)).2 (ix3 (0 : Fin 1) (0 : Fin 1) k) :=
  congrFun ((dat2 V c).arrAt_eq_of_cover 3 (resB V c) (flushedB_eq V c) coverB) (ix3 p (0 : Fin 1) k)

end Cert.KernelIdeal.ClassBlocks

end
-- ==== Proof.ClassSums.lean ====
/-
  Summing the two halves of the third kernel's result arrays gives the class sums.  After the 4 points of a half
  the running block holds, at class k, the sum over the half's 4096 rows r of softmax(x)[r, k]·[modality r = v]:
  each point adds the column sums of its 1024 masked softmax rows, and the first point of a half starts from zero.
  The two halves together are all 8192 rows.

  The order of the argument.  (1) One block: the maximum over the columns started from −∞ is the supremum of the
  row, so the block's softmax entry (r, k) is e^(x[r,k] − M_r) / Σ_j e^(x[r,j] − M_r); the converted bit
  "modality r is v" is the indicator; one point therefore adds Σ_r softmax[r, k]·[modality r = v] over its 1024 rows
  to entry k of the running block, and the block a half starts from is zero.  (2) By induction on the point, the
  running block after point n holds the terms of the points of n's half up to n; after the half's last point, all
  four.  (3) The host's sum over the half axis adds the two halves' entries.  (4) The blocks are consecutive rows
  of the arrays, row R = 1024 t + r, so the 8 points' terms are the class sum's 8192 terms grouped by point.
  Only that + and · on the extended reals are commutative and associative with 0 + y = y is used: no entry needs
  to be finite.
-/
import proofs.«423768_j88124138979690_2_alg».proof.Proof.Steps
import proofs.«423768_j88124138979690_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.ClassSums

open Idealize.ShloMosaic Idealize.ShloMosaic.ValueIdx
open Cert.KernelIdeal Cert.KernelIdeal.Gen
open scoped BigOperators

/-! ## Layout: a vector as a column, a column spread over the columns -/

section Layout
variable {α : Type}

/-- A vector of length a viewed as a column [a, 1] reads, at (r, u), the vector's entry r. -/
theorem col_apply {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column [a, 1] spread along its unit axis to [a, b] reads, at (r, k), the column's entry r. -/
theorem spread_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Both together, at the block's extents: a per-row quantity spread over the 1000 columns. -/
theorem perRow_apply (v : S1024.Idx → α) (r : Fin 1024) (k : Fin 1000) :
    broadcastTo S1024x1000 (shapeCast S1024x1 v shapeCasts_S1024_S1024x1) broadcasts_S1024x1_S1024x1000 (ix2 r k)
      = v (ix1 r) :=
  (spread_apply _ _ r k).trans (col_apply v _ r 0)

end Layout

/-! ## The reductions of a block read at an index -/

/-- The maximum over the columns, started from −∞, is the supremum of the row. -/
theorem rowmax_apply (xb : Vec Ideal S1024x1000 .f32) (r : Fin 1024) :
    multiReduction (F := Ideal) .maximumf [1] S1024 xb 0xFF800000#32 reduces_S1024x1000_S1024 (.inl rfl) rfl (ix1 r)
      = Finset.univ.sup fun k : Fin 1000 => xb (ix2 r k) := by
  refine (Ideal.multiReduction_maximumf_single xb _ reduces_S1024x1000_S1024 _ _ (ix1 r)).trans ?_
  have hb : FloatOps.ofBits (F := Ideal) .f32 0xFF800000#32 = (⊥ : EReal) := by
    show Ideal.ofBits .f32 0xFF800000#32 = ⊥
    simp [Ideal.ofBits, Ideal.ieee]
  have hf : (xb ∘ reduces_S1024x1000_S1024.lift (ix1 r)) = fun k : Fin 1000 => xb (ix2 r k) :=
    funext fun k => congrArg xb (funext fun a => Fin.ext (match a with | ⟨0, _⟩ => rfl | ⟨1, _⟩ => rfl))
  rw [hb, hf]
  rfl

/-- The sum over the columns is the sum of the row. -/
theorem rowsum_apply (v : FVec Ideal S1024x1000 .f32) (r : Fin 1024) :
    multiReduction (F := Ideal) .add [1] S1024 v 0x00000000#32 reduces_S1024x1000_S1024 (.inl rfl) rfl (ix1 r)
      = ∑ k : Fin 1000, v (ix2 r k) := by
  refine (Ideal.multiReduction_add_single v _ reduces_S1024x1000_S1024 _ _ (ix1 r)).trans ?_
  exact Finset.sum_congr rfl fun k _ =>
    congrArg v (funext fun a => Fin.ext (match a with | ⟨0, _⟩ => rfl | ⟨1, _⟩ => rfl))

/-- The sum over the rows is the sum of the column. -/
theorem colsum_apply (v : FVec Ideal S1024x1000 .f32) (k : Fin 1000) :
    multiReduction (F := Ideal) .add [0] S1000 v 0x00000000#32 reduces_S1024x1000_S1000 (.inl rfl) rfl (ix1 k)
      = ∑ r : Fin 1024, v (ix2 r k) := by
  refine (Ideal.multiReduction_add_single v _ reduces_S1024x1000_S1000 _ _ (ix1 k)).trans ?_
  exact Finset.sum_congr rfl fun r _ =>
    congrArg v (funext fun a => Fin.ext (match a with | ⟨0, _⟩ => rfl | ⟨1, _⟩ => rfl))

/-- The bit "the word is v", widened and converted, is the indicator: 1 where the modality is v, else 0. -/
theorem mask_apply (mb : Vec Ideal S1024 .i32) (v : BitVec 32) (r : Fin 1024) :
    (sitofp .f32 (extui 32 (cmpi .eq mb (broadcast S1024 v)) natLt_1_32) : FVec Ideal S1024 .f32) (ix1 r)
      = Spec.ind (mb (ix1 r)) v := by
  show ((((IntOp.cmpi .eq (mb (ix1 r)) v).setWidth 32).toInt : ℝ) : EReal) = _
  unfold Spec.ind IntOp.cmpi
  by_cases h : mb (ix1 r) = v
  · simp [h]
  · have hb : (mb (ix1 r) == v) = false := beq_eq_false_iff_ne.mpr h
    simp [h, hb]

/-! ## One block's softmax and one point's term -/

/-- The greatest entry of row r of a block. -/
def blockMax (xb : Vec Ideal S1024x1000 .f32) (r : Fin 1024) : EReal :=
  Finset.univ.sup fun k : Fin 1000 => xb (ix2 r k)

/-- softmax of row r of a block at column k. -/
def blockSoft (xb : Vec Ideal S1024x1000 .f32) (r : Fin 1024) (k : Fin 1000) : EReal :=
  Ideal.div (Ideal.exp (xb (ix2 r k) - blockMax xb r)) (∑ j : Fin 1000, Ideal.exp (xb (ix2 r j) - blockMax xb r))

/-- What one point adds to the running block at class k: the sum over the block's rows of the softmax entries of the
    rows whose modality is v. -/
def blockTerm (xb : Vec Ideal S1024x1000 .f32) (mb : Vec Ideal S1024 .i32) (v : BitVec 32) (k : Fin 1000) : EReal :=
  ∑ r : Fin 1024, blockSoft xb r k * Spec.ind (mb (ix1 r)) v

/-- The exponentials of a block's entries less their row's greatest entry. -/
theorem expShift_apply (xb : Vec Ideal S1024x1000 .f32) (r : Fin 1024) (k : Fin 1000) :
    exp (subf xb (broadcastTo S1024x1000
        (shapeCast S1024x1
          (multiReduction (F := Ideal) .maximumf [1] S1024 xb 0xFF800000#32 reduces_S1024x1000_S1024 (.inl rfl) rfl)
          shapeCasts_S1024_S1024x1) broadcasts_S1024x1_S1024x1000)) (ix2 r k)
      = Ideal.exp (xb (ix2 r k) - blockMax xb r) :=
  congrArg (fun m => Ideal.exp (xb (ix2 r k) - m)) ((perRow_apply _ r k).trans (rowmax_apply xb r))

/-- The kernel's softmax of a block, entry by entry. -/
theorem pay4_apply (xb : Vec Ideal S1024x1000 .f32) (r : Fin 1024) (k : Fin 1000) :
    k2_pay4 (F := Ideal) xb (ix2 r k) = blockSoft xb r k := by
  unfold k2_pay4
  refine (divf_apply _ _ _).trans ?_
  refine congrArg₂ Ideal.div (expShift_apply xb r k) ?_
  exact (perRow_apply _ r k).trans ((rowsum_apply _ r).trans (Finset.sum_congr rfl fun j _ => expShift_apply xb r j))

/-- A masked softmax block summed over its rows, at class k. -/
theorem masked_colsum (xb : Vec Ideal S1024x1000 .f32) (mb : Vec Ideal S1024 .i32) (v : BitVec 32) (k : Fin 1000) :
    multiReduction (F := Ideal) .add [0] S1000
        (mulf (k2_pay4 xb)
          (broadcastTo S1024x1000
            (shapeCast S1024x1 (sitofp .f32 (extui 32 (cmpi .eq mb (broadcast S1024 v)) natLt_1_32) : FVec Ideal S1024 .f32)
              shapeCasts_S1024_S1024x1) broadcasts_S1024x1_S1024x1000))
        0x00000000#32 reduces_S1024x1000_S1000 (.inl rfl) rfl (ix1 k)
      = blockTerm xb mb v k := by
  refine (colsum_apply _ k).trans (Finset.sum_congr rfl fun r _ => ?_)
  show k2_pay4 (F := Ideal) xb (ix2 r k) * _ = _
  rw [pay4_apply]
  exact congrArg (blockSoft xb r k * ·) ((perRow_apply _ r k).trans (mask_apply mb v r))

/-- One point's update of the first running block, at class k. -/
theorem step2_a_apply (xb : Vec Ideal S1024x1000 .f32) (mb : Vec Ideal S1024 .i32) (acc : Vec Ideal S1x1x1000 .f32)
    (k : Fin 1000) :
    Steps.step2_a xb mb acc (ix3 (0 : Fin 1) (0 : Fin 1) k) = acc (ix3 (0 : Fin 1) (0 : Fin 1) k) + blockTerm xb mb 0#32 k := by
  unfold Steps.step2_a k2_pay5
  refine (shapeCast_ab_1ab_apply _ _ (0 : Fin 1) (0 : Fin 1) k).trans ?_
  refine (addf_apply _ _ _).trans ?_
  refine congrArg₂ (· + ·) (shapeCast_1ab_ab_apply acc _ (0 : Fin 1) k) ?_
  exact (shapeCast_a_1a_apply _ _ (0 : Fin 1) k).trans (masked_colsum xb mb 0#32 k)

/-- One point's update of the second running block, at class k. -/
theorem step2_b_apply (xb : Vec Ideal S1024x1000 .f32) (mb : Vec Ideal S1024 .i32) (acc : Vec Ideal S1x1x1000 .f32)
    (k : Fin 1000) :
    Steps.step2_b xb mb acc (ix3 (0 : Fin 1) (0 : Fin 1) k) = acc (ix3 (0 : Fin 1) (0 : Fin 1) k) + blockTerm xb mb 1#32 k := by
  unfold Steps.step2_b k2_pay1 k2_pay6 k2_pay7
  refine (shapeCast_ab_1ab_apply _ _ (0 : Fin 1) (0 : Fin 1) k).trans ?_
  refine (addf_apply _ _ _).trans ?_
  refine congrArg₂ (· + ·) (shapeCast_1ab_ab_apply acc _ (0 : Fin 1) k) ?_
  exact (shapeCast_a_1a_apply _ _ (0 : Fin 1) k).trans (masked_colsum xb mb 1#32 k)

/-- The block a half starts from is zero. -/
theorem reset_a_apply (k : Fin 1000) : k2_pay2 (F := Ideal) (ix3 (0 : Fin 1) (0 : Fin 1) k) = 0 :=
  Ideal.ofBits_zero_f32
theorem reset_b_apply (k : Fin 1000) : k2_pay3 (F := Ideal) (ix3 (0 : Fin 1) (0 : Fin 1) k) = 0 :=
  Ideal.ofBits_zero_f32

/-! ## The points' blocks are rows of the whole arrays -/

section Whole

variable (X : Fin 8 → Vec Ideal S1024x1000 .f32) (M : Fin 8 → Vec Ideal S1024 .i32)
variable (x : (⟨2, ![8192, 1000]⟩ : Shape).Idx → EReal) (modal : (⟨1, ![8192]⟩ : Shape).Idx → BitVec 32)

/-- Row r of point t's block is row 1024 t + r of the array. -/
abbrev rowOf (t : Fin 8) (r : Fin 1024) : Fin 8192 := ⟨1024 * t.val + r.val, by omega⟩

/-- The rows of the array are the rows of the 8 blocks: R = 1024 t + r with t = R / 1024, r = R % 1024. -/
def rowsEquiv : Fin 8 × Fin 1024 ≃ Fin 8192 where
  toFun q := rowOf q.1 q.2
  invFun R := (⟨R.val / 1024, by omega⟩, ⟨R.val % 1024, by omega⟩)
  left_inv q := by
    rcases q with ⟨t, r⟩
    refine Prod.ext (Fin.ext ?_) (Fin.ext ?_)
    · show (1024 * t.val + r.val) / 1024 = t.val
      omega
    · show (1024 * t.val + r.val) % 1024 = r.val
      omega
  right_inv R := Fin.ext (by
    show 1024 * (R.val / 1024) + R.val % 1024 = R.val
    omega)

/-- Point t's share of the class sum of modality v at class k. -/
def wholeTerm (v : BitVec 32) (k : Fin 1000) (t : Fin 8) : EReal :=
  ∑ r : Fin 1024, Spec.soft x (rowOf t r) k * Spec.ind (modal (ix1 (rowOf t r))) v

/-- The class sum is the sum of the 8 points' shares. -/
theorem classSum_eq_sum_points (v : BitVec 32) (k : Fin 1000) :
    Spec.classSum x modal v k = ∑ t : Fin 8, wholeTerm x modal v k t := by
  unfold Spec.classSum wholeTerm
  rw [← Equiv.sum_comp rowsEquiv, Fintype.sum_prod_type]
  rfl

section Blocks
variable (hX : ∀ (t : Fin 8) (r : Fin 1024) (k : Fin 1000), X t (ix2 r k) = x (ix2 (⟨1024 * t.val + r.val, by omega⟩ : Fin 8192) k))
variable (hM : ∀ (t : Fin 8) (r : Fin 1024), M t (ix1 r) = modal (ix1 (⟨1024 * t.val + r.val, by omega⟩ : Fin 8192)))
include hX

theorem blockMax_eq (t : Fin 8) (r : Fin 1024) : blockMax (X t) r = Spec.rowMax x (rowOf t r) :=
  Finset.sup_congr rfl fun k _ => hX t r k

theorem blockSoft_eq (t : Fin 8) (r : Fin 1024) (k : Fin 1000) : blockSoft (X t) r k = Spec.soft x (rowOf t r) k := by
  unfold blockSoft Spec.soft
  rw [blockMax_eq X x hX t r]
  exact congrArg₂ Ideal.div (congrArg (fun y => Ideal.exp (y - Spec.rowMax x (rowOf t r))) (hX t r k))
    (Finset.sum_congr rfl fun j _ => congrArg (fun y => Ideal.exp (y - Spec.rowMax x (rowOf t r))) (hX t r j))

include hM

theorem blockTerm_eq (v : BitVec 32) (k : Fin 1000) (t : Fin 8) :
    blockTerm (X t) (M t) v k = wholeTerm x modal v k t :=
  Finset.sum_congr rfl fun r _ =>
    congrArg₂ (· * ·) (blockSoft_eq X x hX t r k) (congrArg (fun w => Spec.ind w v) (hM t r))

end Blocks

/-! ## The running blocks after each point -/

/-- Point n's term for modality v at class k (zero past the last point). -/
def pointTerm (v : BitVec 32) (k : Fin 1000) (n : ℕ) : EReal :=
  if h : n < 8 then blockTerm (X ⟨n, h⟩) (M ⟨n, h⟩) v k else 0

/-- After point n the first running block holds, at class k, the terms of the points of n's half up to n. -/
theorem acc2_fst_apply (k : Fin 1000) : ∀ (n : ℕ) (h : n < 8),
    (Steps.acc2 X M n h).1 (ix3 (0 : Fin 1) (0 : Fin 1) k)
      = ∑ i ∈ Finset.range (n % 4 + 1), pointTerm X M 0#32 k (n - n % 4 + i)
  | 0, h => by
    rw [Steps.acc2]
    show Steps.step2_a (X ⟨0, h⟩) (M ⟨0, h⟩) (k2_pay2 (F := Ideal)) (ix3 (0 : Fin 1) (0 : Fin 1) k) = _
    rw [step2_a_apply, reset_a_apply, zero_add]
    simp [pointTerm]
  | n + 1, h => by
    have ih := acc2_fst_apply k n (Nat.lt_of_succ_lt h)
    rw [Steps.acc2]
    by_cases hm : (n + 1) % 4 = 0
    · rw [if_pos hm]
      show Steps.step2_a (X ⟨n + 1, h⟩) (M ⟨n + 1, h⟩) (k2_pay2 (F := Ideal)) (ix3 (0 : Fin 1) (0 : Fin 1) k) = _
      rw [step2_a_apply, reset_a_apply, zero_add, hm]
      simp [pointTerm, h]
    · rw [if_neg hm]
      show Steps.step2_a (X ⟨n + 1, h⟩) (M ⟨n + 1, h⟩) (Steps.acc2 X M n (Nat.lt_of_succ_lt h)).1
        (ix3 (0 : Fin 1) (0 : Fin 1) k) = _
      rw [step2_a_apply, ih]
      have e1 : (n + 1) % 4 = n % 4 + 1 := by omega
      have e2 : n + 1 - (n % 4 + 1) = n - n % 4 := by omega
      have e3 : n - n % 4 + (n % 4 + 1) = n + 1 := by omega
      rw [e1, e2, Finset.sum_range_succ _ (n % 4 + 1), e3]
      congr 1
      rw [pointTerm, dif_pos h]

/-- The same for the second running block and modality 1. -/
theorem acc2_snd_apply (k : Fin 1000) : ∀ (n : ℕ) (h : n < 8),
    (Steps.acc2 X M n h).2 (ix3 (0 : Fin 1) (0 : Fin 1) k)
      = ∑ i ∈ Finset.range (n % 4 + 1), pointTerm X M 1#32 k (n - n % 4 + i)
  | 0, h => by
    rw [Steps.acc2]
    show Steps.step2_b (X ⟨0, h⟩) (M ⟨0, h⟩) (k2_pay3 (F := Ideal)) (ix3 (0 : Fin 1) (0 : Fin 1) k) = _
    rw [step2_b_apply, reset_b_apply, zero_add]
    simp [pointTerm]
  | n + 1, h => by
    have ih := acc2_snd_apply k n (Nat.lt_of_succ_lt h)
    rw [Steps.acc2]
    by_cases hm : (n + 1) % 4 = 0
    · rw [if_pos hm]
      show Steps.step2_b (X ⟨n + 1, h⟩) (M ⟨n + 1, h⟩) (k2_pay3 (F := Ideal)) (ix3 (0 : Fin 1) (0 : Fin 1) k) = _
      rw [step2_b_apply, reset_b_apply, zero_add, hm]
      simp [pointTerm, h]
    · rw [if_neg hm]
      show Steps.step2_b (X ⟨n + 1, h⟩) (M ⟨n + 1, h⟩) (Steps.acc2 X M n (Nat.lt_of_succ_lt h)).2
        (ix3 (0 : Fin 1) (0 : Fin 1) k) = _
      rw [step2_b_apply, ih]
      have e1 : (n + 1) % 4 = n % 4 + 1 := by omega
      have e2 : n + 1 - (n % 4 + 1) = n - n % 4 := by omega
      have e3 : n - n % 4 + (n % 4 + 1) = n + 1 := by omega
      rw [e1, e2, Finset.sum_range_succ _ (n % 4 + 1), e3]
      congr 1
      rw [pointTerm, dif_pos h]

/-- The 8 points' terms, summed half by half, are the sum over the points. -/
theorem sum_halves (P : ℕ → EReal) :
    (∑ i ∈ Finset.range 4, P (4 * (0 : Fin 2).val + i)) + (∑ i ∈ Finset.range 4, P (4 * (1 : Fin 2).val + i))
      = ∑ t : Fin 8, P t.val := by
  rw [Fin.sum_univ_eight]
  simp only [Finset.sum_range_succ, Finset.sum_range_zero, Fin.val_zero, Fin.val_one, zero_add]
  norm_num [add_assoc]

end Whole

/-! ## The host's sum over the two halves -/

/-- The host's reduction over the half axis, read as a vector, is the sum of the two halves' entries. -/
theorem host_sum (A : Vec Ideal S2x1x1000 .f32) (k : Fin 1000) :
    shapeCast S1000 (Host.reduceAdd (F := Ideal) A (constant S_ .f32 0x00000000#32) reducesTo_S2x1x1000_S1x1000_d0 h_S_)
      shapeCasts_S1x1000_S1000 (ix1 k)
      = A (ix3 (0 : Fin 2) (0 : Fin 1) k) + A (ix3 (1 : Fin 2) (0 : Fin 1) k) := by
  refine (shapeCast_1a_a_apply _ _ k).trans ?_
  have hr : S2x1x1000.Reduces [0] S1x1000 := by decide
  refine (Ideal.hostReduceAdd_single reducesTo_S2x1x1000_S1x1000_d0 hr A _ (ix2 (0 : Fin 1) k)).trans ?_
  show Ideal.ofBits .f32 0x00000000#32 + ∑ p : Fin 2, A (hr.lift (ix2 (0 : Fin 1) k) p) = _
  rw [Ideal.ofBits_zero_f32, zero_add, Fin.sum_univ_two]
  exact congrArg₂ (· + ·)
    (congrArg A (funext fun a => Fin.ext (match a with | ⟨0, _⟩ => rfl | ⟨1, _⟩ => rfl | ⟨2, _⟩ => rfl)))
    (congrArg A (funext fun a => Fin.ext (match a with | ⟨0, _⟩ => rfl | ⟨1, _⟩ => rfl | ⟨2, _⟩ => rfl)))

variable (X : Fin 8 → Vec Ideal S1024x1000 .f32) (M : Fin 8 → Vec Ideal S1024 .i32)
variable (x : (⟨2, ![8192, 1000]⟩ : Shape).Idx → EReal) (modal : (⟨1, ![8192]⟩ : Shape).Idx → BitVec 32)

/-- The sum over the two halves of an array whose half p is the first running block after point 4p + 3, read as a
    vector of 1000 entries, is the class sum of modality 0. -/
theorem sum_a
    (hX : ∀ (t : Fin 8) (r : Fin 1024) (k : Fin 1000), X t (ix2 r k) = x (ix2 (⟨1024 * t.val + r.val, by omega⟩ : Fin 8192) k))
    (hM : ∀ (t : Fin 8) (r : Fin 1024), M t (ix1 r) = modal (ix1 (⟨1024 * t.val + r.val, by omega⟩ : Fin 8192)))
    (A : Vec Ideal S2x1x1000 .f32)
    (hA : ∀ (p : Fin 2) (k : Fin 1000),
      A (ix3 p (0 : Fin 1) k) = (Steps.acc2 X M (4 * p.val + 3) (by omega)).1 (ix3 (0 : Fin 1) (0 : Fin 1) k))
    (k : Fin 1000) :
    shapeCast S1000 (Host.reduceAdd (F := Ideal) A (constant S_ .f32 0x00000000#32) reducesTo_S2x1x1000_S1x1000_d0 h_S_)
      shapeCasts_S1x1000_S1000 (ix1 k) = Spec.classSum x modal 0#32 k := by
  have half : ∀ p : Fin 2, A (ix3 p (0 : Fin 1) k) = ∑ i ∈ Finset.range 4, pointTerm X M 0#32 k (4 * p.val + i) := fun p => by
    have h := acc2_fst_apply X M k (4 * p.val + 3) (by omega)
    have e1 : (4 * p.val + 3) % 4 = 3 := by omega
    have e2 : 4 * p.val + 3 - 3 = 4 * p.val := by omega
    rw [e1, e2] at h
    exact (hA p k).trans h
  rw [host_sum, half 0, half 1, sum_halves, classSum_eq_sum_points]
  exact Finset.sum_congr rfl fun t _ => by
    rw [pointTerm, dif_pos t.isLt]
    exact blockTerm_eq X M x modal hX hM 0#32 k t

/-- The same for the second running block and modality 1. -/
theorem sum_b
    (hX : ∀ (t : Fin 8) (r : Fin 1024) (k : Fin 1000), X t (ix2 r k) = x (ix2 (⟨1024 * t.val + r.val, by omega⟩ : Fin 8192) k))
    (hM : ∀ (t : Fin 8) (r : Fin 1024), M t (ix1 r) = modal (ix1 (⟨1024 * t.val + r.val, by omega⟩ : Fin 8192)))
    (A : Vec Ideal S2x1x1000 .f32)
    (hA : ∀ (p : Fin 2) (k : Fin 1000),
      A (ix3 p (0 : Fin 1) k) = (Steps.acc2 X M (4 * p.val + 3) (by omega)).2 (ix3 (0 : Fin 1) (0 : Fin 1) k))
    (k : Fin 1000) :
    shapeCast S1000 (Host.reduceAdd (F := Ideal) A (constant S_ .f32 0x00000000#32) reducesTo_S2x1x1000_S1x1000_d0 h_S_)
      shapeCasts_S1x1000_S1000 (ix1 k) = Spec.classSum x modal 1#32 k := by
  have half : ∀ p : Fin 2, A (ix3 p (0 : Fin 1) k) = ∑ i ∈ Finset.range 4, pointTerm X M 1#32 k (4 * p.val + i) := fun p => by
    have h := acc2_snd_apply X M k (4 * p.val + 3) (by omega)
    have e1 : (4 * p.val + 3) % 4 = 3 := by omega
    have e2 : 4 * p.val + 3 - 3 = 4 * p.val := by omega
    rw [e1, e2] at h
    exact (hA p k).trans h
  rw [host_sum, half 0, half 1, sum_halves, classSum_eq_sum_points]
  exact Finset.sum_congr rfl fun t _ => by
    rw [pointTerm, dif_pos t.isLt]
    exact blockTerm_eq X M x modal hX hM 1#32 k t

end Cert.KernelIdeal.ClassSums

end
-- ==== Proof.SpecArrays.lean ====
/-
  The closed forms of `Spec` as whole arrays: the label sums as a 256 × 2048 matrix, a pair sum as a scalar array,
  the class sums as a vector of 1000 entries.
-/
import proofs.«423768_j88124138979690_2_alg».proof.Proof.Spec

noncomputable section

namespace Cert.Spec

open Idealize.ShloMosaic Idealize.ShloMosaic.ValueIdx

/-- The label sums of modality `v` as a matrix. -/
def selArr (x : (⟨2, ![8192, 2048]⟩ : Shape).Idx → EReal) (lab modal : (⟨1, ![8192]⟩ : Shape).Idx → BitVec 32)
    (v : BitVec 32) : (⟨2, ![256, 2048]⟩ : Shape).Idx → EReal :=
  fun i => selSum x lab modal v (i 0) (i 1)

/-- A pair sum as a scalar array. -/
def pairArr (a b : (⟨2, ![8192, 2048]⟩ : Shape).Idx → EReal) : (⟨0, ![]⟩ : Shape).Idx → EReal :=
  fun _ => pairSum a b

/-- The class sums of modality `v` as a vector. -/
def classArr (x : (⟨2, ![8192, 1000]⟩ : Shape).Idx → EReal) (modal : (⟨1, ![8192]⟩ : Shape).Idx → BitVec 32)
    (v : BitVec 32) : (⟨1, ![1000]⟩ : Shape).Idx → EReal :=
  fun i => classSum x modal v (i 0)

end Cert.Spec

end
-- ==== Proof.KernelValue.lean ====
/-
  The kernel program's result at the ideal instance: the host tail of the closed forms.  Each region result the tail
  reads is the closed form of the argument arrays — the halves of the first kernel's arrays summed are the label
  sums, lanes 0, 1, 2 of the second kernel's summed array the three pair sums, the third kernel's summed arrays the
  class sums — because every kernel finds the argument arrays as launched, a point's blocks are row ranges of them,
  and a half of a result array is the running block after the half's last point.
-/
import proofs.«423768_j88124138979690_2_alg».proof.Proof.Tail
import proofs.«423768_j88124138979690_2_alg».proof.Proof.Boundary
import proofs.«423768_j88124138979690_2_alg».proof.Proof.LabelBlocks
import proofs.«423768_j88124138979690_2_alg».proof.Proof.LabelSums
import proofs.«423768_j88124138979690_2_alg».proof.Proof.PairBlocks
import proofs.«423768_j88124138979690_2_alg».proof.Proof.PairSums
import proofs.«423768_j88124138979690_2_alg».proof.Proof.ClassBlocks
import proofs.«423768_j88124138979690_2_alg».proof.Proof.ClassSums
import proofs.«423768_j88124138979690_2_alg».proof.Proof.SpecArrays

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The program's result as a function of the launch memory: the host tail of the closed forms. -/
def result (c : Dev nD) : FVec Ideal S_ .f32 :=
  Tail.tail (F := Ideal)
    (Spec.selArr (m ((c : Thread nD τ).loc main_arg0)) (m ((c : Thread nD τ).loc main_arg5)) (m ((c : Thread nD τ).loc main_arg6)) 0#32)
    (Spec.selArr (m ((c : Thread nD τ).loc main_arg0)) (m ((c : Thread nD τ).loc main_arg5)) (m ((c : Thread nD τ).loc main_arg6)) 1#32)
    (Spec.pairArr (m ((c : Thread nD τ).loc main_arg1)) (m ((c : Thread nD τ).loc main_arg2)))
    (Spec.pairArr (m ((c : Thread nD τ).loc main_arg1)) (m ((c : Thread nD τ).loc main_arg3)))
    (Spec.pairArr (m ((c : Thread nD τ).loc main_arg2)) (m ((c : Thread nD τ).loc main_arg3)))
    (Spec.classArr (m ((c : Thread nD τ).loc main_arg4)) (m ((c : Thread nD τ).loc main_arg6)) 0#32)
    (Spec.classArr (m ((c : Thread nD τ).loc main_arg4)) (m ((c : Thread nD τ).loc main_arg6)) 1#32)
    (m ((c : Thread nD τ).loc main_arg5)) (m ((c : Thread nD τ).loc main_arg6))

theorem v1_eq (c : Dev nD) : (W5 m ρ c (Proc.devRef .tc main_v1) : FVec Ideal S256x2048 .f32)
    = Spec.selArr (m ((c : Thread nD τ).loc main_arg0)) (m ((c : Thread nD τ).loc main_arg5)) (m ((c : Thread nD τ).loc main_arg6)) 0#32 := by
  funext i
  obtain ⟨l, d, rfl⟩ : ∃ (l : Fin 256) (d : Fin 2048), i = ix2 l d := ⟨i 0, i 1, eq_ix2 i⟩
  rw [Boundary.W5_v1]
  exact LabelSums.sum_a (LabelBlocks.blkX (V0 m ρ) c) (LabelBlocks.blkL (V0 m ρ) c) (LabelBlocks.blkM (V0 m ρ) c)
    (m ((c : Thread nD τ).loc main_arg0)) (m ((c : Thread nD τ).loc main_arg5)) (m ((c : Thread nD τ).loc main_arg6))
    (fun t r d => LabelBlocks.blkX_apply (V0 m ρ) c t r d) (fun t r => LabelBlocks.blkL_apply (V0 m ρ) c t r)
    (fun t r => LabelBlocks.blkM_apply (V0 m ρ) c t r)
    ((dat0 (V0 m ρ) c).arrAt 3 cfg0.N) (fun p l d => LabelBlocks.final_a (V0 m ρ) c p l d) l d

theorem v2_eq (c : Dev nD) : (W5 m ρ c (Proc.devRef .tc main_v2) : FVec Ideal S256x2048 .f32)
    = Spec.selArr (m ((c : Thread nD τ).loc main_arg0)) (m ((c : Thread nD τ).loc main_arg5)) (m ((c : Thread nD τ).loc main_arg6)) 1#32 := by
  funext i
  obtain ⟨l, d, rfl⟩ : ∃ (l : Fin 256) (d : Fin 2048), i = ix2 l d := ⟨i 0, i 1, eq_ix2 i⟩
  rw [Boundary.W5_v2]
  exact LabelSums.sum_b (LabelBlocks.blkX (V0 m ρ) c) (LabelBlocks.blkL (V0 m ρ) c) (LabelBlocks.blkM (V0 m ρ) c)
    (m ((c : Thread nD τ).loc main_arg0)) (m ((c : Thread nD τ).loc main_arg5)) (m ((c : Thread nD τ).loc main_arg6))
    (fun t r d => LabelBlocks.blkX_apply (V0 m ρ) c t r d) (fun t r => LabelBlocks.blkL_apply (V0 m ρ) c t r)
    (fun t r => LabelBlocks.blkM_apply (V0 m ρ) c t r)
    ((dat0 (V0 m ρ) c).arrAt 4 cfg0.N) (fun p l d => LabelBlocks.final_b (V0 m ρ) c p l d) l d

/-- The hypotheses the pair sums take: the second kernel's blocks are row ranges of the launch arrays. -/
theorem hA (c : Dev nD) (t : Fin 32) (r : Fin 256) (d : Fin 2048) :
    PairBlocks.blkA (V2 m ρ) c t (ix2 r d) = m ((c : Thread nD τ).loc main_arg1) (ix2 (⟨256 * t.val + r.val, by omega⟩ : Fin 8192) d) :=
  (PairBlocks.blkA_apply (V2 m ρ) c t r d).trans (congrFun (Boundary.V2_arg1 m ρ c) _)
theorem hB (c : Dev nD) (t : Fin 32) (r : Fin 256) (d : Fin 2048) :
    PairBlocks.blkB (V2 m ρ) c t (ix2 r d) = m ((c : Thread nD τ).loc main_arg2) (ix2 (⟨256 * t.val + r.val, by omega⟩ : Fin 8192) d) :=
  (PairBlocks.blkB_apply (V2 m ρ) c t r d).trans (congrFun (Boundary.V2_arg2 m ρ c) _)
theorem hC (c : Dev nD) (t : Fin 32) (r : Fin 256) (d : Fin 2048) :
    PairBlocks.blkC (V2 m ρ) c t (ix2 r d) = m ((c : Thread nD τ).loc main_arg3) (ix2 (⟨256 * t.val + r.val, by omega⟩ : Fin 8192) d) :=
  (PairBlocks.blkC_apply (V2 m ρ) c t r d).trans (congrFun (Boundary.V2_arg3 m ρ c) _)

theorem o12_eq (c : Dev nD) :
    shapeCast S_ (extractStridedSlice S1x1 ![0, 0] (W5 m ρ c (Proc.devRef .tc main_v4)) slices_S1x128_S1x1_0_0) shapeCasts_S1x1_S_
      = Spec.pairArr (m ((c : Thread nD τ).loc main_arg1)) (m ((c : Thread nD τ).loc main_arg2)) := by
  funext i
  rw [Boundary.W5_v4]
  exact PairSums.lane0 (PairBlocks.blkA (V2 m ρ) c) (PairBlocks.blkB (V2 m ρ) c) (PairBlocks.blkC (V2 m ρ) c)
    (m ((c : Thread nD τ).loc main_arg1)) (m ((c : Thread nD τ).loc main_arg2)) (m ((c : Thread nD τ).loc main_arg3))
    (hA m ρ c) (hB m ρ c) (hC m ρ c) ((dat1 (V2 m ρ) c).arrAt 3 cfg1.N) (fun p lane => PairBlocks.final (V2 m ρ) c p lane) i
theorem o13_eq (c : Dev nD) :
    shapeCast S_ (extractStridedSlice S1x1 ![0, 1] (W5 m ρ c (Proc.devRef .tc main_v4)) slices_S1x128_S1x1_0_1) shapeCasts_S1x1_S_
      = Spec.pairArr (m ((c : Thread nD τ).loc main_arg1)) (m ((c : Thread nD τ).loc main_arg3)) := by
  funext i
  rw [Boundary.W5_v4]
  exact PairSums.lane1 (PairBlocks.blkA (V2 m ρ) c) (PairBlocks.blkB (V2 m ρ) c) (PairBlocks.blkC (V2 m ρ) c)
    (m ((c : Thread nD τ).loc main_arg1)) (m ((c : Thread nD τ).loc main_arg2)) (m ((c : Thread nD τ).loc main_arg3))
    (hA m ρ c) (hB m ρ c) (hC m ρ c) ((dat1 (V2 m ρ) c).arrAt 3 cfg1.N) (fun p lane => PairBlocks.final (V2 m ρ) c p lane) i
theorem o23_eq (c : Dev nD) :
    shapeCast S_ (extractStridedSlice S1x1 ![0, 2] (W5 m ρ c (Proc.devRef .tc main_v4)) slices_S1x128_S1x1_0_2) shapeCasts_S1x1_S_
      = Spec.pairArr (m ((c : Thread nD τ).loc main_arg2)) (m ((c : Thread nD τ).loc main_arg3)) := by
  funext i
  rw [Boundary.W5_v4]
  exact PairSums.lane2 (PairBlocks.blkA (V2 m ρ) c) (PairBlocks.blkB (V2 m ρ) c) (PairBlocks.blkC (V2 m ρ) c)
    (m ((c : Thread nD τ).loc main_arg1)) (m ((c : Thread nD τ).loc main_arg2)) (m ((c : Thread nD τ).loc main_arg3))
    (hA m ρ c) (hB m ρ c) (hC m ρ c) ((dat1 (V2 m ρ) c).arrAt 3 cfg1.N) (fun p lane => PairBlocks.final (V2 m ρ) c p lane) i

/-- The hypotheses the class sums take: the third kernel's blocks are row ranges of the launch arrays. -/
theorem hX2 (c : Dev nD) (t : Fin 8) (r : Fin 1024) (k : Fin 1000) :
    ClassBlocks.blkX (V4 m ρ) c t (ix2 r k) = m ((c : Thread nD τ).loc main_arg4) (ix2 (⟨1024 * t.val + r.val, by omega⟩ : Fin 8192) k) :=
  (ClassBlocks.blkX_apply (V4 m ρ) c t r k).trans (congrFun (Boundary.V4_arg4 m ρ c) _)
theorem hM2 (c : Dev nD) (t : Fin 8) (r : Fin 1024) :
    ClassBlocks.blkM (V4 m ρ) c t (ix1 r) = m ((c : Thread nD τ).loc main_arg6) (ix1 (⟨1024 * t.val + r.val, by omega⟩ : Fin 8192)) :=
  (ClassBlocks.blkM_apply (V4 m ρ) c t r).trans (congrFun (Boundary.V4_arg6 m ρ c) _)

theorem p0_eq (c : Dev nD) :
    shapeCast S1000 (Host.reduceAdd (F := Ideal) (W5 m ρ c (Proc.devRef .tc main_v5_0)) (constant S_ .f32 0x00000000#32) reducesTo_S2x1x1000_S1x1000_d0 h_S_) shapeCasts_S1x1000_S1000
      = Spec.classArr (m ((c : Thread nD τ).loc main_arg4)) (m ((c : Thread nD τ).loc main_arg6)) 0#32 := by
  funext i
  obtain ⟨k, rfl⟩ : ∃ k : Fin 1000, i = ix1 k := ⟨i 0, eq_ix1 i⟩
  rw [Boundary.W5_v5_0]
  exact ClassSums.sum_a (ClassBlocks.blkX (V4 m ρ) c) (ClassBlocks.blkM (V4 m ρ) c)
    (m ((c : Thread nD τ).loc main_arg4)) (m ((c : Thread nD τ).loc main_arg6)) (hX2 m ρ c) (hM2 m ρ c)
    ((dat2 (V4 m ρ) c).arrAt 2 cfg2.N) (fun p k => ClassBlocks.final_a (V4 m ρ) c p k) k
theorem p1_eq (c : Dev nD) :
    shapeCast S1000 (Host.reduceAdd (F := Ideal) (W5 m ρ c (Proc.devRef .tc main_v5_1)) (constant S_ .f32 0x00000000#32) reducesTo_S2x1x1000_S1x1000_d0 h_S_) shapeCasts_S1x1000_S1000
      = Spec.classArr (m ((c : Thread nD τ).loc main_arg4)) (m ((c : Thread nD τ).loc main_arg6)) 1#32 := by
  funext i
  obtain ⟨k, rfl⟩ : ∃ k : Fin 1000, i = ix1 k := ⟨i 0, eq_ix1 i⟩
  rw [Boundary.W5_v5_1]
  exact ClassSums.sum_b (ClassBlocks.blkX (V4 m ρ) c) (ClassBlocks.blkM (V4 m ρ) c)
    (m ((c : Thread nD τ).loc main_arg4)) (m ((c : Thread nD τ).loc main_arg6)) (hX2 m ρ c) (hM2 m ρ c)
    ((dat2 (V4 m ρ) c).arrAt 3 cfg2.N) (fun p k => ClassBlocks.final_b (V4 m ρ) c p k) k

/-- The result buffer after the last host operation is the host tail of the closed forms. -/
theorem value (c : Dev nD) : W12 m ρ c (Proc.devRef .tc main_v92) = result m c := by
  rw [Tail.result_eq m ρ c, v1_eq m ρ c, v2_eq m ρ c, o12_eq m ρ c, o13_eq m ρ c, o23_eq m ρ c, p0_eq m ρ c, p1_eq m ρ c,
    Boundary.W5_arg5 m ρ c, Boundary.W5_arg6 m ρ c]
  rfl

end Cert.KernelIdeal.Value

end
-- ==== Proof.RefStages.lean ====
/-
  The reference program's seven intermediate results that the host tail consumes, read index by index.
  * The two label-sum matrices are scatter-adds of the masked unit rows into a zero matrix, row r going to row
    (label r): at (l, d) the zero plus the sum of the updates (r, d') that land on (l, d), which are those with
    label r = l (as a signed word, not clamped) and d' = d; a label outside 0 … 255 lands nowhere.
  * The three pair sums are 0 + Σ_r |0 + Σ_d u(a)[r, d]·u(b)[r, d]|.
  * The two class-sum vectors are 0 + Σ_r softmax(x)[r, k]·mask[r], the softmax with the row maximum taken as
    max(−∞, max of the row from −∞).
  Each is the closed form of `Spec`.
-/
import proofs.«423768_j88124138979690_2_alg».proof.Proof.RefRead
import proofs.«423768_j88124138979690_2_alg».proof.Proof.Spec
import Idealize.ShloMosaic.PureOps.Ideal.Laws
import Idealize.ShloMosaic.Lib.ValueIdx
import Idealize.ShloMosaic.Lib.Pipeline.Value

noncomputable section

namespace Cert.ReferenceIdeal.Stages

open Idealize.ShloMosaic Idealize.ShloMosaic.ValueIdx
open Cert.ReferenceIdeal Cert.ReferenceIdeal.Gen Cert.ReferenceIdeal.Read
open scoped BigOperators

/-! ## Sums over an index set by coordinates, and the unit rows -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Squares summed along the row from zero, the square root, the floor ε under it, and the quotient: the unit row. -/
theorem unit_of_chain (x : S8192x2048.Idx → EReal) (r : Fin 8192) (d : Fin 2048) (f : Fin 2048 → S8192x2048.Idx)
    (hf : ∀ k, f k = ix2 r k) :
    Ideal.div (x (ix2 r d))
        (max (Ideal.ofBits .f32 0x2B8CBCCC#32) (Ideal.sqrt (Ideal.ofBits .f32 0x00000000#32 + ∑ k, x (f k) * x (f k))))
      = Spec.unitRow x r d := by
  simp only [hf]
  unfold Spec.unitRow Spec.eps
  rw [Ideal.ofBits_zero_f32, zero_add, max_comm]

/-- The program's scaled copy of x0 at (r, d) is entry (r, d) of x0 with row r scaled to unit length. -/
theorem v6_unit (x0 : (⟨S8192x2048, .f32⟩ : BufTy).Contents (Elt Ideal)) (r : Fin 8192) (d : Fin 2048) :
    val_main_v6 (F := Ideal) x0 (ix2 r d) = Spec.unitRow x0 r d := by
  rw [val_main_v6_apply, val_main_v5_apply, val_main_v4_apply, val_main_call0_v1_apply,
    val_main_call0_v0_apply, val_main_cst_0_apply, val_main_v3_apply, val_main_v2_apply,
    val_main_v1_apply, val_main_cst_apply]
  simp only [val_main_v0_apply]
  exact unit_of_chain x0 r d _ fun k => funext fun a => by match a with | ⟨0, _⟩ => rfl | ⟨1, _⟩ => rfl

/-- The program's scaled copy of x1 at (r, d) is entry (r, d) of x1 with row r scaled to unit length. -/
theorem v71_unit (x1 : (⟨S8192x2048, .f32⟩ : BufTy).Contents (Elt Ideal)) (r : Fin 8192) (d : Fin 2048) :
    val_main_v71 (F := Ideal) x1 (ix2 r d) = Spec.unitRow x1 r d := by
  rw [val_main_v71_apply, val_main_v70_apply, val_main_v69_apply, val_main_call3_v1_apply,
    val_main_call3_v0_apply, val_main_cst_22_apply, val_main_v68_apply, val_main_v67_apply,
    val_main_v66_apply, val_main_cst_21_apply]
  simp only [val_main_v65_apply]
  exact unit_of_chain x1 r d _ fun k => funext fun a => by match a with | ⟨0, _⟩ => rfl | ⟨1, _⟩ => rfl

/-- The program's scaled copy of x2 at (r, d) is entry (r, d) of x2 with row r scaled to unit length. -/
theorem v78_unit (x2 : (⟨S8192x2048, .f32⟩ : BufTy).Contents (Elt Ideal)) (r : Fin 8192) (d : Fin 2048) :
    val_main_v78 (F := Ideal) x2 (ix2 r d) = Spec.unitRow x2 r d := by
  rw [val_main_v78_apply, val_main_v77_apply, val_main_v76_apply, val_main_call4_v1_apply,
    val_main_call4_v0_apply, val_main_cst_24_apply, val_main_v75_apply, val_main_v74_apply,
    val_main_v73_apply, val_main_cst_23_apply]
  simp only [val_main_v72_apply]
  exact unit_of_chain x2 r d _ fun k => funext fun a => by match a with | ⟨0, _⟩ => rfl | ⟨1, _⟩ => rfl

/-- The program's scaled copy of x3 at (r, d) is entry (r, d) of x3 with row r scaled to unit length. -/
theorem v85_unit (x3 : (⟨S8192x2048, .f32⟩ : BufTy).Contents (Elt Ideal)) (r : Fin 8192) (d : Fin 2048) :
    val_main_v85 (F := Ideal) x3 (ix2 r d) = Spec.unitRow x3 r d := by
  rw [val_main_v85_apply, val_main_v84_apply, val_main_v83_apply, val_main_call5_v1_apply,
    val_main_call5_v0_apply, val_main_cst_26_apply, val_main_v82_apply, val_main_v81_apply,
    val_main_v80_apply, val_main_cst_25_apply]
  simp only [val_main_v79_apply]
  exact unit_of_chain x3 r d _ fun k => funext fun a => by match a with | ⟨0, _⟩ => rfl | ⟨1, _⟩ => rfl

/-! ## The modality mask -/

/-- A one-bit equality test read as an unsigned integer is the indicator of the equality. -/
theorem uitofp_cmpi_eq (w v : BitVec 32) :
    FloatOps.uitofp (F := Ideal) .f32 (IntOp.cmpi .eq w v) = Spec.ind w v := by
  show (((IntOp.cmpi .eq w v).toNat : ℝ) : EReal) = Spec.ind w v
  unfold Spec.ind IntOp.cmpi
  by_cases h : w = v
  · simp [h]
  · simp [h]

/-! ## The softmax -/

/-- The word 0xFF800000 is −∞. -/
theorem ofBits_neg_inf : Ideal.ofBits .f32 0xFF800000#32 = ⊥ := by simp [Ideal.ofBits, Ideal.ieee]

/-- The maximum folded along row r from −∞ is the row's greatest entry. -/
theorem v105_row (x4 : (⟨S8192x1000, .f32⟩ : BufTy).Contents (Elt Ideal)) (r : Fin 8192) :
    val_main_v105 (F := Ideal) x4 (ix1 r) = Spec.rowMax x4 r := by
  unfold val_main_v105
  refine (Host.reduce_eq_fold_single (FloatOps.maximumf (F := Ideal) (φ := .f32)) x4 _
    reducesTo_S8192x1000_S8192_d1 (by decide) h_S_ (ix1 r)).trans ?_
  rw [val_main_cst_37_apply, Ideal.ofBits_def, ofBits_neg_inf]
  refine (Finset.fold_congr (g := fun k : Fin 1000 => x4 (ix2 r k)) fun k _ => ?_).trans ?_
  · exact congrArg x4 (funext fun a => Fin.ext (by match a with | ⟨0, _⟩ => rfl | ⟨1, _⟩ => rfl))
  · rfl

/-- The exponential of the entry less the row's maximum; the program takes the maximum with −∞ once more. -/
theorem v111_exp (x4 : (⟨S8192x1000, .f32⟩ : BufTy).Contents (Elt Ideal)) (r : Fin 8192) (k : Fin 1000) :
    val_main_v111 (F := Ideal) x4 (ix2 r k) = Ideal.exp (x4 (ix2 r k) - Spec.rowMax x4 r) := by
  rw [val_main_v111_apply, val_main_v110_apply, val_main_v109_apply, val_main_v108_apply, val_main_v107_apply,
    val_main_v106_apply, val_main_cst_38_apply]
  have e : idx_main_v108 (idx_main_v109 (ix2 r k)) = ix1 r := funext fun a => by match a with | ⟨0, _⟩ => rfl
  rw [e, v105_row]
  simp only [Ideal.hostUnary_exp_def, Ideal.subf_def, Ideal.maximumf_def, Ideal.ofBits_def, ofBits_neg_inf, max_bot_left]

/-- The exponentials divided by their sum along the row: the softmax. -/
theorem v115_soft (x4 : (⟨S8192x1000, .f32⟩ : BufTy).Contents (Elt Ideal)) (r : Fin 8192) (k : Fin 1000) :
    val_main_v115 (F := Ideal) x4 (ix2 r k) = Spec.soft x4 r k := by
  rw [val_main_v115_apply, val_main_v114_apply, val_main_v113_apply, val_main_v112_apply, val_main_cst_39_apply]
  have e : ∀ j : Fin 1000, idx_main_v112 (idx_main_v113 (idx_main_v114 (ix2 r k))) j = ix2 r j := fun j =>
    funext fun a => by match a with | ⟨0, _⟩ => rfl | ⟨1, _⟩ => rfl
  simp only [e, v111_exp, Ideal.hostDivf_def, Ideal.ofBits_def, Ideal.ofBits_zero_f32, zero_add]
  rfl

/-! ## The scatter-add's landing index for the label sums' dimension numbers -/

/-- The start of update (r, d') on the label axis is row r's label word, read signed. -/
theorem sd_start0 (idx : IVec S8192x1 32) (r : Fin 8192) (d' : Fin 2048) :
    scatter_S256x2048_S8192x1_S8192x2048_1_0_0_1.start (ix2 r d') idx (0 : Fin 2) = (idx (ix2 r 0)).toInt := by
  unfold ScatterDims.start
  rw [dif_pos (show (0 : Fin 2) ∈ scatter_S256x2048_S8192x1_S8192x2048_1_0_0_1.scatterDimsToOperandDims from List.mem_singleton.mpr rfl)]
  refine congrArg (fun i => (idx i).toInt) (funext fun b => Fin.ext ?_)
  match b with
  | ⟨0, _⟩ => rfl
  | ⟨1, _⟩ => rfl

/-- The start on the column axis is 0. -/
theorem sd_start1 (idx : IVec S8192x1 32) (r : Fin 8192) (d' : Fin 2048) :
    scatter_S256x2048_S8192x1_S8192x2048_1_0_0_1.start (ix2 r d') idx (1 : Fin 2) = 0 := by
  unfold ScatterDims.start
  rw [dif_neg (show ¬ (1 : Fin 2) ∈ scatter_S256x2048_S8192x1_S8192x2048_1_0_0_1.scatterDimsToOperandDims by decide)]

/-- The window coordinate on the label axis is 0. -/
theorem sd_window0 (r : Fin 8192) (d' : Fin 2048) :
    scatter_S256x2048_S8192x1_S8192x2048_1_0_0_1.window (ix2 r d') (0 : Fin 2) = 0 := by
  unfold ScatterDims.window
  rw [dif_neg (show ¬ (0 : Fin 2) ∈ scatter_S256x2048_S8192x1_S8192x2048_1_0_0_1.sKept by decide)]

/-- The window coordinate on the column axis is d'. -/
theorem sd_window1 (r : Fin 8192) (d' : Fin 2048) :
    scatter_S256x2048_S8192x1_S8192x2048_1_0_0_1.window (ix2 r d') (1 : Fin 2) = d'.val := by
  unfold ScatterDims.window
  rw [dif_pos (show (1 : Fin 2) ∈ scatter_S256x2048_S8192x1_S8192x2048_1_0_0_1.sKept by decide)]
  rfl

/-- A rank-2 index is (a, b) exactly when its coordinates are a and b. -/
theorem eq_ix2_iff_val {n0 n1 : Nat} (i : (⟨2, ![n0, n1]⟩ : Shape).Idx) (a : Fin n0) (b : Fin n1) :
    i = ix2 a b ↔ (i 0).val = a.val ∧ (i 1).val = b.val :=
  ⟨fun e => by subst e; exact ⟨rfl, rfl⟩, fun ⟨h0, h1⟩ => funext fun c => Fin.ext (by
    match c with
    | ⟨0, _⟩ => exact h0
    | ⟨1, _⟩ => exact h1)⟩

/-- Update (r, d') lands on (l, d) exactly when row r's label, as a signed word, is l and d' = d. -/
theorem sd_resultIdx_iff (idx : IVec S8192x1 32) (r : Fin 8192) (d' : Fin 2048) (l : Fin 256) (d : Fin 2048) :
    scatter_S256x2048_S8192x1_S8192x2048_1_0_0_1.resultIdx? (ix2 r d') idx = some (ix2 l d)
      ↔ (idx (ix2 r 0)).toInt = (l.val : Int) ∧ d' = d := by
  have hl := l.isLt
  have hd := d.isLt
  have hd' := d'.isLt
  unfold ScatterDims.resultIdx?
  split
  · rename_i h
    have h0 := h (0 : Fin 2)
    rw [sd_start0, sd_window0] at h0
    rw [Option.some.injEq, eq_ix2_iff_val]
    simp only [sd_start0, sd_start1, sd_window0, sd_window1, Fin.ext_iff]
    generalize (idx (ix2 r 0)).toInt = T at *
    omega
  · rename_i h
    simp only [reduceCtorEq, false_iff]
    rintro ⟨h0, rfl⟩
    refine h (Fin.forall_fin_two.mpr ⟨?_, ?_⟩)
    · rw [sd_start0, sd_window0]
      show 0 ≤ _ ∧ _ < (256 : Int)
      omega
    · rw [sd_start1, sd_window1]
      show 0 ≤ _ ∧ _ < (2048 : Int)
      omega

/-- The scatter-add at (l, d): the operand there plus the updates (r, d) of the rows r whose label is l. -/
theorem scatter_apply (x : S256x2048.Idx → EReal) (idx : IVec S8192x1 32) (upd : S8192x2048.Idx → EReal)
    (l : Fin 256) (d : Fin 2048) :
    Ideal.hostScatterAdd scatter_S256x2048_S8192x1_S8192x2048_1_0_0_1 x idx upd (ix2 l d)
      = x (ix2 l d) + ∑ r : Fin 8192, if (idx (ix2 r 0)).toInt = (l.val : Int) then upd (ix2 r d) else 0 := by
  unfold Ideal.hostScatterAdd
  refine congrArg (x (ix2 l d) + ·) ?_
  rw [Finset.sum_filter, sum_idx2]
  refine Finset.sum_congr rfl fun r _ => ?_
  simp only [sd_resultIdx_iff]
  by_cases h : (idx (ix2 r 0)).toInt = (l.val : Int)
  · simp only [h, true_and, if_true, Finset.sum_ite_eq', Finset.mem_univ]
  · simp only [h, false_and, if_false, Finset.sum_const_zero]

/-- The update at (r, d): the unit row times the indicator that row r's modality is 0. -/
theorem v15_masked (x0 : (⟨S8192x2048, .f32⟩ : BufTy).Contents (Elt Ideal)) (x6 : (⟨S8192, .i32⟩ : BufTy).Contents (Elt Ideal))
    (r : Fin 8192) (d : Fin 2048) :
    val_main_v15 (F := Ideal) x0 x6 (ix2 r d) = Spec.unitRow x0 r d * Spec.ind (x6 (ix1 r)) 0#32 := by
  rw [val_main_v15_apply, v6_unit, val_main_v14_apply, val_main_v13_apply, val_main_v9_apply,
    val_main_v8_apply, val_main_v7_apply, val_main_c_apply, uitofp_cmpi_eq]
  have e : idx_main_v13 (idx_main_v14 (ix2 r d)) = ix1 r := funext fun a => by match a with | ⟨0, _⟩ => rfl
  rw [e]
  rfl

/-- The update at (r, d): the unit row times the indicator that row r's modality is 1. -/
theorem v21_masked (x0 : (⟨S8192x2048, .f32⟩ : BufTy).Contents (Elt Ideal)) (x6 : (⟨S8192, .i32⟩ : BufTy).Contents (Elt Ideal))
    (r : Fin 8192) (d : Fin 2048) :
    val_main_v21 (F := Ideal) x0 x6 (ix2 r d) = Spec.unitRow x0 r d * Spec.ind (x6 (ix1 r)) 1#32 := by
  rw [val_main_v21_apply, v6_unit, val_main_v20_apply, val_main_v19_apply, val_main_v12_apply,
    val_main_v11_apply, val_main_v10_apply, val_main_c_1_apply, uitofp_cmpi_eq]
  have e : idx_main_v19 (idx_main_v20 (ix2 r d)) = ix1 r := funext fun a => by match a with | ⟨0, _⟩ => rfl
  rw [e]
  rfl

/-! ## The seven results -/
variable (x0 x1 x2 x3 : (⟨S8192x2048, .f32⟩ : BufTy).Contents (Elt Ideal))
variable (x4 : (⟨S8192x1000, .f32⟩ : BufTy).Contents (Elt Ideal))
variable (x5 x6 : (⟨S8192, .i32⟩ : BufTy).Contents (Elt Ideal))

/-- The first scatter-add is the label sum of modality 0. -/
theorem v18_eq (l : Fin 256) (d : Fin 2048) :
    val_main_v18 (F := Ideal) x0 x5 x6 (ix2 l d) = Spec.selSum x0 x5 x6 0#32 l d := by
  unfold val_main_v18
  refine (scatter_apply _ _ _ l d).trans ?_
  rw [val_main_v16_apply, val_main_cst_2_apply, Ideal.ofBits_def, Ideal.ofBits_zero_f32, zero_add]
  unfold Spec.selSum
  refine Finset.sum_congr rfl fun r _ => ?_
  have e : idx_main_v17 (ix2 r 0) = ix1 r := funext fun a => by match a with | ⟨0, _⟩ => rfl
  rw [val_main_v17_apply, e, v15_masked]
/-- The second scatter-add is the label sum of modality 1. -/
theorem v24_eq (l : Fin 256) (d : Fin 2048) :
    val_main_v24 (F := Ideal) x0 x5 x6 (ix2 l d) = Spec.selSum x0 x5 x6 1#32 l d := by
  unfold val_main_v24
  refine (scatter_apply _ _ _ l d).trans ?_
  rw [val_main_v22_apply, val_main_cst_3_apply, Ideal.ofBits_def, Ideal.ofBits_zero_f32, zero_add]
  unfold Spec.selSum
  refine Finset.sum_congr rfl fun r _ => ?_
  have e : idx_main_v23 (ix2 r 0) = ix1 r := funext fun a => by match a with | ⟨0, _⟩ => rfl
  rw [val_main_v23_apply, e, v21_masked]

/-- The three sums of absolute row products are the pair sums. -/
theorem v89_eq (i : S_.Idx) : val_main_v89 (F := Ideal) x1 x2 i = Spec.pairSum x1 x2 := by
  rw [val_main_v89_apply, val_main_cst_28_apply, sum_idx1]
  have e : ∀ (r : Fin 8192) (k : Fin 2048), idx_main_v87 (ix1 r) k = ix2 r k := fun r k =>
    funext fun a => by match a with | ⟨0, _⟩ => rfl | ⟨1, _⟩ => rfl
  simp only [val_main_v88_apply, val_main_v87_apply, val_main_cst_27_apply, val_main_v86_apply, e,
    v71_unit, v78_unit, Ideal.ofBits_def, Ideal.ofBits_zero_f32, zero_add, Ideal.mulf_def, Ideal.hostAbsf_def,
    Ideal.absf_def]
  rfl
theorem v94_eq (i : S_.Idx) : val_main_v94 (F := Ideal) x1 x3 i = Spec.pairSum x1 x3 := by
  rw [val_main_v94_apply, val_main_cst_31_apply, sum_idx1]
  have e : ∀ (r : Fin 8192) (k : Fin 2048), idx_main_v92 (ix1 r) k = ix2 r k := fun r k =>
    funext fun a => by match a with | ⟨0, _⟩ => rfl | ⟨1, _⟩ => rfl
  simp only [val_main_v93_apply, val_main_v92_apply, val_main_cst_30_apply, val_main_v91_apply, e,
    v71_unit, v85_unit, Ideal.ofBits_def, Ideal.ofBits_zero_f32, zero_add, Ideal.mulf_def, Ideal.hostAbsf_def,
    Ideal.absf_def]
  rfl
theorem v99_eq (i : S_.Idx) : val_main_v99 (F := Ideal) x2 x3 i = Spec.pairSum x2 x3 := by
  rw [val_main_v99_apply, val_main_cst_34_apply, sum_idx1]
  have e : ∀ (r : Fin 8192) (k : Fin 2048), idx_main_v97 (ix1 r) k = ix2 r k := fun r k =>
    funext fun a => by match a with | ⟨0, _⟩ => rfl | ⟨1, _⟩ => rfl
  simp only [val_main_v98_apply, val_main_v97_apply, val_main_cst_33_apply, val_main_v96_apply, e,
    v78_unit, v85_unit, Ideal.ofBits_def, Ideal.ofBits_zero_f32, zero_add, Ideal.mulf_def, Ideal.hostAbsf_def,
    Ideal.absf_def]
  rfl

/-- The two masked column sums of the softmax are the class sums. -/
theorem v127_eq (k : Fin 1000) : val_main_v127 (F := Ideal) x4 x6 (ix1 k) = Spec.classSum x4 x6 0#32 k := by
  rw [val_main_v127_apply, val_main_cst_44_apply]
  have e : ∀ r : Fin 8192, idx_main_v127 (ix1 k) r = ix2 r k := fun r =>
    funext fun a => by match a with | ⟨0, _⟩ => rfl | ⟨1, _⟩ => rfl
  have e2 : ∀ r : Fin 8192, idx_main_v124 (idx_main_v125 (ix2 r k)) = ix1 r := fun r =>
    funext fun a => by match a with | ⟨0, _⟩ => rfl
  simp only [e, val_main_v126_apply, val_main_v125_apply, val_main_v124_apply, val_main_v118_apply,
    val_main_v117_apply, val_main_v116_apply, val_main_c_40_apply, e2, v115_soft, uitofp_cmpi_eq, Ideal.ofBits_def,
    Ideal.ofBits_zero_f32, zero_add, Ideal.mulf_def]
  rfl
theorem v134_eq (k : Fin 1000) : val_main_v134 (F := Ideal) x4 x6 (ix1 k) = Spec.classSum x4 x6 1#32 k := by
  rw [val_main_v134_apply, val_main_cst_46_apply]
  have e : ∀ r : Fin 8192, idx_main_v134 (ix1 k) r = ix2 r k := fun r =>
    funext fun a => by match a with | ⟨0, _⟩ => rfl | ⟨1, _⟩ => rfl
  have e2 : ∀ r : Fin 8192, idx_main_v131 (idx_main_v132 (ix2 r k)) = ix1 r := fun r =>
    funext fun a => by match a with | ⟨0, _⟩ => rfl
  simp only [e, val_main_v133_apply, val_main_v132_apply, val_main_v131_apply, val_main_v121_apply,
    val_main_v120_apply, val_main_v119_apply, val_main_c_41_apply, e2, v115_soft, uitofp_cmpi_eq, Ideal.ofBits_def,
    Ideal.ofBits_zero_f32, zero_add, Ideal.mulf_def]
  rfl

end Cert.ReferenceIdeal.Stages

end
-- ==== Proof.RefTail.lean ====
/-
  The reference program's result is the same function of ITS seven intermediate results — the two scatter-added
  label-sum matrices, the three sums of absolute row products, the two masked column sums of the softmax — and of the
  labels and modalities as the kernel program's host tail is of its region results: after those seven values the two
  programs apply the same operations in the same order to the same constants.
-/
import proofs.«423768_j88124138979690_2_alg».proof.Proof.RefRead
import proofs.«423768_j88124138979690_2_alg».proof.Proof.TailDef

set_option maxRecDepth 16384

noncomputable section

namespace Cert.ReferenceIdeal.RefTail

open Idealize.ShloMosaic
open Cert.ReferenceIdeal Cert.ReferenceIdeal.Gen Cert.ReferenceIdeal.Read

variable {F : FTy → Type} [FloatOps F]

set_option maxHeartbeats 4000000 in
/-- The last stage of the reference is the host tail of its seven intermediate stages. -/
theorem result_eq (x0 x1 x2 x3 : (⟨S8192x2048, .f32⟩ : BufTy).Contents (Elt F))
    (x4 : (⟨S8192x1000, .f32⟩ : BufTy).Contents (Elt F)) (x5 x6 : (⟨S8192, .i32⟩ : BufTy).Contents (Elt F)) :
    val_main_v153 (F := F) x0 x1 x2 x3 x4 x5 x6
      = Cert.KernelIdeal.Tail.tail (F := F) (val_main_v18 (F := F) x0 x5 x6) (val_main_v24 (F := F) x0 x5 x6)
          (val_main_v89 (F := F) x1 x2) (val_main_v94 (F := F) x1 x3) (val_main_v99 (F := F) x2 x3)
          (val_main_v127 (F := F) x4 x6) (val_main_v134 (F := F) x4 x6) x5 x6 := by
  simp only [val_main_v0, val_main_cst, val_main_v1, val_main_v2, val_main_v3, val_main_cst_0, val_main_call0_v0, val_main_call0_v1, val_main_v4, val_main_v5, val_main_v6, val_main_c, val_main_v7, val_main_v8, val_main_v9, val_main_c_1, val_main_v10, val_main_v11, val_main_v12, val_main_v13, val_main_v14, val_main_v15, val_main_cst_2, val_main_v16, val_main_v17, val_main_v19, val_main_v20, val_main_v21, val_main_cst_3, val_main_v22, val_main_v23, val_main_cst_4, val_main_v25, val_main_v26, val_main_v27, val_main_cst_5, val_main_v28, val_main_v29, val_main_v30, val_main_cst_6, val_main_v31, val_main_v32, val_main_v33, val_main_v34, val_main_v35, val_main_cst_7, val_main_v36, val_main_v37, val_main_v38, val_main_v39, val_main_v40, val_main_v41, val_main_cst_8, val_main_v42, val_main_cst_9, val_main_v43, val_main_v44, val_main_v45, val_main_cst_10, val_main_v46, val_main_cst_11, val_main_v47, val_main_v48, val_main_cst_12, val_main_v49, val_main_v50, val_main_cst_13, val_main_v51, val_main_v52, val_main_v53, val_main_v54, val_main_v55, val_main_cst_14, val_main_call1_v0, val_main_call1_v1, val_main_v56, val_main_v57, val_main_cst_15, val_main_v58, val_main_cst_16, val_main_v59, val_main_cst_17, val_main_v60, val_main_cst_18, val_main_v61, val_main_v62, val_main_cst_19, val_main_call2_v0, val_main_v63, val_main_cst_20, val_main_v64, val_main_v65, val_main_cst_21, val_main_v66, val_main_v67, val_main_v68, val_main_cst_22, val_main_call3_v0, val_main_call3_v1, val_main_v69, val_main_v70, val_main_v71, val_main_v72, val_main_cst_23, val_main_v73, val_main_v74, val_main_v75, val_main_cst_24, val_main_call4_v0, val_main_call4_v1, val_main_v76, val_main_v77, val_main_v78, val_main_v79, val_main_cst_25, val_main_v80, val_main_v81, val_main_v82, val_main_cst_26, val_main_call5_v0, val_main_call5_v1, val_main_v83, val_main_v84, val_main_v85, val_main_v86, val_main_cst_27, val_main_v87, val_main_v88, val_main_cst_28, val_main_cst_29, val_main_v90, val_main_v91, val_main_cst_30, val_main_v92, val_main_v93, val_main_cst_31, val_main_cst_32, val_main_v95, val_main_v96, val_main_cst_33, val_main_v97, val_main_v98, val_main_cst_34, val_main_cst_35, val_main_v100, val_main_v101, val_main_v102, val_main_cst_36, val_main_v103, val_main_v104, val_main_cst_37, val_main_v105, val_main_cst_38, val_main_v106, val_main_v107, val_main_v108, val_main_v109, val_main_v110, val_main_v111, val_main_cst_39, val_main_v112, val_main_v113, val_main_v114, val_main_v115, val_main_c_40, val_main_v116, val_main_v117, val_main_v118, val_main_c_41, val_main_v119, val_main_v120, val_main_v121, val_main_cst_42, val_main_v122, val_main_cst_43, val_main_v123, val_main_v124, val_main_v125, val_main_v126, val_main_cst_44, val_main_cst_45, val_main_v128, val_main_v129, val_main_v130, val_main_v131, val_main_v132, val_main_v133, val_main_cst_46, val_main_cst_47, val_main_v135, val_main_v136, val_main_v137, val_main_v138, val_main_v139, val_main_v140, val_main_v141, val_main_cst_48, val_main_v142, val_main_v143, val_main_v144, val_main_cst_49, val_main_v145, val_main_v146, val_main_cst_50, val_main_v147, val_main_cst_51, val_main_v148, val_main_cst_52, val_main_v149, val_main_v150, val_main_cst_53, val_main_call6_v0, val_main_v151, val_main_cst_54, val_main_v152, val_main_v153]
  rfl

end Cert.ReferenceIdeal.RefTail

end
-- ==== Proof.RefValue.lean ====
/-
  The reference program's result at the ideal instance: the same host tail of the same closed forms of its argument
  arrays.  Its last stage is the tail of its seven intermediate stages, and each of those is a closed form.
-/
import proofs.«423768_j88124138979690_2_alg».proof.Proof.RefStages
import proofs.«423768_j88124138979690_2_alg».proof.Proof.RefTail
import proofs.«423768_j88124138979690_2_alg».proof.Proof.SpecArrays

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable (x0 x1 x2 x3 : (⟨S8192x2048, .f32⟩ : BufTy).Contents (Elt Ideal))
variable (x4 : (⟨S8192x1000, .f32⟩ : BufTy).Contents (Elt Ideal))
variable (x5 x6 : (⟨S8192, .i32⟩ : BufTy).Contents (Elt Ideal))

theorem h18 : val_main_v18 (F := Ideal) x0 x5 x6 = Spec.selArr x0 x5 x6 0#32 := by
  funext i
  obtain ⟨l, d, rfl⟩ : ∃ (l : Fin 256) (d : Fin 2048), i = ix2 l d := ⟨i 0, i 1, eq_ix2 i⟩
  exact Stages.v18_eq x0 x5 x6 l d
theorem h24 : val_main_v24 (F := Ideal) x0 x5 x6 = Spec.selArr x0 x5 x6 1#32 := by
  funext i
  obtain ⟨l, d, rfl⟩ : ∃ (l : Fin 256) (d : Fin 2048), i = ix2 l d := ⟨i 0, i 1, eq_ix2 i⟩
  exact Stages.v24_eq x0 x5 x6 l d
theorem h89 : val_main_v89 (F := Ideal) x1 x2 = Spec.pairArr x1 x2 := funext fun i => Stages.v89_eq x1 x2 i
theorem h94 : val_main_v94 (F := Ideal) x1 x3 = Spec.pairArr x1 x3 := funext fun i => Stages.v94_eq x1 x3 i
theorem h99 : val_main_v99 (F := Ideal) x2 x3 = Spec.pairArr x2 x3 := funext fun i => Stages.v99_eq x2 x3 i
theorem h127 : val_main_v127 (F := Ideal) x4 x6 = Spec.classArr x4 x6 0#32 := by
  funext i
  obtain ⟨k, rfl⟩ : ∃ k : Fin 1000, i = ix1 k := ⟨i 0, eq_ix1 i⟩
  exact Stages.v127_eq x4 x6 k
theorem h134 : val_main_v134 (F := Ideal) x4 x6 = Spec.classArr x4 x6 1#32 := by
  funext i
  obtain ⟨k, rfl⟩ : ∃ k : Fin 1000, i = ix1 k := ⟨i 0, eq_ix1 i⟩
  exact Stages.v134_eq x4 x6 k

/-- The reference's last stage is the host tail of the closed forms of its arguments. -/
theorem stage_eq : val_main_v153 (F := Ideal) x0 x1 x2 x3 x4 x5 x6
    = Cert.KernelIdeal.Tail.tail (F := Ideal) (Spec.selArr x0 x5 x6 0#32) (Spec.selArr x0 x5 x6 1#32)
        (Spec.pairArr x1 x2) (Spec.pairArr x1 x3) (Spec.pairArr x2 x3) (Spec.classArr x4 x6 0#32) (Spec.classArr x4 x6 1#32) x5 x6 := by
  rw [RefTail.result_eq, h18, h24, h89, h94, h99, h127, h134]

/-- The reference's result, from a memory whose argument arrays are `y0 … y6`. -/
theorem value (m : (ℓ : Loc nD τ sig) → Buf (Elt Ideal) ℓ) (c : Dev nD)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (h6 : m ((c.tc : Thread nD τ).loc main_arg6) = x6) :
    Cert.ReferenceIdeal.Value.res_main_v153 m c
      = Cert.KernelIdeal.Tail.tail (F := Ideal) (Spec.selArr x0 x5 x6 0#32) (Spec.selArr x0 x5 x6 1#32)
          (Spec.pairArr x1 x2) (Spec.pairArr x1 x3) (Spec.pairArr x2 x3) (Spec.classArr x4 x6 0#32) (Spec.classArr x4 x6 1#32) x5 x6 := by
  subst h0 h1 h2 h3 h4 h5 h6
  rw [val_main_v153_eq]
  exact stage_eq _ _ _ _ _ _ _

end Cert.ReferenceIdeal.RefValue

end
-- ==== Proof.lean ====
/-
  The kernel — three Pallas calls that accumulate, over a grid of two halves, per-label sums of unit feature rows by
  a one-hot matrix product, sums of absolute inner products of unit rows, and masked column sums of a softmax,
  followed by a scalar loss computed on the host — against the jnp reference that computes the same loss with
  segment sums, means and `jax.nn.softmax`.

  Over the extended reals both programs end at ONE value: the host tail (`Tail.tail`) of the label sums, the pair sums
  and the class sums of the argument arrays (`Spec`).  On the kernel's side each kernel's result array is, half by
  half, the running block after the half's last grid point; a point adds the term of its rows and the first point of
  a half starts from zero, so the halves summed by the host are sums over all 8192 rows; the one-hot product picks,
  for label l, exactly the rows labelled l (a label outside 0 … 255 picks none, as the reference's scatter-add drops
  it).  On the reference's side the scatter-add is by definition the sum of the updates that land on an element.
  Only commutativity and associativity of + and 1·y = y, 0·y = 0 on the extended reals are used: the precondition
  (finite inputs) is never opened.  The frames are the generated ones; the reference's frame is its run with the
  result dropped; the ideal pass rewrote nothing.
-/
import proofs.«423768_j88124138979690_2_alg».proof.Defs
import proofs.«423768_j88124138979690_2_alg».proof.Proof.Gen.Kernel
import proofs.«423768_j88124138979690_2_alg».proof.Proof.Gen.Kernel.Frame
import proofs.«423768_j88124138979690_2_alg».proof.Proof.Gen.KernelIdeal
import proofs.«423768_j88124138979690_2_alg».proof.Proof.Gen.KernelIdeal.Frame
import proofs.«423768_j88124138979690_2_alg».proof.Proof.Gen.ReferenceIdeal
import proofs.«423768_j88124138979690_2_alg».proof.Proof.Gen.Pre_finite_inputs
import proofs.«423768_j88124138979690_2_alg».proof.Proof.KRun
import proofs.«423768_j88124138979690_2_alg».proof.Proof.KernelValue
import proofs.«423768_j88124138979690_2_alg».proof.Proof.RefRun
import proofs.«423768_j88124138979690_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the host tail of the closed forms of the (agreeing) argument arrays. -/
theorem algebraic : Cert.algebraic_KernelIdeal_ReferenceIdeal := by
  intro m ρ m' ρ' _ hagree
  refine ⟨fun c => Cert.KernelIdeal.Value.result m c, ?_, ?_⟩
  · exact (θ_run Cert.KernelIdeal.defs _ _).mono
      (fun _ h c => ⟨(h c).1.trans (Cert.KernelIdeal.Value.value m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    exact Cert.ReferenceIdeal.RefValue.value _ _ _ _ _ _ _ m' c (hagree c).1 (hagree c).2.1 (hagree c).2.2.1
      (hagree c).2.2.2.1 (hagree c).2.2.2.2.1 (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
